-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2x8 : Shape := ⟨2, ![2, 8]⟩
abbrev S8 : Shape := ⟨1, ![8]⟩
abbrev S8x4 : Shape := ⟨2, ![8, 4]⟩
abbrev S4 : Shape := ⟨1, ![4]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v13 : IVec S_ 1) (main_v16 : IVec S8x4 1) : IVec S_ 1 :=
  let main_c_5 : IVec S_ 1 := constantI S_ 1 1#1
  let main_v17 : IVec S_ 1 := (fun x v => Host.reduce IntOp.andi x v reducesTo_S8x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S2097152x2 .f32) (main_arg1 : FVec F S2x8 .f32) (main_arg2 : FVec F S8 .f32) (main_arg3 : FVec F S8x4 .f32) (main_arg4 : FVec F S4 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2x8 .f32 := Host.absf main_arg1
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x4 .f32 := Host.absf main_arg3
  let main_cst_4 : FVec F S_ .f32 := constant S_ .f32 0x7F800000#32
  let main_v15 : FVec F S8x4 .f32 := broadcastInDim S8x4 ![] bcast_S_S8x4 main_cst_4
  let main_v16 : IVec S8x4 1 := cmpf .olt main_v14 main_v15
  fn_part1 (F := F) main_arg4 main_v13 main_v16
-- ==== Kernel.lean ====
abbrev S2097152x2 : Shape := ⟨2, ![2097152, 2]⟩
abbrev S2x8 : Shape := ⟨2, ![2, 8]⟩
abbrev S8 : Shape := ⟨1, ![8]⟩
abbrev S8x4 : Shape := ⟨2, ![8, 4]⟩
abbrev S4 : Shape := ⟨1, ![4]⟩
abbrev S8192x2 : Shape := ⟨2, ![8192, 2]⟩
abbrev S512x2 : Shape := ⟨2, ![512, 2]⟩
abbrev S512x8 : Shape := ⟨2, ![512, 8]⟩
abbrev S1x8 : Shape := ⟨2, ![1, 8]⟩
abbrev S512x4 : Shape := ⟨2, ![512, 4]⟩
abbrev S1x4 : Shape := ⟨2, ![1, 4]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2097152x2, .f32⟩
  | .hbm, ⟨1, _⟩ => ⟨S2x8, .f32⟩
  | .hbm, ⟨2, _⟩ => ⟨S8, .f32⟩
  | .hbm, ⟨3, _⟩ => ⟨S8x4, .f32⟩
  | .hbm, ⟨4, _⟩ => ⟨S4, .f32⟩
  | .hbm, ⟨5, _⟩ => ⟨S2097152x2, .f32⟩
  | .local _ .vmem, ⟨0, _⟩ => ⟨S8192x2, .f32⟩
  | .local _ .vmem, ⟨1, _⟩ => ⟨S8192x2, .f32⟩
  | .local _ .vmem, ⟨2, _⟩ => ⟨S2x8, .f32⟩
  | .local _ .vmem, ⟨3, _⟩ => ⟨S8, .f32⟩
  | .local _ .vmem, ⟨4, _⟩ => ⟨S8x4, .f32⟩
  | .local _ .vmem, ⟨5, _⟩ => ⟨S4, .f32⟩
  | .local _ .vmem, ⟨6, _⟩ => ⟨S8192x2, .f32⟩
  | .local _ .vmem, ⟨7, _⟩ => ⟨S8192x2, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  v5
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v7 : Index := Scalar.indexCast v6
  let c0_6 : Index := 0#32
  ![v7.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v148 : Index := Scalar.indexCast v6
  let c0_22 : Index := 0#32
  ![v148.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v5 : BitVec 32 := Scalar.muli arg7 c512_i32
  let v6 : BitVec 32 := v5
  let v150 : Index := Scalar.indexCast v6
  let c1 : Index := 1#32
  ![v150.toNat, 1]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x8_S2x8_0_0 : ∀ a, (![0, 0] : Fin 2 → Nat) a + S2x8.size a ≤ S2x8.size a
  h_S2x8 : 0 < S2x8.numel
  inb_S8_S8_0 : ∀ a, (![0] : Fin 1 → Nat) a + S8.size a ≤ S8.size a
  h_S8 : 0 < S8.numel
  inb_S8x4_S8x4_0_0 : ∀ a, (![0, 0] : Fin 2 → Nat) a + S8x4.size a ≤ S8x4.size a
  h_S8x4 : 0 < S8x4.numel
  inb_S4_S4_0 : ∀ a, (![0] : Fin 1 → Nat) a + S4.size a ≤ S4.size a
  h_S4 : 0 < S4.numel
  h_S512x2 : 0 < S512x2.numel
  shapeCasts_S8_S1x8 : S8.ShapeCasts S1x8
  broadcasts_S1x8_S512x8 : S1x8.Broadcasts S512x8
  shapeCasts_S4_S1x4 : S4.ShapeCasts S1x4
  broadcasts_S1x4_S512x4 : S1x4.Broadcasts S512x4
  slices_S512x2_o0_0_S512x1 : S512x2.Slices ![0, 0] S512x1
  slices_S512x2_o0_1_S512x1 : S512x2.Slices ![0, 1] S512x1
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  h_S512x1 : 0 < S512x1.numel
  dot_S512x2_S2x8_S512x8_1_0_0_1_n_n_wf : DotDims.WF S512x2 S2x8 S512x8 [1] [0] [0] [1] [] []
  dot_S512x8_S8x4_S512x4_1_0_0_1_n_n_wf : DotDims.WF S512x8 S8x4 S512x4 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S512x2.size a ≤ S8192x2.size a
  k0_off2_inb : ∀ k0_t1 : Fin k0_t1_loop.trips, ∀ a, (k0_off2 k0_t1) a + S512x1.size a ≤ S8192x2.size a
  k0_off3_inb : ∀ k0_t1 : Fin k0_t1_loop.trips, ∀ a, (k0_off3 k0_t1) a + S512x1.size a ≤ S8192x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S2097152x2.size a
  hwx0_0 : ∀ i : grid0.Coords, EltTy.bits .f32 = 32 ∨ (Rect.block (s := S2097152x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8.size a ≤ S2x8.size a
  hwx0_1 : ∀ i : grid0.Coords, EltTy.bits .f32 = 32 ∨ (Rect.block (s := S2x8) S2x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4.size a ≤ S8x4.size a
  hwx0_3 : ∀ i : grid0.Coords, EltTy.bits .f32 = 32 ∨ (Rect.block (s := S8x4) S8x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x2.size a ≤ S2097152x2.size a
  hwx0_5 : ∀ i : grid0.Coords, EltTy.bits .f32 = 32 ∨ (Rect.block (s := S2097152x2) S8192x2.size (cc0_transform_5 i) (hinb0_5 i)).WholeWords (EltTy.packing .f32)

variable [Facts₀]

def dot_S512x2_S2x8_S512x8_1_0_0_1_n_n : DotDims S512x2 S2x8 S512x8 where
  lhsContracting := [1]
  rhsContracting := [0]
  lhsNonContracting := [0]
  rhsNonContracting := [1]
  lhsBatch := []
  rhsBatch := []
  wf := dot_S512x2_S2x8_S512x8_1_0_0_1_n_n_wf
def dot_S512x8_S8x4_S512x4_1_0_0_1_n_n : DotDims S512x8 S8x4 S512x4 where
  lhsContracting := [1]
  rhsContracting := [0]
  lhsNonContracting := [0]
  rhsNonContracting := [1]
  lhsBatch := []
  rhsBatch := []
  wf := dot_S512x8_S8x4_S512x4_1_0_0_1_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2x8 : Shape := ⟨2, ![2, 8]⟩
abbrev S8 : Shape := ⟨1, ![8]⟩
abbrev S8x4 : Shape := ⟨2, ![8, 4]⟩
abbrev S4 : Shape := ⟨1, ![4]⟩
abbrev S2097152x8 : Shape := ⟨2, ![2097152, 8]⟩
abbrev S1x8 : Shape := ⟨2, ![1, 8]⟩
abbrev S2097152x4 : Shape := ⟨2, ![2097152, 4]⟩
abbrev S1x4 : Shape := ⟨2, ![1, 4]⟩
abbrev S_ : Shape := ⟨0, ![]⟩
abbrev S1 : Shape := ⟨1, ![1]⟩
abbrev S2097152 : Shape := ⟨1, ![2097152]⟩
abbrev S2097152x2x2 : Shape := ⟨3, ![2097152, 2, 2]⟩
abbrev S2097152x1 : Shape := ⟨2, ![2097152, 1]⟩
abbrev S2097152x1x2 : Shape := ⟨3, ![2097152, 1, 2]⟩
abbrev S2097152x2x1 : Shape := ⟨3, ![2097152, 2, 1]⟩
abbrev S4x1 : Shape := ⟨2, ![4, 1]⟩

abbrev nBuf : Space → Nat
  | .hbm => 244
  | .vmem => 0
  | .smem => 0
  | _ => 0

abbrev hbmTy0_0 (i : Nat) : BufTy := match i % 128 with
  | 0 => ⟨S2097152x2, .f32⟩
  | 1 => ⟨S2x8, .f32⟩
  | 2 => ⟨S8, .f32⟩
  | 3 => ⟨S8x4, .f32⟩
  | 4 => ⟨S4, .f32⟩
  | 5 => ⟨S4, .i32⟩
  | 6 => ⟨S4, .i1⟩
  | 7 => ⟨S4, .i1⟩
  | 8 => ⟨S2097152x8, .f32⟩
  | 9 => ⟨S1x8, .f32⟩
  | 10 => ⟨S2097152x8, .f32⟩
  | 11 => ⟨S2097152x8, .f32⟩
  | 12 => ⟨S2097152x8, .f32⟩
  | 13 => ⟨S2097152x4, .f32⟩
  | 14 => ⟨S1x4, .f32⟩
  | 15 => ⟨S2097152x4, .f32⟩
  | 16 => ⟨S2097152x4, .f32⟩
  | 17 => ⟨S_, .f32⟩
  | 18 => ⟨S2097152x4, .f32⟩
  | 19 => ⟨S_, .i32⟩
  | 20 => ⟨S1, .i32⟩
  | 21 => ⟨S_, .f32⟩
  | 22 => ⟨S2097152, .f32⟩
  | 23 => ⟨S2097152x4, .f32⟩
  | 24 => ⟨S2097152x2x2, .f32⟩
  | 25 => ⟨S2097152x1, .f32⟩
  | 26 => ⟨S2097152, .f32⟩
  | 27 => ⟨S_, .f32⟩
  | 28 => ⟨S2097152, .f32⟩
  | 29 => ⟨S2097152, .f32⟩
  | 30 => ⟨S2097152, .f32⟩
  | 31 => ⟨S2097152x1, .f32⟩
  | 32 => ⟨S_, .f32⟩
  | 33 => ⟨S2097152, .f32⟩
  | 34 => ⟨S2097152, .f32⟩
  | 35 => ⟨S2097152, .f32⟩
  | 36 => ⟨S2097152x1, .f32⟩
  | 37 => ⟨S2097152x1x2, .f32⟩
  | 38 => ⟨S2097152x2, .f32⟩
  | 39 => ⟨S2097152x1x2, .f32⟩
  | 40 => ⟨S2097152x2, .f32⟩
  | 41 => ⟨S2097152x2, .f32⟩
  | 42 => ⟨S2097152x2, .f32⟩
  | 43 => ⟨S2097152x2, .f32⟩
  | 44 => ⟨S2097152x2, .f32⟩
  | 45 => ⟨S2097152x2, .f32⟩
  | 46 => ⟨S2097152x2, .f32⟩
  | 47 => ⟨S2097152x2, .f32⟩
  | 48 => ⟨S2097152x2, .f32⟩
  | 49 => ⟨S2097152x2, .f32⟩
  | 50 => ⟨S2097152x2, .f32⟩
  | 51 => ⟨S2097152x1x2, .f32⟩
  | 52 => ⟨S2097152x1x2, .f32⟩
  | 53 => ⟨S2097152x2x2, .f32⟩
  | 54 => ⟨S2097152x1, .f32⟩
  | 55 => ⟨S2097152, .f32⟩
  | 56 => ⟨S_, .f32⟩
  | 57 => ⟨S2097152, .f32⟩
  | 58 => ⟨S2097152, .f32⟩
  | 59 => ⟨S2097152, .f32⟩
  | 60 => ⟨S2097152x1, .f32⟩
  | 61 => ⟨S_, .f32⟩
  | 62 => ⟨S2097152, .f32⟩
  | 63 => ⟨S2097152, .f32⟩
  | 64 => ⟨S2097152, .f32⟩
  | 65 => ⟨S2097152x1, .f32⟩
  | 66 => ⟨S2097152x2x1, .f32⟩
  | 67 => ⟨S2097152x2, .f32⟩
  | 68 => ⟨S2097152x2x1, .f32⟩
  | 69 => ⟨S2097152x2, .f32⟩
  | 70 => ⟨S2097152x2, .f32⟩
  | 71 => ⟨S2097152x2, .f32⟩
  | 72 => ⟨S2097152x2, .f32⟩
  | 73 => ⟨S2097152x2, .f32⟩
  | 74 => ⟨S2097152x2, .f32⟩
  | 75 => ⟨S2097152x2, .f32⟩
  | 76 => ⟨S2097152x2, .f32⟩
  | 77 => ⟨S2097152x2, .f32⟩
  | 78 => ⟨S2097152x2, .f32⟩
  | 79 => ⟨S2097152x2, .f32⟩
  | 80 => ⟨S2097152x2x1, .f32⟩
  | 81 => ⟨S2097152x2x1, .f32⟩
  | 82 => ⟨S2097152x2x2, .f32⟩
  | 83 => ⟨S2097152x4, .f32⟩
  | 84 => ⟨S_, .i32⟩
  | 85 => ⟨S4, .i32⟩
  | 86 => ⟨S4, .i32⟩
  | 87 => ⟨S4, .i32⟩
  | 88 => ⟨S4x1, .i32⟩
  | 89 => ⟨S2097152x4, .f32⟩
  | 90 => ⟨S2097152x2x2, .f32⟩
  | 91 => ⟨S2097152x1, .f32⟩
  | 92 => ⟨S2097152, .f32⟩
  | 93 => ⟨S_, .f32⟩
  | 94 => ⟨S2097152, .f32⟩
  | 95 => ⟨S2097152, .f32⟩
  | 96 => ⟨S2097152, .f32⟩
  | 97 => ⟨S2097152x1, .f32⟩
  | 98 => ⟨S_, .f32⟩
  | 99 => ⟨S2097152, .f32⟩
  | 100 => ⟨S2097152, .f32⟩
  | 101 => ⟨S2097152, .f32⟩
  | 102 => ⟨S2097152x1, .f32⟩
  | 103 => ⟨S2097152x1x2, .f32⟩
  | 104 => ⟨S2097152x2, .f32⟩
  | 105 => ⟨S2097152x1x2, .f32⟩
  | 106 => ⟨S2097152x2, .f32⟩
  | 107 => ⟨S2097152x2, .f32⟩
  | 108 => ⟨S2097152x2, .f32⟩
  | 109 => ⟨S2097152x2, .f32⟩
  | 110 => ⟨S2097152x2, .f32⟩
  | 111 => ⟨S2097152x2, .f32⟩
  | 112 => ⟨S2097152x2, .f32⟩
  | 113 => ⟨S2097152x2, .f32⟩
  | 114 => ⟨S2097152x2, .f32⟩
  | 115 => ⟨S2097152x2, .f32⟩
  | 116 => ⟨S2097152x2, .f32⟩
  | 117 => ⟨S2097152x1x2, .f32⟩
  | 118 => ⟨S2097152x1x2, .f32⟩
  | 119 => ⟨S2097152x2x2, .f32⟩
  | 120 => ⟨S2097152x1, .f32⟩
  | 121 => ⟨S2097152, .f32⟩
  | 122 => ⟨S_, .f32⟩
  | 123 => ⟨S2097152, .f32⟩
  | 124 => ⟨S2097152, .f32⟩
  | 125 => ⟨S2097152, .f32⟩
  | 126 => ⟨S2097152x1, .f32⟩
  | 127 => ⟨S_, .f32⟩
  | _ => ⟨S2097152x2, .f32⟩

abbrev hbmTy0_1 (i : Nat) : BufTy := match i % 128 with
  | 0 => ⟨S2097152, .f32⟩
  | 1 => ⟨S2097152, .f32⟩
  | 2 => ⟨S2097152, .f32⟩
  | 3 => ⟨S2097152x1, .f32⟩
  | 4 => ⟨S2097152x2x1, .f32⟩
  | 5 => ⟨S2097152x2, .f32⟩
  | 6 => ⟨S2097152x2x1, .f32⟩
  | 7 => ⟨S2097152x2, .f32⟩
  | 8 => ⟨S2097152x2, .f32⟩
  | 9 => ⟨S2097152x2, .f32⟩
  | 10 => ⟨S2097152x2, .f32⟩
  | 11 => ⟨S2097152x2, .f32⟩
  | 12 => ⟨S2097152x2, .f32⟩
  | 13 => ⟨S2097152x2, .f32⟩
  | 14 => ⟨S2097152x2, .f32⟩
  | 15 => ⟨S2097152x2, .f32⟩
  | 16 => ⟨S2097152x2, .f32⟩
  | 17 => ⟨S2097152x2, .f32⟩
  | 18 => ⟨S2097152x2x1, .f32⟩
  | 19 => ⟨S2097152x2x1, .f32⟩
  | 20 => ⟨S2097152x2x2, .f32⟩
  | 21 => ⟨S2097152x4, .f32⟩
  | 22 => ⟨S_, .i32⟩
  | 23 => ⟨S4, .i32⟩
  | 24 => ⟨S4, .i32⟩
  | 25 => ⟨S4, .i32⟩
  | 26 => ⟨S4x1, .i32⟩
  | 27 => ⟨S2097152x4, .f32⟩
  | 28 => ⟨S2097152x2x2, .f32⟩
  | 29 => ⟨S2097152x1, .f32⟩
  | 30 => ⟨S2097152, .f32⟩
  | 31 => ⟨S_, .f32⟩
  | 32 => ⟨S2097152, .f32⟩
  | 33 => ⟨S2097152, .f32⟩
  | 34 => ⟨S2097152, .f32⟩
  | 35 => ⟨S2097152x1, .f32⟩
  | 36 => ⟨S_, .f32⟩
  | 37 => ⟨S2097152, .f32⟩
  | 38 => ⟨S2097152, .f32⟩
  | 39 => ⟨S2097152, .f32⟩
  | 40 => ⟨S2097152x1, .f32⟩
  | 41 => ⟨S2097152x1x2, .f32⟩
  | 42 => ⟨S2097152x2, .f32⟩
  | 43 => ⟨S2097152x1x2, .f32⟩
  | 44 => ⟨S2097152x2, .f32⟩
  | 45 => ⟨S2097152x2, .f32⟩
  | 46 => ⟨S2097152x2, .f32⟩
  | 47 => ⟨S2097152x2, .f32⟩
  | 48 => ⟨S2097152x2, .f32⟩
  | 49 => ⟨S2097152x2, .f32⟩
  | 50 => ⟨S2097152x2, .f32⟩
  | 51 => ⟨S2097152x2, .f32⟩
  | 52 => ⟨S2097152x2, .f32⟩
  | 53 => ⟨S2097152x2, .f32⟩
  | 54 => ⟨S2097152x2, .f32⟩
  | 55 => ⟨S2097152x1x2, .f32⟩
  | 56 => ⟨S2097152x1x2, .f32⟩
  | 57 => ⟨S2097152x2x2, .f32⟩
  | 58 => ⟨S2097152x1, .f32⟩
  | 59 => ⟨S2097152, .f32⟩
  | 60 => ⟨S_, .f32⟩
  | 61 => ⟨S2097152, .f32⟩
  | 62 => ⟨S2097152, .f32⟩
  | 63 => ⟨S2097152, .f32⟩
  | 64 => ⟨S2097152x1, .f32⟩
  | 65 => ⟨S_, .f32⟩
  | 66 => ⟨S2097152, .f32⟩
  | 67 => ⟨S2097152, .f32⟩
  | 68 => ⟨S2097152, .f32⟩
  | 69 => ⟨S2097152x1, .f32⟩
  | 70 => ⟨S2097152x2x1, .f32⟩
  | 71 => ⟨S2097152x2, .f32⟩
  | 72 => ⟨S2097152x2x1, .f32⟩
  | 73 => ⟨S2097152x2, .f32⟩
  | 74 => ⟨S2097152x2, .f32⟩
  | 75 => ⟨S2097152x2, .f32⟩
  | 76 => ⟨S2097152x2, .f32⟩
  | 77 => ⟨S2097152x2, .f32⟩
  | 78 => ⟨S2097152x2, .f32⟩
  | 79 => ⟨S2097152x2, .f32⟩
  | 80 => ⟨S2097152x2, .f32⟩
  | 81 => ⟨S2097152x2, .f32⟩
  | 82 => ⟨S2097152x2, .f32⟩
  | 83 => ⟨S2097152x2, .f32⟩
  | 84 => ⟨S2097152x2x1, .f32⟩
  | 85 => ⟨S2097152x2x1, .f32⟩
  | 86 => ⟨S2097152x2x2, .f32⟩
  | 87 => ⟨S2097152x4, .f32⟩
  | 88 => ⟨S2097152x4, .f32⟩
  | 89 => ⟨S2097152x1, .f32⟩
  | 90 => ⟨S2097152, .f32⟩
  | 91 => ⟨S2097152x1, .f32⟩
  | 92 => ⟨S2097152, .f32⟩
  | 93 => ⟨S2097152, .f32⟩
  | 94 => ⟨S2097152x1, .f32⟩
  | 95 => ⟨S2097152, .f32⟩
  | 96 => ⟨S2097152x1, .f32⟩
  | 97 => ⟨S2097152, .f32⟩
  | 98 => ⟨S2097152, .f32⟩
  | 99 => ⟨S2097152x1, .f32⟩
  | 100 => ⟨S2097152x1, .f32⟩
  | 101 => ⟨S2097152x2, .f32⟩
  | 102 => ⟨S_, .f32⟩
  | 103 => ⟨S2097152, .f32⟩
  | 104 => ⟨S_, .f32⟩
  | 105 => ⟨S2097152, .f32⟩
  | 106 => ⟨S2097152, .f32⟩
  | 107 => ⟨S2097152x1, .f32⟩
  | 108 => ⟨S2097152x2, .f32⟩
  | 109 => ⟨S2097152x2, .f32⟩
  | 110 => ⟨S2097152x2, .f32⟩
  | 111 => ⟨S_, .f32⟩
  | 112 => ⟨S2097152, .f32⟩
  | 113 => ⟨S2097152x1, .f32⟩
  | 114 => ⟨S2097152x2, .f32⟩
  | 115 => ⟨S2097152x2, .f32⟩
  | _ => ⟨S2097152x2, .f32⟩

abbrev hbmTy (i : Nat) : BufTy := match i / 128 with
  | 0 => hbmTy0_0 i
  | 1 => hbmTy0_1 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_11 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_12 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_c_13 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_cst_14 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_cst_15 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_cst_16 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_cst_17 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_cst_18 : Ref sig .tc := ⟨.hbm, 230, rfl⟩
abbrev main_v205 : Ref sig .tc := ⟨.hbm, 231, rfl⟩
abbrev main_cst_19 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_cst_20 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S2097152x8_0_1 : S1x8.BroadcastsInDim S2097152x8 (![0, 1] : Fin 2 → Fin S2097152x8.rank)
  bcast_S4_S1x4_1 : S4.BroadcastsInDim S1x4 (![1] : Fin 1 → Fin S1x4.rank)
  bcast_S1x4_S2097152x4_0_1 : S1x4.BroadcastsInDim S2097152x4 (![0, 1] : Fin 2 → Fin S2097152x4.rank)
  bcast_S_S2097152x4 : S_.BroadcastsInDim S2097152x4 (![] : Fin 0 → Fin S2097152x4.rank)
  bcast_S_S1 : S_.BroadcastsInDim S1 (![] : Fin 0 → Fin S1.rank)
  bcast_S_S2097152 : S_.BroadcastsInDim S2097152 (![] : Fin 0 → Fin S2097152.rank)
  shapeCasts_S2097152x4_S2097152x2x2 : S2097152x4.ShapeCasts S2097152x2x2
  slices_S2097152x2_S2097152x1_0_0 : S2097152x2.Slices ![0, 0] S2097152x1
  shapeCasts_S2097152x1_S2097152 : S2097152x1.ShapeCasts S2097152
  bcast_S2097152_S2097152x1_0 : S2097152.BroadcastsInDim S2097152x1 (![0] : Fin 1 → Fin S2097152x1.rank)
  slices_S2097152x2x2_S2097152x1x2_0_0_0 : S2097152x2x2.Slices ![0, 0, 0] S2097152x1x2
  shapeCasts_S2097152x1x2_S2097152x2 : S2097152x1x2.ShapeCasts S2097152x2
  slices_S2097152x2x2_S2097152x1x2_0_1_0 : S2097152x2x2.Slices ![0, 1, 0] S2097152x1x2
  bcast_S2097152x1_S2097152x2_0_1 : S2097152x1.BroadcastsInDim S2097152x2 (![0, 1] : Fin 2 → Fin S2097152x2.rank)
  bcast_S2097152x2_S2097152x1x2_0_2 : S2097152x2.BroadcastsInDim S2097152x1x2 (![0, 2] : Fin 2 → Fin S2097152x1x2.rank)
  concatenates_S2097152x1x2_S2097152x1x2_S2097152x2x2_d1 : Shape.Concatenates [S2097152x1x2, S2097152x1x2] S2097152x2x2 1
  slices_S2097152x2_S2097152x1_0_1 : S2097152x2.Slices ![0, 1] S2097152x1
  slices_S2097152x2x2_S2097152x2x1_0_0_0 : S2097152x2x2.Slices ![0, 0, 0] S2097152x2x1
  shapeCasts_S2097152x2x1_S2097152x2 : S2097152x2x1.ShapeCasts S2097152x2
  slices_S2097152x2x2_S2097152x2x1_0_0_1 : S2097152x2x2.Slices ![0, 0, 1] S2097152x2x1
  bcast_S2097152x2_S2097152x2x1_0_1 : S2097152x2.BroadcastsInDim S2097152x2x1 (![0, 1] : Fin 2 → Fin S2097152x2x1.rank)
  concatenates_S2097152x2x1_S2097152x2x1_S2097152x2x2_d2 : Shape.Concatenates [S2097152x2x1, S2097152x2x1] S2097152x2x2 2
  shapeCasts_S2097152x2x2_S2097152x4 : S2097152x2x2.ShapeCasts S2097152x4
  bcast_S_S4 : S_.BroadcastsInDim S4 (![] : Fin 0 → Fin S4.rank)
  bcast_S4_S4x1_0 : S4.BroadcastsInDim S4x1 (![0] : Fin 1 → Fin S4x1.rank)
  slices_S2097152x4_S2097152x1_0_0 : S2097152x4.Slices ![0, 0] S2097152x1
  slices_S2097152x4_S2097152x1_0_1 : S2097152x4.Slices ![0, 1] S2097152x1
  slices_S2097152x4_S2097152x1_0_2 : S2097152x4.Slices ![0, 2] S2097152x1
  slices_S2097152x4_S2097152x1_0_3 : S2097152x4.Slices ![0, 3] S2097152x1
  concatenates_S2097152x1_S2097152x1_S2097152x2_d1 : Shape.Concatenates [S2097152x1, S2097152x1] S2097152x2 1
  reducesTo_S2097152x2_S2097152_d1 : S2097152x2.ReducesTo [1] S2097152
  h_S_ : 0 < S_.numel
  dot_S2097152x2_S2x8_S2097152x8_1_0_0_1_n_n_wf : DotDims.WF S2097152x2 S2x8 S2097152x8 [1] [0] [0] [1] [] []
  dot_S2097152x8_S8x4_S2097152x4_1_0_0_1_n_n_wf : DotDims.WF S2097152x8 S8x4 S2097152x4 [1] [0] [0] [1] [] []
  scatter_S2097152x4_S1_S2097152_0_1_1_0_wf : ScatterDims.WF S2097152x4 S1 S2097152 [0] [1] [1] 0
  gather_S2097152x4_S4x1_S2097152x4_0_1_n_n_1_1_20971521_wf : GatherDims.WF S2097152x4 S4x1 S2097152x4 [0] [1] [] [1] [] 1 ![2097152, 1]

variable [Facts₀]

def dot_S2097152x2_S2x8_S2097152x8_1_0_0_1_n_n : DotDims S2097152x2 S2x8 S2097152x8 where
  lhsContracting := [1]
  rhsContracting := [0]
  lhsNonContracting := [0]
  rhsNonContracting := [1]
  lhsBatch := []
  rhsBatch := []
  wf := dot_S2097152x2_S2x8_S2097152x8_1_0_0_1_n_n_wf
def dot_S2097152x8_S8x4_S2097152x4_1_0_0_1_n_n : DotDims S2097152x8 S8x4 S2097152x4 where
  lhsContracting := [1]
  rhsContracting := [0]
  lhsNonContracting := [0]
  rhsNonContracting := [1]
  lhsBatch := []
  rhsBatch := []
  wf := dot_S2097152x8_S8x4_S2097152x4_1_0_0_1_n_n_wf
def scatter_S2097152x4_S1_S2097152_0_1_1_0 : ScatterDims S2097152x4 S1 S2097152 where
  updateWindowDims := [0]
  insertedWindowDims := [1]
  scatterDimsToOperandDims := [1]
  indexVectorDim := 0
  wf := scatter_S2097152x4_S1_S2097152_0_1_1_0_wf
def gather_S2097152x4_S4x1_S2097152x4_0_1_n_n_1_1_20971521 : GatherDims S2097152x4 S4x1 S2097152x4 where
  offsetDims := [0]
  collapsedSliceDims := [1]
  operandBatchingDims := []
  startIndicesBatchingDims := []
  startIndexMap := [1]
  indexVectorDim := 1
  sliceSizes := ![2097152, 1]
  wf := gather_S2097152x4_S4x1_S2097152x4_0_1_n_n_1_1_20971521_wf

class Facts : Prop extends Facts₀ where

variable [Facts]
-- ==== Proof.Spec.lean ====
/-
  The mathematics both programs compute, row by row.

  A row of the input holds two angles x = (x0, x1).  A small network turns them into four more
  angles  w = tanh(x · W1 + b1) · W2 + b2.  A two-qubit real state (four amplitudes a00 a01 a10 a11,
  starting at |00> = (1, 0, 0, 0)) is then rotated six times: a rotation of qubit 0 by angle θ mixes the
  pairs (a00, a10) and (a01, a11) with c = cos(θ/2), s = sin(θ/2), a rotation of qubit 1 mixes
  (a00, a01) and (a10, a11); after the second and the fourth rotation a controlled-not exchanges
  a10 and a11.  The squared amplitudes are grouped as  pA = a00² + a10²,  pB = a01² + a11²,  and the
  result is the two-way softmax of (pA, pB), shifted by their maximum.

  Every float literal is kept as its bit pattern (the same pattern occurs on both sides and is never
  evaluated), and every operation is the one the extended-real instance gives it.
-/
import Idealize.ShloMosaic.PureOps.Ideal
import Idealize.ShloMosaic.Lib.ValueIdx

noncomputable section

namespace Cert.Spec

open Idealize.ShloMosaic Idealize.ShloMosaic.ValueIdx

/-- The literal one half, one and zero, as their f32 patterns. -/
def half : EReal := Ideal.ofBits .f32 0x3F000000#32
def one : EReal := Ideal.ofBits .f32 0x3F800000#32
def zero : EReal := Ideal.ofBits .f32 0x00000000#32

/-- The four real amplitudes of a two-qubit state, indexed by (qubit 0, qubit 1). -/
structure Amp where
  a00 : EReal
  a01 : EReal
  a10 : EReal
  a11 : EReal

/-- The amplitudes as a function of the two qubit values, and back. -/
def Amp.of (f : Fin 2 → Fin 2 → EReal) : Amp := ⟨f 0 0, f 0 1, f 1 0, f 1 1⟩
def Amp.at (s : Amp) (p q : Fin 2) : EReal :=
  if p.val = 0 then (if q.val = 0 then s.a00 else s.a01) else (if q.val = 0 then s.a10 else s.a11)

theorem Amp.at_00 (s : Amp) : s.at 0 0 = s.a00 := rfl
theorem Amp.at_01 (s : Amp) : s.at 0 1 = s.a01 := rfl
theorem Amp.at_10 (s : Amp) : s.at 1 0 = s.a10 := rfl
theorem Amp.at_11 (s : Amp) : s.at 1 1 = s.a11 := rfl
theorem Amp.of_at (s : Amp) : Amp.of s.at = s := rfl

/-- Rotation of qubit 0 by θ: mixes the rows (a00, a01) and (a10, a11). -/
def rot0 (θ : EReal) (s : Amp) : Amp :=
  ⟨Ideal.cos (θ * half) * s.a00 - Ideal.sin (θ * half) * s.a10,
   Ideal.cos (θ * half) * s.a01 - Ideal.sin (θ * half) * s.a11,
   Ideal.sin (θ * half) * s.a00 + Ideal.cos (θ * half) * s.a10,
   Ideal.sin (θ * half) * s.a01 + Ideal.cos (θ * half) * s.a11⟩

/-- Rotation of qubit 1 by θ: mixes the columns (a00, a10) and (a01, a11). -/
def rot1 (θ : EReal) (s : Amp) : Amp :=
  ⟨Ideal.cos (θ * half) * s.a00 - Ideal.sin (θ * half) * s.a01,
   Ideal.sin (θ * half) * s.a00 + Ideal.cos (θ * half) * s.a01,
   Ideal.cos (θ * half) * s.a10 - Ideal.sin (θ * half) * s.a11,
   Ideal.sin (θ * half) * s.a10 + Ideal.cos (θ * half) * s.a11⟩

/-- The controlled-not with control qubit 0: exchanges a10 and a11. -/
def cx (s : Amp) : Amp := ⟨s.a00, s.a01, s.a11, s.a10⟩

/-- The state |00>. -/
def init : Amp := ⟨one, zero, zero, zero⟩

/-- Hidden unit j of the network: tanh of the row times column j of W1, plus the bias. -/
def hid (x : Fin 2 → EReal) (W1 : Fin 2 → Fin 8 → EReal) (b1 : Fin 8 → EReal) (j : Fin 8) : EReal :=
  Ideal.tanh ((∑ k : Fin 2, x k * W1 k j) + b1 j)

/-- Learned angle l of the row. -/
def ang (x : Fin 2 → EReal) (W1 : Fin 2 → Fin 8 → EReal) (b1 : Fin 8 → EReal) (W2 : Fin 8 → Fin 4 → EReal)
    (b2 : Fin 4 → EReal) (l : Fin 4) : EReal :=
  (∑ j : Fin 8, hid x W1 b1 j * W2 j l) + b2 l

/-- The state after the six rotations and two controlled-nots. -/
def amp (x : Fin 2 → EReal) (w : Fin 4 → EReal) : Amp :=
  rot1 (w 3) (rot0 (w 2) (cx (rot1 (w 1) (rot0 (w 0) (cx (rot1 (x 1) (rot0 (x 0) init)))))))

/-- Probability of reading qubit 1 as 0, and as 1. -/
def pA (s : Amp) : EReal := s.a00 * s.a00 + s.a10 * s.a10
def pB (s : Amp) : EReal := s.a01 * s.a01 + s.a11 * s.a11

/-- Two-way softmax shifted by the maximum: component 0 and component 1. -/
def soft0 (a b : EReal) : EReal :=
  Ideal.div (Ideal.exp (a - max a b)) (Ideal.exp (a - max a b) + Ideal.exp (b - max a b))
def soft1 (a b : EReal) : EReal :=
  Ideal.div (Ideal.exp (b - max a b)) (Ideal.exp (a - max a b) + Ideal.exp (b - max a b))

/-- The two results of a row. -/
def out0 (x : Fin 2 → EReal) (W1 : Fin 2 → Fin 8 → EReal) (b1 : Fin 8 → EReal) (W2 : Fin 8 → Fin 4 → EReal)
    (b2 : Fin 4 → EReal) : EReal :=
  soft0 (pA (amp x (ang x W1 b1 W2 b2))) (pB (amp x (ang x W1 b1 W2 b2)))
def out1 (x : Fin 2 → EReal) (W1 : Fin 2 → Fin 8 → EReal) (b1 : Fin 8 → EReal) (W2 : Fin 8 → Fin 4 → EReal)
    (b2 : Fin 4 → EReal) : EReal :=
  soft1 (pA (amp x (ang x W1 b1 W2 b2))) (pB (amp x (ang x W1 b1 W2 b2)))

/-- The weights read as matrices and vectors over plain coordinates. -/
def mat {a b : Nat} (W : (⟨2, ![a, b]⟩ : Shape).Idx → EReal) : Fin a → Fin b → EReal := fun p q => W (ix2 p q)
def vec {a : Nat} (v : (⟨1, ![a]⟩ : Shape).Idx → EReal) : Fin a → EReal := fun p => v (ix1 p)

/-- Row r of an n × 2 array of angles. -/
def row {n : Nat} (X : (⟨2, ![n, 2]⟩ : Shape).Idx → EReal) (r : Fin n) : Fin 2 → EReal := fun k => X (ix2 r k)

/-- THE RESULT ARRAY: entry (r, j) is component j of row r's result. Stated for any number n of rows, so that the
    same function describes a block of rows and the whole array. -/
def G {n : Nat} (X : (⟨2, ![n, 2]⟩ : Shape).Idx → EReal) (W1 : (⟨2, ![2, 8]⟩ : Shape).Idx → EReal)
    (b1 : (⟨1, ![8]⟩ : Shape).Idx → EReal) (W2 : (⟨2, ![8, 4]⟩ : Shape).Idx → EReal) (b2 : (⟨1, ![4]⟩ : Shape).Idx → EReal) :
    (⟨2, ![n, 2]⟩ : Shape).Idx → EReal := fun i =>
  if (i 1).val = 0 then out0 (row X (i 0)) (mat W1) (vec b1) (mat W2) (vec b2)
  else out1 (row X (i 0)) (mat W1) (vec b1) (mat W2) (vec b2)

theorem G_col0 {n : Nat} (X : (⟨2, ![n, 2]⟩ : Shape).Idx → EReal) (W1 : (⟨2, ![2, 8]⟩ : Shape).Idx → EReal)
    (b1 : (⟨1, ![8]⟩ : Shape).Idx → EReal) (W2 : (⟨2, ![8, 4]⟩ : Shape).Idx → EReal) (b2 : (⟨1, ![4]⟩ : Shape).Idx → EReal)
    (r : Fin n) : G X W1 b1 W2 b2 (ix2 r 0) = out0 (row X r) (mat W1) (vec b1) (mat W2) (vec b2) := by
  unfold G; exact if_pos rfl

theorem G_col1 {n : Nat} (X : (⟨2, ![n, 2]⟩ : Shape).Idx → EReal) (W1 : (⟨2, ![2, 8]⟩ : Shape).Idx → EReal)
    (b1 : (⟨1, ![8]⟩ : Shape).Idx → EReal) (W2 : (⟨2, ![8, 4]⟩ : Shape).Idx → EReal) (b2 : (⟨1, ![4]⟩ : Shape).Idx → EReal)
    (r : Fin n) : G X W1 b1 W2 b2 (ix2 r 1) = out1 (row X r) (mat W1) (vec b1) (mat W2) (vec b2) := by
  unfold G; exact if_neg (Nat.succ_ne_zero 0)

end Cert.Spec

end
-- ==== Proof.KernelChunk.lean ====
/-
  One chunk of 512 rows of the kernel's body: what the body stores for the chunk, as a function of the chunk's
  512 x 2 angles and the weights, read at a row.

  Row r of the chunk holds two angles x = (x0, x1).  The body forms the learned angles
  w = tanh(x · W1 + b1) · W2 + b2 for all rows at once (two matrix products into a zero accumulator, each read at
  an entry as the sum over its one contracted axis), cuts x and w into columns, and then works column by column,
  entry by entry: six plane rotations of the four amplitudes with two exchanges of a10 and a11 in between, the two
  probabilities, and their two-way softmax shifted by the maximum.  Read at row r, every step is the step of the
  row's specification, in the same order, so the two stored columns are out0 and out1 of the row.
-/
import proofs.«430581_j65481071406452_3_alg».proof.Proof.Gen.KernelIdeal.Skeleton
import proofs.«430581_j65481071406452_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The two matrix products read at an entry

For a product of an [m, n] array with an [n, p] array (contracting axis 1 of the left with axis 0 of the right, no
batch axis), the left operand's index at result entry (r, j) and contraction position k is (r, k) and the right
operand's is (k, j): one lemma per operand axis, then the product at an entry as the sum over k. -/

theorem lhs_D1_0 (i : S512x8.Idx) (q : dot_S512x2_S2x8_S512x8_1_0_0_1_n_n.contr.Idx) :
    (dot_S512x2_S2x8_S512x8_1_0_0_1_n_n.lhsIdx i q 0).val = (i 0).val := by
  unfold DotDims.lhsIdx
  rw [dif_neg (show ¬(0 : Fin S512x2.rank) ∈ dot_S512x2_S2x8_S512x8_1_0_0_1_n_n.lhsBatch by decide), dif_pos (show (0 : Fin S512x2.rank) ∈ dot_S512x2_S2x8_S512x8_1_0_0_1_n_n.lhsNonContracting by decide)]
  rfl
theorem lhs_D1_1 (i : S512x8.Idx) (q : dot_S512x2_S2x8_S512x8_1_0_0_1_n_n.contr.Idx) :
    (dot_S512x2_S2x8_S512x8_1_0_0_1_n_n.lhsIdx i q 1).val = (q ⟨0, by decide⟩).val :=
  dot_S512x2_S2x8_S512x8_1_0_0_1_n_n.lhsIdx_val_of_single rfl i q
theorem rhs_D1_0 (i : S512x8.Idx) (q : dot_S512x2_S2x8_S512x8_1_0_0_1_n_n.contr.Idx) :
    (dot_S512x2_S2x8_S512x8_1_0_0_1_n_n.rhsIdx i q 0).val = (q ⟨0, by decide⟩).val :=
  dot_S512x2_S2x8_S512x8_1_0_0_1_n_n.rhsIdx_val_of_single rfl i q
theorem rhs_D1_1 (i : S512x8.Idx) (q : dot_S512x2_S2x8_S512x8_1_0_0_1_n_n.contr.Idx) :
    (dot_S512x2_S2x8_S512x8_1_0_0_1_n_n.rhsIdx i q 1).val = (i 1).val := by
  unfold DotDims.rhsIdx
  rw [dif_neg (show ¬(1 : Fin S2x8.rank) ∈ dot_S512x2_S2x8_S512x8_1_0_0_1_n_n.rhsBatch by decide), dif_pos (show (1 : Fin S2x8.rank) ∈ dot_S512x2_S2x8_S512x8_1_0_0_1_n_n.rhsNonContracting by decide)]
  rfl

/-- The first product, angles times W1, at entry (r, j): the sum over the two angles of the row. -/
theorem mm1_apply (x : FVec Ideal S512x2 .f32) (W : FVec Ideal S2x8 .f32) (r : Fin 512) (j : Fin 8) :
    matmul dot_S512x2_S2x8_S512x8_1_0_0_1_n_n none x W (constant S512x8 .f32 0x00000000#32) (ix2 r j)
      = ∑ k : Fin 2, x (ix2 r k) * W (ix2 k j) := by
  simp only [matmul]
  rw [Ideal.matmul_constant_zero_apply, ← Equiv.sum_comp (contrEquiv1 dot_S512x2_S2x8_S512x8_1_0_0_1_n_n 2 rfl rfl).symm]
  refine Finset.sum_congr rfl fun k _ => ?_
  have hk := contrEquiv1_symm_val dot_S512x2_S2x8_S512x8_1_0_0_1_n_n 2 rfl rfl k
  have el : dot_S512x2_S2x8_S512x8_1_0_0_1_n_n.lhsIdx (ix2 r j) ((contrEquiv1 dot_S512x2_S2x8_S512x8_1_0_0_1_n_n 2 rfl rfl).symm k) = ix2 r k := funext fun a => Fin.ext (by
    match a with
    | ⟨0, _⟩ => exact lhs_D1_0 _ _
    | ⟨1, _⟩ => exact (lhs_D1_1 _ _).trans hk)
  have er : dot_S512x2_S2x8_S512x8_1_0_0_1_n_n.rhsIdx (ix2 r j) ((contrEquiv1 dot_S512x2_S2x8_S512x8_1_0_0_1_n_n 2 rfl rfl).symm k) = ix2 k j := funext fun a => Fin.ext (by
    match a with
    | ⟨0, _⟩ => exact (rhs_D1_0 _ _).trans hk
    | ⟨1, _⟩ => exact rhs_D1_1 _ _)
  rw [el, er]

theorem lhs_D2_0 (i : S512x4.Idx) (q : dot_S512x8_S8x4_S512x4_1_0_0_1_n_n.contr.Idx) :
    (dot_S512x8_S8x4_S512x4_1_0_0_1_n_n.lhsIdx i q 0).val = (i 0).val := by
  unfold DotDims.lhsIdx
  rw [dif_neg (show ¬(0 : Fin S512x8.rank) ∈ dot_S512x8_S8x4_S512x4_1_0_0_1_n_n.lhsBatch by decide), dif_pos (show (0 : Fin S512x8.rank) ∈ dot_S512x8_S8x4_S512x4_1_0_0_1_n_n.lhsNonContracting by decide)]
  rfl
theorem lhs_D2_1 (i : S512x4.Idx) (q : dot_S512x8_S8x4_S512x4_1_0_0_1_n_n.contr.Idx) :
    (dot_S512x8_S8x4_S512x4_1_0_0_1_n_n.lhsIdx i q 1).val = (q ⟨0, by decide⟩).val :=
  dot_S512x8_S8x4_S512x4_1_0_0_1_n_n.lhsIdx_val_of_single rfl i q
theorem rhs_D2_0 (i : S512x4.Idx) (q : dot_S512x8_S8x4_S512x4_1_0_0_1_n_n.contr.Idx) :
    (dot_S512x8_S8x4_S512x4_1_0_0_1_n_n.rhsIdx i q 0).val = (q ⟨0, by decide⟩).val :=
  dot_S512x8_S8x4_S512x4_1_0_0_1_n_n.rhsIdx_val_of_single rfl i q
theorem rhs_D2_1 (i : S512x4.Idx) (q : dot_S512x8_S8x4_S512x4_1_0_0_1_n_n.contr.Idx) :
    (dot_S512x8_S8x4_S512x4_1_0_0_1_n_n.rhsIdx i q 1).val = (i 1).val := by
  unfold DotDims.rhsIdx
  rw [dif_neg (show ¬(1 : Fin S8x4.rank) ∈ dot_S512x8_S8x4_S512x4_1_0_0_1_n_n.rhsBatch by decide), dif_pos (show (1 : Fin S8x4.rank) ∈ dot_S512x8_S8x4_S512x4_1_0_0_1_n_n.rhsNonContracting by decide)]
  rfl

/-- The second product, hidden units times W2, at entry (r, l): the sum over the eight hidden units of the row. -/
theorem mm2_apply (h : FVec Ideal S512x8 .f32) (W : FVec Ideal S8x4 .f32) (r : Fin 512) (l : Fin 4) :
    matmul dot_S512x8_S8x4_S512x4_1_0_0_1_n_n none h W (constant S512x4 .f32 0x00000000#32) (ix2 r l)
      = ∑ j : Fin 8, h (ix2 r j) * W (ix2 j l) := by
  simp only [matmul]
  rw [Ideal.matmul_constant_zero_apply, ← Equiv.sum_comp (contrEquiv1 dot_S512x8_S8x4_S512x4_1_0_0_1_n_n 8 rfl rfl).symm]
  refine Finset.sum_congr rfl fun k _ => ?_
  have hk := contrEquiv1_symm_val dot_S512x8_S8x4_S512x4_1_0_0_1_n_n 8 rfl rfl k
  have el : dot_S512x8_S8x4_S512x4_1_0_0_1_n_n.lhsIdx (ix2 r l) ((contrEquiv1 dot_S512x8_S8x4_S512x4_1_0_0_1_n_n 8 rfl rfl).symm k) = ix2 r k := funext fun a => Fin.ext (by
    match a with
    | ⟨0, _⟩ => exact lhs_D2_0 _ _
    | ⟨1, _⟩ => exact (lhs_D2_1 _ _).trans hk)
  have er : dot_S512x8_S8x4_S512x4_1_0_0_1_n_n.rhsIdx (ix2 r l) ((contrEquiv1 dot_S512x8_S8x4_S512x4_1_0_0_1_n_n 8 rfl rfl).symm k) = ix2 k l := funext fun a => Fin.ext (by
    match a with
    | ⟨0, _⟩ => exact (rhs_D2_0 _ _).trans hk
    | ⟨1, _⟩ => exact rhs_D2_1 _ _)
  rw [el, er]

/-- The learned angles at entry (r, l): the bias vectors are read as one row repeated over all rows, tanh acts entry by
    entry, so the entry is angle l of the row's network. -/
theorem pay14_apply (v0 : S2x8.Idx → EReal) (v1 : S8.Idx → EReal) (v2 : S8x4.Idx → EReal) (v3 : S4.Idx → EReal) (v8 : S512x2.Idx → EReal)
    (r : Fin 512) (l : Fin 4) :
    k0_pay14 (F := Ideal) v0 v1 v2 v3 v8 (ix2 r l)
      = Cert.Spec.ang (Cert.Spec.row v8 r) (Cert.Spec.mat v0) (Cert.Spec.vec v1) (Cert.Spec.mat v2) (Cert.Spec.vec v3) l := by
  unfold k0_pay14
  show (matmul (F := Ideal) dot_S512x8_S8x4_S512x4_1_0_0_1_n_n none _ v2 (constant S512x4 .f32 0x00000000#32)) (ix2 r l)
      + broadcastTo S512x4 (shapeCast S1x4 v3 _) _ (ix2 r l) = _
  rw [mm2_apply, broadcastTo_1b_ab_apply, shapeCast_a_1a_apply]
  unfold Cert.Spec.ang Cert.Spec.hid
  refine congrArg (· + _) (Finset.sum_congr rfl fun j _ => ?_)
  refine congrArg (· * _) ?_
  show Ideal.tanh ((matmul (F := Ideal) dot_S512x2_S2x8_S512x8_1_0_0_1_n_n none v8 v0 (constant S512x8 .f32 0x00000000#32)) (ix2 r j)
      + broadcastTo S512x8 (shapeCast S1x8 v1 _) _ (ix2 r j)) = _
  rw [mm1_apply, broadcastTo_1b_ab_apply, shapeCast_a_1a_apply]
  rfl

/-! ## The columns, entry by entry

Every operation on the [512, 1] columns acts entry by entry, and the literals one half, one and zero are the
specification's bit patterns, so each group of column values read at an entry is, by definition, the matching state
of the row's circuit. -/

open Cert.Spec in
/-- The state after the second rotation, from the values the first part of the body hands on: the three finished
    amplitudes' ingredients and the one finished amplitude. -/
def mid (v37 v40 v43 v46 v49 v52 v53 : S512x1.Idx → EReal) (i : S512x1.Idx) : Cert.Spec.Amp :=
  ⟨v52 i, v53 i + v46 i * v37 i, v46 i * v40 i - v49 i * v43 i, v49 i * v40 i + v46 i * v43 i⟩

/-- The state after the fifth rotation, from the values the second part of the body hands on. -/
def mid2 (v88 v91 v94 v97 v100 v103 v106 v107 : S512x1.Idx → EReal) (i : S512x1.Idx) : Cert.Spec.Amp :=
  ⟨v106 i, v107 i - v103 i * v94 i, v103 i * v88 i + v100 i * v97 i, v103 i * v91 i + v100 i * v94 i⟩

section Pointwise
open Cert.Spec
variable (v8 : S512x2.Idx → EReal) (i : S512x1.Idx)

/-- First part: the two rotations by the row's own angles, started from |00>. -/
theorem mid_first :
    mid (k0_pay26 (F := Ideal) v8) (k0_pay27 (F := Ideal) v8) (k0_pay28 (F := Ideal) v8) (k0_pay29 (F := Ideal) v8) (k0_pay30 (F := Ideal) v8) (k0_pay31 (F := Ideal) v8) (k0_pay32 (F := Ideal) v8) i
      = rot1 (k0_pay16 (F := Ideal) v8 i) (rot0 (k0_pay15 (F := Ideal) v8 i) init) := rfl

variable (v20 v21 v22 v23 v37 v40 v43 v46 v49 v52 v53 : S512x1.Idx → EReal)

/-- Second part: controlled-not, the rotations by the first two learned angles, controlled-not, and the rotation of
    qubit 0 by the third. -/
theorem mid2_second :
    mid2 (k0_pay44 (F := Ideal) v20 v21 v37 v40 v43 v46 v49 v52 v53) (k0_pay45 (F := Ideal) v20 v21 v37 v40 v43 v46 v49 v52 v53)
        (k0_pay46 (F := Ideal) v20 v21 v37 v40 v43 v46 v49 v52 v53) (k0_pay47 (F := Ideal) v20 v21 v37 v40 v43 v46 v49 v52 v53)
        (k0_pay48 (F := Ideal) v22) (k0_pay49 (F := Ideal) v22)
        (k0_pay50 (F := Ideal) v20 v21 v22 v37 v40 v43 v46 v49 v52 v53) (k0_pay51 (F := Ideal) v20 v21 v22 v37 v40 v43 v46 v49 v52 v53) i
      = rot0 (v22 i) (cx (rot1 (v21 i) (rot0 (v20 i) (cx (mid v37 v40 v43 v46 v49 v52 v53 i))))) := rfl

variable (v88 v91 v94 v97 v100 v103 v106 v107 : S512x1.Idx → EReal)

/-- Last part: the rotation of qubit 1 by the fourth learned angle, and the two probabilities. -/
theorem pay6_apply :
    k0_pay6 (F := Ideal) v23 v88 v91 v94 v97 v100 v103 v106 v107 i = pA (rot1 (v23 i) (mid2 v88 v91 v94 v97 v100 v103 v106 v107 i)) := rfl
theorem pay7_apply :
    k0_pay7 (F := Ideal) v23 v88 v91 v94 v97 v100 v103 v106 v107 i = pB (rot1 (v23 i) (mid2 v88 v91 v94 v97 v100 v103 v106 v107 i)) := rfl

/-- The two stored values are the shifted softmax of the two probabilities. -/
theorem pay12_apply :
    k0_pay12 (F := Ideal) v23 v88 v91 v94 v97 v100 v103 v106 v107 i
      = soft0 (k0_pay6 (F := Ideal) v23 v88 v91 v94 v97 v100 v103 v106 v107 i) (k0_pay7 (F := Ideal) v23 v88 v91 v94 v97 v100 v103 v106 v107 i) := rfl
theorem pay13_apply :
    k0_pay13 (F := Ideal) v23 v88 v91 v94 v97 v100 v103 v106 v107 i
      = soft1 (k0_pay6 (F := Ideal) v23 v88 v91 v94 v97 v100 v103 v106 v107 i) (k0_pay7 (F := Ideal) v23 v88 v91 v94 v97 v100 v103 v106 v107 i) := rfl

end Pointwise

/-! ## The columns cut from the angles and from the learned angles -/

section Slices
variable (v0 : S2x8.Idx → EReal) (v1 : S8.Idx → EReal) (v2 : S8x4.Idx → EReal) (v3 : S4.Idx → EReal) (v8 : S512x2.Idx → EReal)
  (r : Fin 512)

/-- The two columns of the chunk's angles, read at a row. -/
theorem pay15_apply : k0_pay15 (F := Ideal) v8 (ix2 r 0) = Cert.Spec.row v8 r 0 := by
  unfold k0_pay15
  exact slice2_axis1_apply 0 v8 _ r 0 0 rfl
theorem pay16_apply : k0_pay16 (F := Ideal) v8 (ix2 r 0) = Cert.Spec.row v8 r 1 := by
  unfold k0_pay16
  exact slice2_axis1_apply 1 v8 _ r 0 1 rfl

/-- The four columns of the learned angles, read at a row. -/
theorem pay17_apply : k0_pay17 (F := Ideal) v0 v1 v2 v3 v8 (ix2 r 0)
    = Cert.Spec.ang (Cert.Spec.row v8 r) (Cert.Spec.mat v0) (Cert.Spec.vec v1) (Cert.Spec.mat v2) (Cert.Spec.vec v3) 0 := by
  unfold k0_pay17
  exact (slice2_axis1_apply 0 (k0_pay14 (F := Ideal) v0 v1 v2 v3 v8) _ r 0 0 rfl).trans (pay14_apply v0 v1 v2 v3 v8 r 0)
theorem pay18_apply : k0_pay18 (F := Ideal) v0 v1 v2 v3 v8 (ix2 r 0)
    = Cert.Spec.ang (Cert.Spec.row v8 r) (Cert.Spec.mat v0) (Cert.Spec.vec v1) (Cert.Spec.mat v2) (Cert.Spec.vec v3) 1 := by
  unfold k0_pay18
  exact (slice2_axis1_apply 1 (k0_pay14 (F := Ideal) v0 v1 v2 v3 v8) _ r 0 1 rfl).trans (pay14_apply v0 v1 v2 v3 v8 r 1)
theorem pay19_apply : k0_pay19 (F := Ideal) v0 v1 v2 v3 v8 (ix2 r 0)
    = Cert.Spec.ang (Cert.Spec.row v8 r) (Cert.Spec.mat v0) (Cert.Spec.vec v1) (Cert.Spec.mat v2) (Cert.Spec.vec v3) 2 := by
  unfold k0_pay19
  exact (slice2_axis1_apply 2 (k0_pay14 (F := Ideal) v0 v1 v2 v3 v8) _ r 0 2 rfl).trans (pay14_apply v0 v1 v2 v3 v8 r 2)
theorem pay20_apply : k0_pay20 (F := Ideal) v0 v1 v2 v3 v8 (ix2 r 0)
    = Cert.Spec.ang (Cert.Spec.row v8 r) (Cert.Spec.mat v0) (Cert.Spec.vec v1) (Cert.Spec.mat v2) (Cert.Spec.vec v3) 3 := by
  unfold k0_pay20
  exact (slice2_axis1_apply 3 (k0_pay14 (F := Ideal) v0 v1 v2 v3 v8) _ r 0 3 rfl).trans (pay14_apply v0 v1 v2 v3 v8 r 3)

end Slices

/-! ## The chunk's two stored columns -/

/-- What the body's first store of a chunk writes (column 0 of the chunk's rows): the body's arithmetic, composed as the
    body composes it, over the weights v0 v1 v2 v3 and the chunk's angles v8. -/
def chunk0 (v0 : S2x8.Idx → EReal) (v1 : S8.Idx → EReal) (v2 : S8x4.Idx → EReal) (v3 : S4.Idx → EReal) (v8 : S512x2.Idx → EReal) :
    S512x1.Idx → EReal :=
  k0_pay12 (F := Ideal) (k0_pay20 v0 v1 v2 v3 v8)
    (k0_pay44 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay45 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay46 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay47 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay48 (k0_pay19 v0 v1 v2 v3 v8)) (k0_pay49 (k0_pay19 v0 v1 v2 v3 v8))
    (k0_pay50 (k0_pay17 v0 v1 v2 v3 v8) (k0_pay18 v0 v1 v2 v3 v8) (k0_pay19 v0 v1 v2 v3 v8) (k0_pay26 v8) (k0_pay27 v8) (k0_pay28 v8) (k0_pay29 v8) (k0_pay30 v8) (k0_pay31 v8) (k0_pay32 v8))
    (k0_pay51 (k0_pay17 v0 v1 v2 v3 v8) (k0_pay18 v0 v1 v2 v3 v8) (k0_pay19 v0 v1 v2 v3 v8) (k0_pay26 v8) (k0_pay27 v8) (k0_pay28 v8) (k0_pay29 v8) (k0_pay30 v8) (k0_pay31 v8) (k0_pay32 v8))

/-- What the body's second store of a chunk writes (column 1 of the chunk's rows). -/
def chunk1 (v0 : S2x8.Idx → EReal) (v1 : S8.Idx → EReal) (v2 : S8x4.Idx → EReal) (v3 : S4.Idx → EReal) (v8 : S512x2.Idx → EReal) :
    S512x1.Idx → EReal :=
  k0_pay13 (F := Ideal) (k0_pay20 v0 v1 v2 v3 v8)
    (k0_pay44 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay45 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay46 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay47 (k0_pay17 v0 v1 v2 v3 v8) (k0_pay18 v0 v1 v2 v3 v8) (k0_pay26 v8) (k0_pay27 v8) (k0_pay28 v8) (k0_pay29 v8) (k0_pay30 v8) (k0_pay31 v8) (k0_pay32 v8))
    (k0_pay48 (k0_pay19 v0 v1 v2 v3 v8)) (k0_pay49 (k0_pay19 v0 v1 v2 v3 v8))
    (k0_pay50 (k0_pay17 v0 v1 v2 v3 v8) (k0_pay18 v0 v1 v2 v3 v8) (k0_pay19 v0 v1 v2 v3 v8) (k0_pay26 v8) (k0_pay27 v8) (k0_pay28 v8) (k0_pay29 v8) (k0_pay30 v8) (k0_pay31 v8) (k0_pay32 v8))
    (k0_pay51 (k0_pay17 v0 v1 v2 v3 v8) (k0_pay18 v0 v1 v2 v3 v8) (k0_pay19 v0 v1 v2 v3 v8) (k0_pay26 v8) (k0_pay27 v8) (k0_pay28 v8) (k0_pay29 v8) (k0_pay30 v8) (k0_pay31 v8) (k0_pay32 v8))

/-- Row r of the chunk's first store is the first result of the chunk's row r. -/
theorem chunk0_apply (v0 : S2x8.Idx → EReal) (v1 : S8.Idx → EReal) (v2 : S8x4.Idx → EReal) (v3 : S4.Idx → EReal) (v8 : S512x2.Idx → EReal)
    (r : Fin 512) :
    chunk0 v0 v1 v2 v3 v8 (ix2 r 0) = Cert.Spec.out0 (Cert.Spec.row v8 r) (Cert.Spec.mat v0) (Cert.Spec.vec v1) (Cert.Spec.mat v2) (Cert.Spec.vec v3) := by
  unfold chunk0
  rw [pay12_apply, pay6_apply, pay7_apply, mid2_second, mid_first]
  rw [pay15_apply, pay16_apply, pay17_apply, pay18_apply, pay19_apply, pay20_apply]
  rfl

/-- Row r of the chunk's second store is the second result of the chunk's row r. -/
theorem chunk1_apply (v0 : S2x8.Idx → EReal) (v1 : S8.Idx → EReal) (v2 : S8x4.Idx → EReal) (v3 : S4.Idx → EReal) (v8 : S512x2.Idx → EReal)
    (r : Fin 512) :
    chunk1 v0 v1 v2 v3 v8 (ix2 r 0) = Cert.Spec.out1 (Cert.Spec.row v8 r) (Cert.Spec.mat v0) (Cert.Spec.vec v1) (Cert.Spec.mat v2) (Cert.Spec.vec v3) := by
  unfold chunk1
  rw [pay13_apply, pay6_apply, pay7_apply, mid2_second, mid_first]
  rw [pay15_apply, pay16_apply, pay17_apply, pay18_apply, pay19_apply, pay20_apply]
  rfl

end Cert.KernelIdeal.Hand

end
-- ==== Proof.KernelBlock.lean ====
/-
  What one grid point of the kernel leaves in its output block.

  The body loads the four weight arrays whole and then makes sixteen trips.  Trip k loads rows 512 k … 512 k + 511 of the
  point's 8192 rows of angles and stores, for those rows, column 0 and then column 1 of the result: 32 stores in all, which
  tile the 8192 x 2 block.  Every store's payload is the result array G of the point's rows and the weights, read at the
  store's own rows and column; so the block the stores leave, read back, is G itself.
-/
import proofs.«430581_j65481071406452_3_alg».proof.Proof.Gen.KernelIdeal.Value
import proofs.«430581_j65481071406452_3_alg».proof.Proof.Spec
import proofs.«430581_j65481071406452_3_alg».proof.Proof.KernelChunk
import Idealize.ShloMosaic.Lib.WholeRead
import Idealize.ShloMosaic.Lib.Pipeline.Value
import Idealize.ShloMosaic.Lib.Pipeline.FrameBody
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.Tactic

namespace Block

/-! ## The offsets of a trip, coordinate by coordinate -/

theorem trip_lt (k : Fin k0_t1_loop.trips) : k.val < 16 := Nat.lt_of_lt_of_le k.isLt k0_t1_abs.2.1

theorem off1_0 (k : Fin k0_t1_loop.trips) : k0_off1 k 0 = 512 * k.val := by rw [k0_off1_eq]; rfl
theorem off1_1 (k : Fin k0_t1_loop.trips) : k0_off1 k 1 = 0 := by rw [k0_off1_eq]; rfl
theorem off2_0 (k : Fin k0_t1_loop.trips) : k0_off2 k 0 = 512 * k.val := by rw [k0_off2_eq]; rfl
theorem off2_1 (k : Fin k0_t1_loop.trips) : k0_off2 k 1 = 0 := by rw [k0_off2_eq]; rfl
theorem off3_0 (k : Fin k0_t1_loop.trips) : k0_off3 k 0 = 512 * k.val := by rw [k0_off3_eq]; rfl
theorem off3_1 (k : Fin k0_t1_loop.trips) : k0_off3 k 1 = 1 := by rw [k0_off3_eq]; rfl

/-- Row r of trip k's rows is row 512 k + r of the block. -/
theorem row_lt (k : Fin k0_t1_loop.trips) (r : Fin 512) : 512 * k.val + r.val < 8192 := by
  have := trip_lt k; have := r.isLt; omega

/-- The trip's first store (column 0) places its row r at row 512 k + r, column 0, of the block. -/
theorem emb_off2 (k : Fin k0_t1_loop.trips) (r : Fin 512) :
    (Rect.unit (s := S8192x2) (k0_off2 k) S512x1.size (k0_off2_inb k)).emb (ix2 r (0 : Fin 1))
      = ix2 (⟨512 * k.val + r.val, row_lt k r⟩ : Fin 8192) (0 : Fin 2) := by
  refine Shape.idx_ext₂ ?_ ?_
  · show k0_off2 k 0 + 1 * r.val = 512 * k.val + r.val
    rw [off2_0]; omega
  · show k0_off2 k 1 + 1 * 0 = 0
    rw [off2_1]

/-- The trip's second store (column 1) places its row r at row 512 k + r, column 1, of the block. -/
theorem emb_off3 (k : Fin k0_t1_loop.trips) (r : Fin 512) :
    (Rect.unit (s := S8192x2) (k0_off3 k) S512x1.size (k0_off3_inb k)).emb (ix2 r (0 : Fin 1))
      = ix2 (⟨512 * k.val + r.val, row_lt k r⟩ : Fin 8192) (1 : Fin 2) := by
  refine Shape.idx_ext₂ ?_ ?_
  · show k0_off3 k 0 + 1 * r.val = 512 * k.val + r.val
    rw [off3_0]; omega
  · show k0_off3 k 1 + 1 * 0 = 1
    rw [off3_1]

/-- The trip's load places its entry (r, j) at row 512 k + r, column j, of the block. -/
theorem idx_off1 (k : Fin k0_t1_loop.trips) (r : Fin 512) (j : Fin 2) :
    (Rect.unit (s := S8192x2) (k0_off1 k) S512x2.size (k0_off1_inb k)).toLoadRect.idx (ix2 r j)
      = ix2 (⟨512 * k.val + r.val, row_lt k r⟩ : Fin 8192) j := by
  refine Shape.idx_ext₂ ?_ ?_
  · show k0_off1 k 0 + 1 * r.val = 512 * k.val + r.val
    rw [off1_0]; omega
  · show k0_off1 k 1 + 1 * j.val = j.val
    rw [off1_1]; omega

/-! ## One trip's two stores -/

/-- The two stores of trip k, last first: column 1 and column 0 of the trip's 512 rows, each the chunk's result computed
    from the weights and the trip's load of rows 512 k … 512 k + 511. -/
theorem trip_pieces (𝒱 : Variants) (bd : Option 𝒱.V) (c : Dev nD) (i : grid0.Coords) (arg1 : Memref sig .tc .vmem S8192x2 .f32) (harg1 : arg1.IsWhole) (arg2 : Memref sig .tc .vmem S2x8 .f32) (harg2 : arg2.IsWhole) (arg3 : Memref sig .tc .vmem S8 .f32) (harg3 : arg3.IsWhole) (arg4 : Memref sig .tc .vmem S8x4 .f32) (harg4 : arg4.IsWhole) (arg5 : Memref sig .tc .vmem S4 .f32) (harg5 : arg5.IsWhole) (arg6 : Memref sig .tc .vmem S8192x2 .f32) (harg6 : arg6.IsWhole)
    (v0 : Vec Ideal S2x8 .f32) (v1 : Vec Ideal S8 .f32) (v2 : Vec Ideal S8x4 .f32) (v3 : Vec Ideal S4 .f32) (X : BufTy.Contents (Elt Ideal) arg1.view.ty) (k : Fin k0_t1_loop.trips) :
    tripL_k0_t1 (F := Ideal) 𝒱 c bd i arg1 harg1 arg2 harg2 arg3 harg3 arg4 harg4 arg5 harg5 arg6 harg6 v0 v1 v2 v3 X k
      = [⟨Rect.unit (s := S8192x2) (k0_off3 k) S512x1.size (k0_off3_inb k),
            chunk1 v0 v1 v2 v3 (View.readAt (Elt Ideal) arg1.view (Rect.unit (s := S8192x2) (k0_off1 k) S512x2.size (k0_off1_inb k)).toLoadRect X)⟩,
         ⟨Rect.unit (s := S8192x2) (k0_off2 k) S512x1.size (k0_off2_inb k),
            chunk0 v0 v1 v2 v3 (View.readAt (Elt Ideal) arg1.view (Rect.unit (s := S8192x2) (k0_off1 k) S512x2.size (k0_off1_inb k)).toLoadRect X)⟩] := by
  unfold tripL_k0_t1 trip_k0_t1
  dsimp only
  sl_unfold_run_names
  rfl

/-- The trip's load, the input memref holding the block x0: entry (r, j) is the block's entry (512 k + r, j). -/
theorem load_row (arg1 : Memref sig .tc .vmem S8192x2 .f32) (harg1 : arg1.IsWhole) (x0 : Vec Ideal S8192x2 .f32)
    (k : Fin k0_t1_loop.trips) (r : Fin 512) :
    Cert.Spec.row (View.readAt (Elt Ideal) arg1.view (Rect.unit (s := S8192x2) (k0_off1 k) S512x2.size (k0_off1_inb k)).toLoadRect (harg1.unread x0)) r
      = Cert.Spec.row (n := 8192) x0 ⟨512 * k.val + r.val, row_lt k r⟩ := by
  funext j
  unfold Cert.Spec.row
  rw [harg1.readAt_unread, idx_off1]

/-- Each store of trip k is the result array of the block, read at the store's own rows and column. -/
theorem trip_ok (𝒱 : Variants) (bd : Option 𝒱.V) (c : Dev nD) (i : grid0.Coords) (arg1 : Memref sig .tc .vmem S8192x2 .f32) (harg1 : arg1.IsWhole) (arg2 : Memref sig .tc .vmem S2x8 .f32) (harg2 : arg2.IsWhole) (arg3 : Memref sig .tc .vmem S8 .f32) (harg3 : arg3.IsWhole) (arg4 : Memref sig .tc .vmem S8x4 .f32) (harg4 : arg4.IsWhole) (arg5 : Memref sig .tc .vmem S4 .f32) (harg5 : arg5.IsWhole) (arg6 : Memref sig .tc .vmem S8192x2 .f32) (harg6 : arg6.IsWhole)
    (v0 : Vec Ideal S2x8 .f32) (v1 : Vec Ideal S8 .f32) (v2 : Vec Ideal S8x4 .f32) (v3 : Vec Ideal S4 .f32) (x0 : Vec Ideal S8192x2 .f32) (k : Fin k0_t1_loop.trips) :
    ∀ p ∈ tripL_k0_t1 (F := Ideal) 𝒱 c bd i arg1 harg1 arg2 harg2 arg3 harg3 arg4 harg4 arg5 harg5 arg6 harg6 v0 v1 v2 v3 (harg1.unread x0) k,
      ∀ x : p.1.shape.Idx, p.2 x = Cert.Spec.G (n := 8192) x0 v0 v1 v2 v3 (p.1.emb x) := by
  rw [trip_pieces]
  intro p hp
  rcases List.mem_cons.mp hp with rfl | hp
  · intro x
    obtain ⟨r, q, rfl⟩ : ∃ (r : Fin 512) (q : Fin 1), x = ix2 r q := ⟨x 0, x 1, eq_ix2 x⟩
    obtain rfl : q = 0 := Subsingleton.elim _ _
    show chunk1 v0 v1 v2 v3 _ (ix2 r 0) = _
    rw [chunk1_apply, emb_off3, Cert.Spec.G_col1, load_row]
  · obtain rfl := List.mem_singleton.mp hp
    intro x
    obtain ⟨r, q, rfl⟩ : ∃ (r : Fin 512) (q : Fin 1), x = ix2 r q := ⟨x 0, x 1, eq_ix2 x⟩
    obtain rfl : q = 0 := Subsingleton.elim _ _
    show chunk0 v0 v1 v2 v3 _ (ix2 r 0) = _
    rw [chunk0_apply, emb_off2, Cert.Spec.G_col0, load_row]

/-! ## All the trips -/

/-- By induction over the trips: every store of the first n trips is the result array read at the store's own place. -/
theorem trips_ok (𝒱 : Variants) (bd : Option 𝒱.V) (c : Dev nD) (i : grid0.Coords) (arg1 : Memref sig .tc .vmem S8192x2 .f32) (harg1 : arg1.IsWhole) (arg2 : Memref sig .tc .vmem S2x8 .f32) (harg2 : arg2.IsWhole) (arg3 : Memref sig .tc .vmem S8 .f32) (harg3 : arg3.IsWhole) (arg4 : Memref sig .tc .vmem S8x4 .f32) (harg4 : arg4.IsWhole) (arg5 : Memref sig .tc .vmem S4 .f32) (harg5 : arg5.IsWhole) (arg6 : Memref sig .tc .vmem S8192x2 .f32) (harg6 : arg6.IsWhole)
    (v0 : Vec Ideal S2x8 .f32) (v1 : Vec Ideal S8 .f32) (v2 : Vec Ideal S8x4 .f32) (v3 : Vec Ideal S4 .f32) (x0 : Vec Ideal S8192x2 .f32) :
    ∀ n : ℕ, n ≤ k0_t1_loop.trips →
      ∀ p ∈ pb_k0_t1 (F := Ideal) 𝒱 c bd i arg1 harg1 arg2 harg2 arg3 harg3 arg4 harg4 arg5 harg5 arg6 harg6 v0 v1 v2 v3 (harg1.unread x0) n,
        ∀ x : p.1.shape.Idx, p.2 x = Cert.Spec.G (n := 8192) x0 v0 v1 v2 v3 (p.1.emb x)
  | 0, _ => by
    intro p hp
    rw [pb_k0_t1] at hp
    exact absurd hp List.not_mem_nil
  | n + 1, hn => by
    intro p hp
    have e := pb_k0_t1_succ (F := Ideal) 𝒱 c bd i arg1 harg1 arg2 harg2 arg3 harg3 arg4 harg4 arg5 harg5 arg6 harg6 v0 v1 v2 v3 (harg1.unread x0) ⟨n, hn⟩
    rw [show (⟨n, hn⟩ : Fin k0_t1_loop.trips).val = n from rfl] at e
    rw [e] at hp
    rcases List.mem_append.mp hp with h | h
    · exact trip_ok 𝒱 bd c i arg1 harg1 arg2 harg2 arg3 harg3 arg4 harg4 arg5 harg5 arg6 harg6 v0 v1 v2 v3 x0 ⟨n, hn⟩ p h
    · exact trips_ok 𝒱 bd c i arg1 harg1 arg2 harg2 arg3 harg3 arg4 harg4 arg5 harg5 arg6 harg6 v0 v1 v2 v3 x0 n (Nat.le_of_succ_le hn) p h

/-! ## The whole body -/

/-- A whole load of a weight array reads the array. -/
theorem whole_load {s : Shape} (a : Memref sig .tc .vmem s .f32) (ha : a.IsWhole) (x : Vec Ideal s .f32)
    {off : Fin s.rank → ℕ} (h0 : off = fun _ => 0) (inb : ∀ d, off d + s.size d ≤ s.size d) :
    View.readAt (Elt Ideal) a.view (Rect.unit (s := s) off s.size inb).toLoadRect (ha.unread x) = x := by
  rw [View.readAt_eq_ld, ha.read_unread]
  exact View.ld_unit_zero h0 inb x

/-- The body's stores are the sixteen trips' stores, over the weights as loaded and the block x0 of angles. -/
theorem run_pieces (c : Dev nD) (i : grid0.Coords) (arg1 : Memref sig .tc .vmem S8192x2 .f32) (harg1 : arg1.IsWhole) (arg2 : Memref sig .tc .vmem S2x8 .f32) (harg2 : arg2.IsWhole) (arg3 : Memref sig .tc .vmem S8 .f32) (harg3 : arg3.IsWhole) (arg4 : Memref sig .tc .vmem S8x4 .f32) (harg4 : arg4.IsWhole) (arg5 : Memref sig .tc .vmem S4 .f32) (harg5 : arg5.IsWhole) (arg6 : Memref sig .tc .vmem S8192x2 .f32) (harg6 : arg6.IsWhole)
    (x0 : Vec Ideal S8192x2 .f32) (x1 : Vec Ideal S2x8 .f32) (x2 : Vec Ideal S8 .f32) (x3 : Vec Ideal S8x4 .f32) (x4 : Vec Ideal S4 .f32) :
    (kernelRun0_A (F := Ideal) c i arg1 harg1 arg2 harg2 arg3 harg3 arg4 harg4 arg5 harg5 arg6 harg6 x0 x1 x2 x3 x4).1
      = pb_k0_t1 (F := Ideal) Variants.none c none i arg1 harg1 arg2 harg2 arg3 harg3 arg4 harg4 arg5 harg5 arg6 harg6 x1 x2 x3 x4 (harg1.unread x0) k0_t1_loop.trips := by
  unfold kernelRun0_A
  dsimp only
  rw [whole_load arg2 harg2 x1 (by funext d; match d with | ⟨0, _⟩ => rfl | ⟨1, _⟩ => rfl),
    whole_load arg3 harg3 x2 (by funext d; match d with | ⟨0, _⟩ => rfl),
    whole_load arg4 harg4 x3 (by funext d; match d with | ⟨0, _⟩ => rfl | ⟨1, _⟩ => rfl),
    whole_load arg5 harg5 x4 (by funext d; match d with | ⟨0, _⟩ => rfl)]

/-- What the body leaves in its output block, on any whole staging memrefs holding any blocks: the result array of the
    block of angles and the weights. -/
theorem block_of (c : Dev nD) (i : grid0.Coords) (arg1 : Memref sig .tc .vmem S8192x2 .f32) (harg1 : arg1.IsWhole) (arg2 : Memref sig .tc .vmem S2x8 .f32) (harg2 : arg2.IsWhole) (arg3 : Memref sig .tc .vmem S8 .f32) (harg3 : arg3.IsWhole) (arg4 : Memref sig .tc .vmem S8x4 .f32) (harg4 : arg4.IsWhole) (arg5 : Memref sig .tc .vmem S4 .f32) (harg5 : arg5.IsWhole) (arg6 : Memref sig .tc .vmem S8192x2 .f32) (harg6 : arg6.IsWhole)
    (x0 : Vec Ideal S8192x2 .f32) (x1 : Vec Ideal S2x8 .f32) (x2 : Vec Ideal S8 .f32) (x3 : Vec Ideal S8x4 .f32) (x4 : Vec Ideal S4 .f32) :
    out0_A_5 (F := Ideal) c i arg1 harg1 arg2 harg2 arg3 harg3 arg4 harg4 arg5 harg5 arg6 harg6 x0 x1 x2 x3 x4 = Cert.Spec.G (n := 8192) x0 x1 x2 x3 x4 := by
  unfold out0_A_5
  rw [View.read_writes_eq_canon _ _ _ (cover0_A_5 (F := Ideal) c i arg1 harg1 arg2 harg2 arg3 harg3 arg4 harg4 arg5 harg5 arg6 harg6 x0 x1 x2 x3 x4)]
  funext y
  refine View.canon_apply_of_pieces (Cert.Spec.G (n := 8192) x0 x1 x2 x3 x4) _ ?_ y (cover0_A_5 (F := Ideal) c i arg1 harg1 arg2 harg2 arg3 harg3 arg4 harg4 arg5 harg5 arg6 harg6 x0 x1 x2 x3 x4 y)
  rw [run_pieces]
  exact trips_ok Variants.none none c i arg1 harg1 arg2 harg2 arg3 harg3 arg4 harg4 arg5 harg5 arg6 harg6 x1 x2 x3 x4 x0 k0_t1_loop.trips (Nat.le_refl _)

end Block

variable (m : (ℓ : Loc nD τ sig) → Buf (Elt Ideal) ℓ) (ρ : Dev nD → PrngReg)

/-- The blocks the pipeline hands the body at grid point t, each named at its literal shape: the 8192 rows of angles
    of the point, and the whole weight arrays. -/
abbrev xblk (c : Dev nD) (t : Fin cfg0.N) : S8192x2.Idx → EReal := iblk m c 0 t
abbrev w1blk (c : Dev nD) (t : Fin cfg0.N) : S2x8.Idx → EReal := iblk m c 1 t
abbrev b1blk (c : Dev nD) (t : Fin cfg0.N) : S8.Idx → EReal := iblk m c 2 t
abbrev w2blk (c : Dev nD) (t : Fin cfg0.N) : S8x4.Idx → EReal := iblk m c 3 t
abbrev b2blk (c : Dev nD) (t : Fin cfg0.N) : S4.Idx → EReal := iblk m c 4 t

/-- After the body at grid point t, the output's staging block holds the result array of the point's 8192 rows. -/
theorem block (c : Dev nD) (t : Fin cfg0.N) :
    (outsAt0 m c t : S8192x2.Idx → EReal) = Cert.Spec.G (xblk m c t) (w1blk m c t) (b1blk m c t) (w2blk m c t) (b2blk m c t) := by
  unfold outsAt0
  exact Block.block_of c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)

end Cert.KernelIdeal.Hand

end
-- ==== Proof.KernelValue.lean ====
/-
  The kernel's result array after the whole grid, and its run.

  Each of the 256 grid points computes the result array of its own 8192 rows of angles, with the whole weight arrays.
  A row's result depends on the array of angles only through that row, and row y of point t's block of angles is row
  8192 t + y of the whole array, so what point t writes back is block t of the result array of all 2097152 rows. The
  256 blocks tile the rows (row r lies in block r / 8192), so the output array ends as that result array.
-/
import proofs.«430581_j65481071406452_3_alg».proof.Proof.KernelBlock

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

namespace Tiling

/-- The result array depends on the array of angles only through the row of angles it reads. -/
theorem G_congr {n n' : Nat} (X : (⟨2, ![n, 2]⟩ : Shape).Idx → EReal) (X' : (⟨2, ![n', 2]⟩ : Shape).Idx → EReal)
    (W1 : (⟨2, ![2, 8]⟩ : Shape).Idx → EReal) (b1 : (⟨1, ![8]⟩ : Shape).Idx → EReal) (W2 : (⟨2, ![8, 4]⟩ : Shape).Idx → EReal)
    (b2 : (⟨1, ![4]⟩ : Shape).Idx → EReal) (i : (⟨2, ![n, 2]⟩ : Shape).Idx) (i' : (⟨2, ![n', 2]⟩ : Shape).Idx)
    (hrow : Cert.Spec.row X (i 0) = Cert.Spec.row X' (i' 0)) (hcol : (i 1).val = (i' 1).val) :
    Cert.Spec.G X W1 b1 W2 b2 i = Cert.Spec.G X' W1 b1 W2 b2 i' := by
  unfold Cert.Spec.G
  rw [hrow, hcol]

/-- The index maps over the grid: the angles and the result move by one block of rows per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first weight matrix's block is the whole matrix. -/
theorem w1blk_eq (c : Dev nD) (t : Fin cfg0.N) :
    (w1blk m c t : S2x8.Idx → EReal) = m ((c : Thread nD τ).loc main_arg1) := by
  obtain ⟨-, -, e0, e1, -⟩ := idx_facts t
  funext y
  show V m c main_arg1 (((cfg0.win 1).blk t).view.emb y) = V m c main_arg1 y
  congr 1
  funext a; apply Fin.ext
  match a with
  | ⟨0, _⟩ => show win0_1.index t (0 : Fin 2) * 2 + 1 * (y 0).val = (y 0).val; omega
  | ⟨1, _⟩ => show win0_1.index t (1 : Fin 2) * 8 + 1 * (y 1).val = (y 1).val; omega

/-- The first bias vector's block is the whole vector. -/
theorem b1blk_eq (c : Dev nD) (t : Fin cfg0.N) :
    (b1blk m c t : S8.Idx → EReal) = m ((c : Thread nD τ).loc main_arg2) := by
  obtain ⟨-, -, -, -, e0, -⟩ := idx_facts t
  funext y
  show V m c main_arg2 (((cfg0.win 2).blk t).view.emb y) = V m c main_arg2 y
  congr 1
  funext a; apply Fin.ext
  match a with
  | ⟨0, _⟩ => show win0_2.index t (0 : Fin 1) * 8 + 1 * (y 0).val = (y 0).val; omega

/-- The second weight matrix's block is the whole matrix. -/
theorem w2blk_eq (c : Dev nD) (t : Fin cfg0.N) :
    (w2blk m c t : S8x4.Idx → EReal) = m ((c : Thread nD τ).loc main_arg3) := by
  obtain ⟨-, -, -, -, -, e0, e1, -⟩ := idx_facts t
  funext y
  show V m c main_arg3 (((cfg0.win 3).blk t).view.emb y) = V m c main_arg3 y
  congr 1
  funext a; apply Fin.ext
  match a with
  | ⟨0, _⟩ => show win0_3.index t (0 : Fin 2) * 8 + 1 * (y 0).val = (y 0).val; omega
  | ⟨1, _⟩ => show win0_3.index t (1 : Fin 2) * 4 + 1 * (y 1).val = (y 1).val; omega

/-- The second bias vector's block is the whole vector. -/
theorem b2blk_eq (c : Dev nD) (t : Fin cfg0.N) :
    (b2blk m c t : S4.Idx → EReal) = m ((c : Thread nD τ).loc main_arg4) := by
  obtain ⟨-, -, -, -, -, -, -, e0, -⟩ := idx_facts t
  funext y
  show V m c main_arg4 (((cfg0.win 4).blk t).view.emb y) = V m c main_arg4 y
  congr 1
  funext a; apply Fin.ext
  match a with
  | ⟨0, _⟩ => show win0_4.index t (0 : Fin 1) * 4 + 1 * (y 0).val = (y 0).val; omega

/-- What grid point t writes back is block t of the result array of all the rows: row y of the point's block of angles is
    row 8192 t + y of the whole array of angles, and the weights' blocks are the weights. -/
theorem flushed_eq (c : Dev nD) (t : Fin cfg0.N) :
    (dats m 0 c).flushed 5 t = ((cfg0.win 5).blk t).view.read (Elt Ideal)
      (Cert.Spec.G (m ((c : Thread nD τ).loc main_arg0)) (m ((c : Thread nD τ).loc main_arg1)) (m ((c : Thread nD τ).loc main_arg2))
          (m ((c : Thread nD τ).loc main_arg3)) (m ((c : Thread nD τ).loc main_arg4))) := by
  rw [Cert.KernelIdeal.Value.flushed5]
  funext y
  show (outsAt0 m c t : S8192x2.Idx → EReal) y = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y)
  rw [block m c t, w1blk_eq m c t, b1blk_eq m c t, w2blk_eq m c t, b2blk_eq m c t]
  obtain ⟨e00, e01, -, -, -, -, -, -, e50, e51⟩ := idx_facts t
  refine G_congr (xblk m c t) (m ((c : Thread nD τ).loc main_arg0)) _ _ _ _ y (((cfg0.win 5).blk t).view.emb y) ?_ ?_
  · funext k
    show V m c main_arg0 (((cfg0.win 0).blk t).view.emb (ix2 (y 0) k)) = V m c main_arg0 (ix2 ((((cfg0.win 5).blk t).view.emb y) 0) k)
    congr 1
    funext a; apply Fin.ext
    match a with
    | ⟨0, _⟩ => show win0_0.index t (0 : Fin 2) * 8192 + 1 * (y 0).val = win0_5.index t (0 : Fin 2) * 8192 + 1 * (y 0).val; omega
    | ⟨1, _⟩ => show win0_0.index t (1 : Fin 2) * 2 + 1 * k.val = k.val; omega
  · show (y 1).val = win0_5.index t (1 : Fin 2) * 2 + 1 * (y 1).val; omega

/-- An index of the array is in point t's block iff each coordinate is in the block's range on its axis. -/
theorem mem_blk (t : Fin cfg0.N) (i : S2097152x2.Idx) :
    i ∈ ((cfg0.win 5).blk t).view.set ↔ ∀ a : Fin 2, win0_5.index t a * S8192x2.size a ≤ (i a).val ∧ (i a).val < win0_5.index t a * S8192x2.size a + S8192x2.size a := by
  show i ∈ ((View.whole main_v0).slice (win0_5.rect t)).set ↔ _
  rw [View.set_slice_whole, Rect.mem_set_unit]
  exact Iff.rfl

/-- Row r of the array is in the block of point r / 8192: the 256 blocks of 8192 rows tile the 2097152 rows. -/
theorem cover (i : S2097152x2.Idx) :
    ∃ t : Fin cfg0.N, (cfg0.win 5).flush t = true ∧ i ∈ ((cfg0.win 5).blk t).view.set := by
  have hi0 : (i 0).val < 2097152 := (i 0).isLt
  have hi1 : (i 1).val < 2 := (i 1).isLt
  have hN : cfg0.N = 256 := N_0
  have ht : (i 0).val / 8192 < cfg0.N := by rw [hN]; omega
  obtain ⟨-, -, -, -, -, -, -, -, e50, e51⟩ := idx_facts ⟨(i 0).val / 8192, ht⟩
  refine ⟨⟨(i 0).val / 8192, ht⟩, flush0_5 _, ?_⟩
  rw [mem_blk]
  intro a
  match a with
  | ⟨0, _⟩ =>
    show win0_5.index ⟨(i 0).val / 8192, ht⟩ (0 : Fin 2) * 8192 ≤ (i 0).val ∧ (i 0).val < win0_5.index ⟨(i 0).val / 8192, ht⟩ (0 : Fin 2) * 8192 + 8192
    rw [e50]; show (i 0).val / 8192 * 8192 ≤ (i 0).val ∧ (i 0).val < (i 0).val / 8192 * 8192 + 8192; omega
  | ⟨1, _⟩ =>
    show win0_5.index ⟨(i 0).val / 8192, ht⟩ (1 : Fin 2) * 2 ≤ (i 1).val ∧ (i 1).val < win0_5.index ⟨(i 0).val / 8192, ht⟩ (1 : Fin 2) * 2 + 2
    rw [e51]; omega

end Tiling

/-- After the last grid point the output array is the result array of all 2097152 rows. -/
theorem final (c : Dev nD) :
    ((dats m 0 c).arrAt 5 cfg0.N : S2097152x2.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => Tiling.flushed_eq m c t) Tiling.cover

/-- Every weakly fair execution of the idealized kernel terminates with the result array in its output and its
    arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Hand

end
-- ==== Proof.RefOps.lean ====
/-
  The reference program's host operations, transcribed from its printed text (one list entry per printed
  statement, in order), cut into consecutive windows, and the buffers each window writes.
  Made by the script named in line 1 (kept beside the proof).
-/
import proofs.«430581_j65481071406452_3_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Window `w0`: the 12 operations up to the one that writes `main_v8`. -/
abbrev w0 : List (HloOp τ sig (Elt F)) :=
  [ nullary main_c (fun i => lit0 (S4.rowMajor i)),
    nullary main_c_0 (constantI S4 1 0#1),
    nullary main_c_1 (constantI S4 1 0#1),
    binary main_arg0 main_arg1 main_v0 ((fun l r => Host.dotGeneral dot_S2097152x2_S2x8_S2097152x8_1_0_0_1_n_n none l r) : (⟨S2097152x2, .f32⟩ : BufTy).Contents (Elt F) → (⟨S2x8, .f32⟩ : BufTy).Contents (Elt F) → (⟨S2097152x8, .f32⟩ : BufTy).Contents (Elt F)),
    unary main_arg2 main_v1 (broadcastInDim S1x8 ![1] bcast_S8_S1x8_1 : (⟨S8, .f32⟩ : BufTy).Contents (Elt F) → (⟨S1x8, .f32⟩ : BufTy).Contents (Elt F)),
    unary main_v1 main_v2 (broadcastInDim S2097152x8 ![0, 1] bcast_S1x8_S2097152x8_0_1 : (⟨S1x8, .f32⟩ : BufTy).Contents (Elt F) → (⟨S2097152x8, .f32⟩ : BufTy).Contents (Elt F)),
    binary main_v0 main_v2 main_v3 (addf : (⟨S2097152x8, .f32⟩ : BufTy).Contents (Elt F) → (⟨S2097152x8, .f32⟩ : BufTy).Contents (Elt F) → (⟨S2097152x8, .f32⟩ : BufTy).Contents (Elt F)),
    unary main_v3 main_v4 (Host.tanh : (⟨S2097152x8, .f32⟩ : BufTy).Contents (Elt F) → (⟨S2097152x8, .f32⟩ : BufTy).Contents (Elt F)),
    binary main_v4 main_arg3 main_v5 ((fun l r => Host.dotGeneral dot_S2097152x8_S8x4_S2097152x4_1_0_0_1_n_n none l r) : (⟨S2097152x8, .f32⟩ : BufTy).Contents (Elt F) → (⟨S8x4, .f32⟩ : BufTy).Contents (Elt F) → (⟨S2097152x4, .f32⟩ : BufTy).Contents (Elt F)),
    unary main_arg4 main_v6 (broadcastInDim S1x4 ![1] bcast_S4_S1x4_1 : (⟨S4, .f32⟩ : BufTy).Contents (Elt F) → (⟨S1x4, .f32⟩ : BufTy).Contents (Elt F)),
    unary main_v6 main_v7 (broadcastInDim S2097152x4 ![0, 1] bcast_S1x4_S2097152x4_0_1 : (⟨S1x4, .f32⟩ : BufTy).Contents (Elt F) → (⟨S2097152x4, .f32⟩ : BufTy).Contents (Elt F)),
    binary main_v5 main_v7 main_v8 (addf : (⟨S2097152x4, .f32⟩ : BufTy).Contents (Elt F) → (⟨S2097152x4, .f32⟩ : BufTy).Contents (Elt F) → (⟨S2097152x4, .f32⟩ : BufTy).Contents (Elt F)) ]
/-- The buffers window `w0` writes. -/
abbrev w0_W : List (Ref sig .tc) := [main_c, main_c_0, main_c_1, main_v0, main_v1, main_v2, main_v3, main_v4, main_v5, main_v6, main_v7, main_v8]

/-- Window `w1`: the 8 operations up to the one that writes `main_v13`. -/
abbrev w1 : List (HloOp τ sig (Elt F)) :=
  [ nullary main_cst (constant S_ .f32 0x00000000#32),
    unary main_cst main_v9 (broadcastInDim S2097152x4 ![] bcast_S_S2097152x4 : (⟨S_, .f32⟩ : BufTy).Contents (Elt F) → (⟨S2097152x4, .f32⟩ : BufTy).Contents (Elt F)),
    nullary main_c_2 (constantI S_ 32 0#32),
    unary main_c_2 main_v10 (broadcastInDim S1 ![] bcast_S_S1 : (⟨S_, .i32⟩ : BufTy).Contents (Elt F) → (⟨S1, .i32⟩ : BufTy).Contents (Elt F)),
    nullary main_cst_3 (constant S_ .f32 0x3F800000#32),
    unary main_cst_3 main_v11 (broadcastInDim S2097152 ![] bcast_S_S2097152 : (⟨S_, .f32⟩ : BufTy).Contents (Elt F) → (⟨S2097152, .f32⟩ : BufTy).Contents (Elt F)),
    ternary main_v9 main_v10 main_v11 main_v12 ((fun x i u => Host.scatter scatter_S2097152x4_S1_S2097152_0_1_1_0 (fun _ b => b) x i u) : (⟨S2097152x4, .f32⟩ : BufTy).Contents (Elt F) → (⟨S1, .i32⟩ : BufTy).Contents (Elt F) → (⟨S2097152, .f32⟩ : BufTy).Contents (Elt F) → (⟨S2097152x4, .f32⟩ : BufTy).Contents (Elt F)),
    reshape main_v12 main_v13 rfl shapeCasts_S2097152x4_S2097152x2x2 ]
/-- The buffers window `w1` writes. -/
abbrev w1_W : List (Ref sig .tc) := [main_cst, main_v9, main_c_2, main_v10, main_cst_3, main_v11, main_v12, main_v13]

/-- Window `g1`: the 29 operations up to the one that writes `main_v40`. -/
abbrev g1 : List (HloOp τ sig (Elt F)) :=
  [ unary main_arg0 main_v14 ((extractStridedSlice S2097152x1 ![0, 0] · slices_S2097152x2_S2097152x1_0_0) : (⟨S2097152x2, .f32⟩ : BufTy).Contents (Elt F) → (⟨S2097152x1, .f32⟩ : BufTy).Contents (Elt F)),
    reshape main_v14 main_v15 rfl shapeCasts_S2097152x1_S2097152,
    nullary main_cst_4 (constant S_ .f32 0x3F000000#32),
    unary main_cst_4 main_v16 (broadcastInDim S2097152 ![] bcast_S_S2097152 : (⟨S_, .f32⟩ : BufTy).Contents (Elt F) → (⟨S2097152, .f32⟩ : BufTy).Contents (Elt F)),
    binary main_v15 main_v16 main_v17 (mulf : (⟨S2097152, .f32⟩ : BufTy).Contents (Elt F) → (⟨S2097152, .f32⟩ : BufTy).Contents (Elt F) → (⟨S2097152, .f32⟩ : BufTy).Contents (Elt F)),
    unary main_v17 main_v18 (Host.cos : (⟨S2097152, .f32⟩ : BufTy).Contents (Elt F) → (⟨S2097152, .f32⟩ : BufTy).Contents (Elt F)),
    unary main_v18 main_v19 (broadcastInDim S2097152x1 ![0] bcast_S2097152_S2097152x1_0 : (⟨S2097152, .f32⟩ : BufTy).Contents (Elt F) → (⟨S2097152x1, .f32⟩ : BufTy).Contents (Elt F)),
    nullary main_cst_5 (constant S_ .f32 0x3F000000#32),
    unary main_cst_5 main_v20 (broadcastInDim S2097152 ![] bcast_S_S2097152 : (⟨S_, .f32⟩ : BufTy).Contents (Elt F) → (⟨S2097152, .f32⟩ : BufTy).Contents (Elt F)),
    binary main_v15 main_v20 main_v21 (mulf : (⟨S2097152, .f32⟩ : BufTy).Contents (Elt F) → (⟨S2097152, .f32⟩ : BufTy).Contents (Elt F) → (⟨S2097152, .f32⟩ : BufTy).Contents (Elt F)),
    unary main_v21 main_v22 (Host.sin : (⟨S2097152, .f32⟩ : BufTy).Contents (Elt F) → (⟨S2097152, .f32⟩ : BufTy).Contents (Elt F)),
    unary main_v22 main_v23 (broadcastInDim S2097152x1 ![0] bcast_S2097152_S2097152x1_0 : (⟨S2097152, .f32⟩ : BufTy).Contents (Elt F) → (⟨S2097152x1, .f32⟩ : BufTy).Contents (Elt F)),
    unary main_v13 main_v24 ((extractStridedSlice S2097152x1x2 ![0, 0, 0] · slices_S2097152x2x2_S2097152x1x2_0_0_0) : (⟨S2097152x2x2, .f32⟩ : BufTy).Contents (Elt F) → (⟨S2097152x1x2, .f32⟩ : BufTy).Contents (Elt F)),
    reshape main_v24 main_v25 rfl shapeCasts_S2097152x1x2_S2097152x2,
    unary main_v13 main_v26 ((extractStridedSlice S2097152x1x2 ![0, 1, 0] · slices_S2097152x2x2_S2097152x1x2_0_1_0) : (⟨S2097152x2x2, .f32⟩ : BufTy).Contents (Elt F) → (⟨S2097152x1x2, .f32⟩ : BufTy).Contents (Elt F)),
    reshape main_v26 main_v27 rfl shapeCasts_S2097152x1x2_S2097152x2,
    unary main_v19 main_v28 (broadcastInDim S2097152x2 ![0, 1] bcast_S2097152x1_S2097152x2_0_1 : (⟨S2097152x1, .f32⟩ : BufTy).Contents (Elt F) → (⟨S2097152x2, .f32⟩ : BufTy).Contents (Elt F)),
    binary main_v28 main_v25 main_v29 (mulf : (⟨S2097152x2, .f32⟩ : BufTy).Contents (Elt F) → (⟨S2097152x2, .f32⟩ : BufTy).Contents (Elt F) → (⟨S2097152x2, .f32⟩ : BufTy).Contents (Elt F)),
    unary main_v23 main_v30 (broadcastInDim S2097152x2 ![0, 1] bcast_S2097152x1_S2097152x2_0_1 : (⟨S2097152x1, .f32⟩ : BufTy).Contents (Elt F) → (⟨S2097152x2, .f32⟩ : BufTy).Contents (Elt F)),
    binary main_v30 main_v27 main_v31 (mulf : (⟨S2097152x2, .f32⟩ : BufTy).Contents (Elt F) → (⟨S2097152x2, .f32⟩ : BufTy).Contents (Elt F) → (⟨S2097152x2, .f32⟩ : BufTy).Contents (Elt F)),
    binary main_v29 main_v31 main_v32 (subf : (⟨S2097152x2, .f32⟩ : BufTy).Contents (Elt F) → (⟨S2097152x2, .f32⟩ : BufTy).Contents (Elt F) → (⟨S2097152x2, .f32⟩ : BufTy).Contents (Elt F)),
    unary main_v23 main_v33 (broadcastInDim S2097152x2 ![0, 1] bcast_S2097152x1_S2097152x2_0_1 : (⟨S2097152x1, .f32⟩ : BufTy).Contents (Elt F) → (⟨S2097152x2, .f32⟩ : BufTy).Contents (Elt F)),
    binary main_v33 main_v25 main_v34 (mulf : (⟨S2097152x2, .f32⟩ : BufTy).Contents (Elt F) → (⟨S2097152x2, .f32⟩ : BufTy).Contents (Elt F) → (⟨S2097152x2, .f32⟩ : BufTy).Contents (Elt F)),
    unary main_v19 main_v35 (broadcastInDim S2097152x2 ![0, 1] bcast_S2097152x1_S2097152x2_0_1 : (⟨S2097152x1, .f32⟩ : BufTy).Contents (Elt F) → (⟨S2097152x2, .f32⟩ : BufTy).Contents (Elt F)),
    binary main_v35 main_v27 main_v36 (mulf : (⟨S2097152x2, .f32⟩ : BufTy).Contents (Elt F) → (⟨S2097152x2, .f32⟩ : BufTy).Contents (Elt F) → (⟨S2097152x2, .f32⟩ : BufTy).Contents (Elt F)),
    binary main_v34 main_v36 main_v37 (addf : (⟨S2097152x2, .f32⟩ : BufTy).Contents (Elt F) → (⟨S2097152x2, .f32⟩ : BufTy).Contents (Elt F) → (⟨S2097152x2, .f32⟩ : BufTy).Contents (Elt F)),
    unary main_v32 main_v38 (broadcastInDim S2097152x1x2 ![0, 2] bcast_S2097152x2_S2097152x1x2_0_2 : (⟨S2097152x2, .f32⟩ : BufTy).Contents (Elt F) → (⟨S2097152x1x2, .f32⟩ : BufTy).Contents (Elt F)),
    unary main_v37 main_v39 (broadcastInDim S2097152x1x2 ![0, 2] bcast_S2097152x2_S2097152x1x2_0_2 : (⟨S2097152x2, .f32⟩ : BufTy).Contents (Elt F) → (⟨S2097152x1x2, .f32⟩ : BufTy).Contents (Elt F)),
    binary main_v38 main_v39 main_v40 ((fun a b => concatenate S2097152x2x2 1 [⟨S2097152x1x2, a⟩, ⟨S2097152x1x2, b⟩] concatenates_S2097152x1x2_S2097152x1x2_S2097152x2x2_d1) : (⟨S2097152x1x2, .f32⟩ : BufTy).Contents (Elt F) → (⟨S2097152x1x2, .f32⟩ : BufTy).Contents (Elt F) → (⟨S2097152x2x2, .f32⟩ : BufTy).Contents (Elt F)) ]
/-- The buffers window `g1` writes. -/
abbrev g1_W : List (Ref sig .tc) := [main_v14, main_v15, main_cst_4, main_v16, main_v17, main_v18, main_v19, main_cst_5, main_v20, main_v21, main_v22, main_v23, main_v24, main_v25, main_v26, main_v27, main_v28, main_v29, main_v30, main_v31, main_v32, main_v33, main_v34, main_v35, main_v36, main_v37, main_v38, main_v39, main_v40]

/-- Window `g2`: the 29 operations up to the one that writes `main_v67`. -/
abbrev g2 : List (HloOp τ sig (Elt F)) :=
  [ unary main_arg0 main_v41 ((extractStridedSlice S2097152x1 ![0, 1] · slices_S2097152x2_S2097152x1_0_1) : (⟨S2097152x2, .f32⟩ : BufTy).Contents (Elt F) → (⟨S2097152x1, .f32⟩ : BufTy).Contents (Elt F)),
    reshape main_v41 main_v42 rfl shapeCasts_S2097152x1_S2097152,
    nullary main_cst_6 (constant S_ .f32 0x3F000000#32),
    unary main_cst_6 main_v43 (broadcastInDim S2097152 ![] bcast_S_S2097152 : (⟨S_, .f32⟩ : BufTy).Contents (Elt F) → (⟨S2097152, .f32⟩ : BufTy).Contents (Elt F)),
    binary main_v42 main_v43 main_v44 (mulf : (⟨S2097152, .f32⟩ : BufTy).Contents (Elt F) → (⟨S2097152, .f32⟩ : BufTy).Contents (Elt F) → (⟨S2097152, .f32⟩ : BufTy).Contents (Elt F)),
    unary main_v44 main_v45 (Host.cos : (⟨S2097152, .f32⟩ : BufTy).Contents (Elt F) → (⟨S2097152, .f32⟩ : BufTy).Contents (Elt F)),
    unary main_v45 main_v46 (broadcastInDim S2097152x1 ![0] bcast_S2097152_S2097152x1_0 : (⟨S2097152, .f32⟩ : BufTy).Contents (Elt F) → (⟨S2097152x1, .f32⟩ : BufTy).Contents (Elt F)),
    nullary main_cst_7 (constant S_ .f32 0x3F000000#32),
    unary main_cst_7 main_v47 (broadcastInDim S2097152 ![] bcast_S_S2097152 : (⟨S_, .f32⟩ : BufTy).Contents (Elt F) → (⟨S2097152, .f32⟩ : BufTy).Contents (Elt F)),
    binary main_v42 main_v47 main_v48 (mulf : (⟨S2097152, .f32⟩ : BufTy).Contents (Elt F) → (⟨S2097152, .f32⟩ : BufTy).Contents (Elt F) → (⟨S2097152, .f32⟩ : BufTy).Contents (Elt F)),
    unary main_v48 main_v49 (Host.sin : (⟨S2097152, .f32⟩ : BufTy).Contents (Elt F) → (⟨S2097152, .f32⟩ : BufTy).Contents (Elt F)),
    unary main_v49 main_v50 (broadcastInDim S2097152x1 ![0] bcast_S2097152_S2097152x1_0 : (⟨S2097152, .f32⟩ : BufTy).Contents (Elt F) → (⟨S2097152x1, .f32⟩ : BufTy).Contents (Elt F)),
    unary main_v40 main_v51 ((extractStridedSlice S2097152x2x1 ![0, 0, 0] · slices_S2097152x2x2_S2097152x2x1_0_0_0) : (⟨S2097152x2x2, .f32⟩ : BufTy).Contents (Elt F) → (⟨S2097152x2x1, .f32⟩ : BufTy).Contents (Elt F)),
    reshape main_v51 main_v52 rfl shapeCasts_S2097152x2x1_S2097152x2,
    unary main_v40 main_v53 ((extractStridedSlice S2097152x2x1 ![0, 0, 1] · slices_S2097152x2x2_S2097152x2x1_0_0_1) : (⟨S2097152x2x2, .f32⟩ : BufTy).Contents (Elt F) → (⟨S2097152x2x1, .f32⟩ : BufTy).Contents (Elt F)),
    reshape main_v53 main_v54 rfl shapeCasts_S2097152x2x1_S2097152x2,
    unary main_v46 main_v55 (broadcastInDim S2097152x2 ![0, 1] bcast_S2097152x1_S2097152x2_0_1 : (⟨S2097152x1, .f32⟩ : BufTy).Contents (Elt F) → (⟨S2097152x2, .f32⟩ : BufTy).Contents (Elt F)),
    binary main_v55 main_v52 main_v56 (mulf : (⟨S2097152x2, .f32⟩ : BufTy).Contents (Elt F) → (⟨S2097152x2, .f32⟩ : BufTy).Contents (Elt F) → (⟨S2097152x2, .f32⟩ : BufTy).Contents (Elt F)),
    unary main_v50 main_v57 (broadcastInDim S2097152x2 ![0, 1] bcast_S2097152x1_S2097152x2_0_1 : (⟨S2097152x1, .f32⟩ : BufTy).Contents (Elt F) → (⟨S2097152x2, .f32⟩ : BufTy).Contents (Elt F)),
    binary main_v57 main_v54 main_v58 (mulf : (⟨S2097152x2, .f32⟩ : BufTy).Contents (Elt F) → (⟨S2097152x2, .f32⟩ : BufTy).Contents (Elt F) → (⟨S2097152x2, .f32⟩ : BufTy).Contents (Elt F)),
    binary main_v56 main_v58 main_v59 (subf : (⟨S2097152x2, .f32⟩ : BufTy).Contents (Elt F) → (⟨S2097152x2, .f32⟩ : BufTy).Contents (Elt F) → (⟨S2097152x2, .f32⟩ : BufTy).Contents (Elt F)),
    unary main_v50 main_v60 (broadcastInDim S2097152x2 ![0, 1] bcast_S2097152x1_S2097152x2_0_1 : (⟨S2097152x1, .f32⟩ : BufTy).Contents (Elt F) → (⟨S2097152x2, .f32⟩ : BufTy).Contents (Elt F)),
    binary main_v60 main_v52 main_v61 (mulf : (⟨S2097152x2, .f32⟩ : BufTy).Contents (Elt F) → (⟨S2097152x2, .f32⟩ : BufTy).Contents (Elt F) → (⟨S2097152x2, .f32⟩ : BufTy).Contents (Elt F)),
    unary main_v46 main_v62 (broadcastInDim S2097152x2 ![0, 1] bcast_S2097152x1_S2097152x2_0_1 : (⟨S2097152x1, .f32⟩ : BufTy).Contents (Elt F) → (⟨S2097152x2, .f32⟩ : BufTy).Contents (Elt F)),
    binary main_v62 main_v54 main_v63 (mulf : (⟨S2097152x2, .f32⟩ : BufTy).Contents (Elt F) → (⟨S2097152x2, .f32⟩ : BufTy).Contents (Elt F) → (⟨S2097152x2, .f32⟩ : BufTy).Contents (Elt F)),
    binary main_v61 main_v63 main_v64 (addf : (⟨S2097152x2, .f32⟩ : BufTy).Contents (Elt F) → (⟨S2097152x2, .f32⟩ : BufTy).Contents (Elt F) → (⟨S2097152x2, .f32⟩ : BufTy).Contents (Elt F)),
    unary main_v59 main_v65 (broadcastInDim S2097152x2x1 ![0, 1] bcast_S2097152x2_S2097152x2x1_0_1 : (⟨S2097152x2, .f32⟩ : BufTy).Contents (Elt F) → (⟨S2097152x2x1, .f32⟩ : BufTy).Contents (Elt F)),
    unary main_v64 main_v66 (broadcastInDim S2097152x2x1 ![0, 1] bcast_S2097152x2_S2097152x2x1_0_1 : (⟨S2097152x2, .f32⟩ : BufTy).Contents (Elt F) → (⟨S2097152x2x1, .f32⟩ : BufTy).Contents (Elt F)),
    binary main_v65 main_v66 main_v67 ((fun a b => concatenate S2097152x2x2 2 [⟨S2097152x2x1, a⟩, ⟨S2097152x2x1, b⟩] concatenates_S2097152x2x1_S2097152x2x1_S2097152x2x2_d2) : (⟨S2097152x2x1, .f32⟩ : BufTy).Contents (Elt F) → (⟨S2097152x2x1, .f32⟩ : BufTy).Contents (Elt F) → (⟨S2097152x2x2, .f32⟩ : BufTy).Contents (Elt F)) ]
/-- The buffers window `g2` writes. -/
abbrev g2_W : List (Ref sig .tc) := [main_v41, main_v42, main_cst_6, main_v43, main_v44, main_v45, main_v46, main_cst_7, main_v47, main_v48, main_v49, main_v50, main_v51, main_v52, main_v53, main_v54, main_v55, main_v56, main_v57, main_v58, main_v59, main_v60, main_v61, main_v62, main_v63, main_v64, main_v65, main_v66, main_v67]

/-- Window `x1`: the 8 operations up to the one that writes `main_v74`. -/
abbrev x1 : List (HloOp τ sig (Elt F)) :=
  [ reshape main_v67 main_v68 rfl shapeCasts_S2097152x2x2_S2097152x4,
    nullary main_c_8 (constantI S_ 32 4#32),
    unary main_c_8 main_v69 (broadcastInDim S4 ![] bcast_S_S4 : (⟨S_, .i32⟩ : BufTy).Contents (Elt F) → (⟨S4, .i32⟩ : BufTy).Contents (Elt F)),
    binary main_c main_v69 main_v70 (addi : (⟨S4, .i32⟩ : BufTy).Contents (Elt F) → (⟨S4, .i32⟩ : BufTy).Contents (Elt F) → (⟨S4, .i32⟩ : BufTy).Contents (Elt F)),
    ternary main_c_0 main_v70 main_c main_v71 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v71 main_v72 (broadcastInDim S4x1 ![0] bcast_S4_S4x1_0 : (⟨S4, .i32⟩ : BufTy).Contents (Elt F) → (⟨S4x1, .i32⟩ : BufTy).Contents (Elt F)),
    binary main_v68 main_v72 main_v73 ((fun x i => Host.gather gather_S2097152x4_S4x1_S2097152x4_0_1_n_n_1_1_20971521 x i) : (⟨S2097152x4, .f32⟩ : BufTy).Contents (Elt F) → (⟨S4x1, .i32⟩ : BufTy).Contents (Elt F) → (⟨S2097152x4, .f32⟩ : BufTy).Contents (Elt F)),
    reshape main_v73 main_v74 rfl shapeCasts_S2097152x4_S2097152x2x2 ]
/-- The buffers window `x1` writes. -/
abbrev x1_W : List (Ref sig .tc) := [main_v68, main_c_8, main_v69, main_v70, main_v71, main_v72, main_v73, main_v74]

/-- Window `g3`: the 29 operations up to the one that writes `main_v101`. -/
abbrev g3 : List (HloOp τ sig (Elt F)) :=
  [ unary main_v8 main_v75 ((extractStridedSlice S2097152x1 ![0, 0] · slices_S2097152x4_S2097152x1_0_0) : (⟨S2097152x4, .f32⟩ : BufTy).Contents (Elt F) → (⟨S2097152x1, .f32⟩ : BufTy).Contents (Elt F)),
    reshape main_v75 main_v76 rfl shapeCasts_S2097152x1_S2097152,
    nullary main_cst_9 (constant S_ .f32 0x3F000000#32),
    unary main_cst_9 main_v77 (broadcastInDim S2097152 ![] bcast_S_S2097152 : (⟨S_, .f32⟩ : BufTy).Contents (Elt F) → (⟨S2097152, .f32⟩ : BufTy).Contents (Elt F)),
    binary main_v76 main_v77 main_v78 (mulf : (⟨S2097152, .f32⟩ : BufTy).Contents (Elt F) → (⟨S2097152, .f32⟩ : BufTy).Contents (Elt F) → (⟨S2097152, .f32⟩ : BufTy).Contents (Elt F)),
    unary main_v78 main_v79 (Host.cos : (⟨S2097152, .f32⟩ : BufTy).Contents (Elt F) → (⟨S2097152, .f32⟩ : BufTy).Contents (Elt F)),
    unary main_v79 main_v80 (broadcastInDim S2097152x1 ![0] bcast_S2097152_S2097152x1_0 : (⟨S2097152, .f32⟩ : BufTy).Contents (Elt F) → (⟨S2097152x1, .f32⟩ : BufTy).Contents (Elt F)),
    nullary main_cst_10 (constant S_ .f32 0x3F000000#32),
    unary main_cst_10 main_v81 (broadcastInDim S2097152 ![] bcast_S_S2097152 : (⟨S_, .f32⟩ : BufTy).Contents (Elt F) → (⟨S2097152, .f32⟩ : BufTy).Contents (Elt F)),
    binary main_v76 main_v81 main_v82 (mulf : (⟨S2097152, .f32⟩ : BufTy).Contents (Elt F) → (⟨S2097152, .f32⟩ : BufTy).Contents (Elt F) → (⟨S2097152, .f32⟩ : BufTy).Contents (Elt F)),
    unary main_v82 main_v83 (Host.sin : (⟨S2097152, .f32⟩ : BufTy).Contents (Elt F) → (⟨S2097152, .f32⟩ : BufTy).Contents (Elt F)),
    unary main_v83 main_v84 (broadcastInDim S2097152x1 ![0] bcast_S2097152_S2097152x1_0 : (⟨S2097152, .f32⟩ : BufTy).Contents (Elt F) → (⟨S2097152x1, .f32⟩ : BufTy).Contents (Elt F)),
    unary main_v74 main_v85 ((extractStridedSlice S2097152x1x2 ![0, 0, 0] · slices_S2097152x2x2_S2097152x1x2_0_0_0) : (⟨S2097152x2x2, .f32⟩ : BufTy).Contents (Elt F) → (⟨S2097152x1x2, .f32⟩ : BufTy).Contents (Elt F)),
    reshape main_v85 main_v86 rfl shapeCasts_S2097152x1x2_S2097152x2,
    unary main_v74 main_v87 ((extractStridedSlice S2097152x1x2 ![0, 1, 0] · slices_S2097152x2x2_S2097152x1x2_0_1_0) : (⟨S2097152x2x2, .f32⟩ : BufTy).Contents (Elt F) → (⟨S2097152x1x2, .f32⟩ : BufTy).Contents (Elt F)),
    reshape main_v87 main_v88 rfl shapeCasts_S2097152x1x2_S2097152x2,
    unary main_v80 main_v89 (broadcastInDim S2097152x2 ![0, 1] bcast_S2097152x1_S2097152x2_0_1 : (⟨S2097152x1, .f32⟩ : BufTy).Contents (Elt F) → (⟨S2097152x2, .f32⟩ : BufTy).Contents (Elt F)),
    binary main_v89 main_v86 main_v90 (mulf : (⟨S2097152x2, .f32⟩ : BufTy).Contents (Elt F) → (⟨S2097152x2, .f32⟩ : BufTy).Contents (Elt F) → (⟨S2097152x2, .f32⟩ : BufTy).Contents (Elt F)),
    unary main_v84 main_v91 (broadcastInDim S2097152x2 ![0, 1] bcast_S2097152x1_S2097152x2_0_1 : (⟨S2097152x1, .f32⟩ : BufTy).Contents (Elt F) → (⟨S2097152x2, .f32⟩ : BufTy).Contents (Elt F)),
    binary main_v91 main_v88 main_v92 (mulf : (⟨S2097152x2, .f32⟩ : BufTy).Contents (Elt F) → (⟨S2097152x2, .f32⟩ : BufTy).Contents (Elt F) → (⟨S2097152x2, .f32⟩ : BufTy).Contents (Elt F)),
    binary main_v90 main_v92 main_v93 (subf : (⟨S2097152x2, .f32⟩ : BufTy).Contents (Elt F) → (⟨S2097152x2, .f32⟩ : BufTy).Contents (Elt F) → (⟨S2097152x2, .f32⟩ : BufTy).Contents (Elt F)),
    unary main_v84 main_v94 (broadcastInDim S2097152x2 ![0, 1] bcast_S2097152x1_S2097152x2_0_1 : (⟨S2097152x1, .f32⟩ : BufTy).Contents (Elt F) → (⟨S2097152x2, .f32⟩ : BufTy).Contents (Elt F)),
    binary main_v94 main_v86 main_v95 (mulf : (⟨S2097152x2, .f32⟩ : BufTy).Contents (Elt F) → (⟨S2097152x2, .f32⟩ : BufTy).Contents (Elt F) → (⟨S2097152x2, .f32⟩ : BufTy).Contents (Elt F)),
    unary main_v80 main_v96 (broadcastInDim S2097152x2 ![0, 1] bcast_S2097152x1_S2097152x2_0_1 : (⟨S2097152x1, .f32⟩ : BufTy).Contents (Elt F) → (⟨S2097152x2, .f32⟩ : BufTy).Contents (Elt F)),
    binary main_v96 main_v88 main_v97 (mulf : (⟨S2097152x2, .f32⟩ : BufTy).Contents (Elt F) → (⟨S2097152x2, .f32⟩ : BufTy).Contents (Elt F) → (⟨S2097152x2, .f32⟩ : BufTy).Contents (Elt F)),
    binary main_v95 main_v97 main_v98 (addf : (⟨S2097152x2, .f32⟩ : BufTy).Contents (Elt F) → (⟨S2097152x2, .f32⟩ : BufTy).Contents (Elt F) → (⟨S2097152x2, .f32⟩ : BufTy).Contents (Elt F)),
    unary main_v93 main_v99 (broadcastInDim S2097152x1x2 ![0, 2] bcast_S2097152x2_S2097152x1x2_0_2 : (⟨S2097152x2, .f32⟩ : BufTy).Contents (Elt F) → (⟨S2097152x1x2, .f32⟩ : BufTy).Contents (Elt F)),
    unary main_v98 main_v100 (broadcastInDim S2097152x1x2 ![0, 2] bcast_S2097152x2_S2097152x1x2_0_2 : (⟨S2097152x2, .f32⟩ : BufTy).Contents (Elt F) → (⟨S2097152x1x2, .f32⟩ : BufTy).Contents (Elt F)),
    binary main_v99 main_v100 main_v101 ((fun a b => concatenate S2097152x2x2 1 [⟨S2097152x1x2, a⟩, ⟨S2097152x1x2, b⟩] concatenates_S2097152x1x2_S2097152x1x2_S2097152x2x2_d1) : (⟨S2097152x1x2, .f32⟩ : BufTy).Contents (Elt F) → (⟨S2097152x1x2, .f32⟩ : BufTy).Contents (Elt F) → (⟨S2097152x2x2, .f32⟩ : BufTy).Contents (Elt F)) ]
/-- The buffers window `g3` writes. -/
abbrev g3_W : List (Ref sig .tc) := [main_v75, main_v76, main_cst_9, main_v77, main_v78, main_v79, main_v80, main_cst_10, main_v81, main_v82, main_v83, main_v84, main_v85, main_v86, main_v87, main_v88, main_v89, main_v90, main_v91, main_v92, main_v93, main_v94, main_v95, main_v96, main_v97, main_v98, main_v99, main_v100, main_v101]

/-- Window `g4`: the 29 operations up to the one that writes `main_v128`. -/
abbrev g4 : List (HloOp τ sig (Elt F)) :=
  [ unary main_v8 main_v102 ((extractStridedSlice S2097152x1 ![0, 1] · slices_S2097152x4_S2097152x1_0_1) : (⟨S2097152x4, .f32⟩ : BufTy).Contents (Elt F) → (⟨S2097152x1, .f32⟩ : BufTy).Contents (Elt F)),
    reshape main_v102 main_v103 rfl shapeCasts_S2097152x1_S2097152,
    nullary main_cst_11 (constant S_ .f32 0x3F000000#32),
    unary main_cst_11 main_v104 (broadcastInDim S2097152 ![] bcast_S_S2097152 : (⟨S_, .f32⟩ : BufTy).Contents (Elt F) → (⟨S2097152, .f32⟩ : BufTy).Contents (Elt F)),
    binary main_v103 main_v104 main_v105 (mulf : (⟨S2097152, .f32⟩ : BufTy).Contents (Elt F) → (⟨S2097152, .f32⟩ : BufTy).Contents (Elt F) → (⟨S2097152, .f32⟩ : BufTy).Contents (Elt F)),
    unary main_v105 main_v106 (Host.cos : (⟨S2097152, .f32⟩ : BufTy).Contents (Elt F) → (⟨S2097152, .f32⟩ : BufTy).Contents (Elt F)),
    unary main_v106 main_v107 (broadcastInDim S2097152x1 ![0] bcast_S2097152_S2097152x1_0 : (⟨S2097152, .f32⟩ : BufTy).Contents (Elt F) → (⟨S2097152x1, .f32⟩ : BufTy).Contents (Elt F)),
    nullary main_cst_12 (constant S_ .f32 0x3F000000#32),
    unary main_cst_12 main_v108 (broadcastInDim S2097152 ![] bcast_S_S2097152 : (⟨S_, .f32⟩ : BufTy).Contents (Elt F) → (⟨S2097152, .f32⟩ : BufTy).Contents (Elt F)),
    binary main_v103 main_v108 main_v109 (mulf : (⟨S2097152, .f32⟩ : BufTy).Contents (Elt F) → (⟨S2097152, .f32⟩ : BufTy).Contents (Elt F) → (⟨S2097152, .f32⟩ : BufTy).Contents (Elt F)),
    unary main_v109 main_v110 (Host.sin : (⟨S2097152, .f32⟩ : BufTy).Contents (Elt F) → (⟨S2097152, .f32⟩ : BufTy).Contents (Elt F)),
    unary main_v110 main_v111 (broadcastInDim S2097152x1 ![0] bcast_S2097152_S2097152x1_0 : (⟨S2097152, .f32⟩ : BufTy).Contents (Elt F) → (⟨S2097152x1, .f32⟩ : BufTy).Contents (Elt F)),
    unary main_v101 main_v112 ((extractStridedSlice S2097152x2x1 ![0, 0, 0] · slices_S2097152x2x2_S2097152x2x1_0_0_0) : (⟨S2097152x2x2, .f32⟩ : BufTy).Contents (Elt F) → (⟨S2097152x2x1, .f32⟩ : BufTy).Contents (Elt F)),
    reshape main_v112 main_v113 rfl shapeCasts_S2097152x2x1_S2097152x2,
    unary main_v101 main_v114 ((extractStridedSlice S2097152x2x1 ![0, 0, 1] · slices_S2097152x2x2_S2097152x2x1_0_0_1) : (⟨S2097152x2x2, .f32⟩ : BufTy).Contents (Elt F) → (⟨S2097152x2x1, .f32⟩ : BufTy).Contents (Elt F)),
    reshape main_v114 main_v115 rfl shapeCasts_S2097152x2x1_S2097152x2,
    unary main_v107 main_v116 (broadcastInDim S2097152x2 ![0, 1] bcast_S2097152x1_S2097152x2_0_1 : (⟨S2097152x1, .f32⟩ : BufTy).Contents (Elt F) → (⟨S2097152x2, .f32⟩ : BufTy).Contents (Elt F)),
    binary main_v116 main_v113 main_v117 (mulf : (⟨S2097152x2, .f32⟩ : BufTy).Contents (Elt F) → (⟨S2097152x2, .f32⟩ : BufTy).Contents (Elt F) → (⟨S2097152x2, .f32⟩ : BufTy).Contents (Elt F)),
    unary main_v111 main_v118 (broadcastInDim S2097152x2 ![0, 1] bcast_S2097152x1_S2097152x2_0_1 : (⟨S2097152x1, .f32⟩ : BufTy).Contents (Elt F) → (⟨S2097152x2, .f32⟩ : BufTy).Contents (Elt F)),
    binary main_v118 main_v115 main_v119 (mulf : (⟨S2097152x2, .f32⟩ : BufTy).Contents (Elt F) → (⟨S2097152x2, .f32⟩ : BufTy).Contents (Elt F) → (⟨S2097152x2, .f32⟩ : BufTy).Contents (Elt F)),
    binary main_v117 main_v119 main_v120 (subf : (⟨S2097152x2, .f32⟩ : BufTy).Contents (Elt F) → (⟨S2097152x2, .f32⟩ : BufTy).Contents (Elt F) → (⟨S2097152x2, .f32⟩ : BufTy).Contents (Elt F)),
    unary main_v111 main_v121 (broadcastInDim S2097152x2 ![0, 1] bcast_S2097152x1_S2097152x2_0_1 : (⟨S2097152x1, .f32⟩ : BufTy).Contents (Elt F) → (⟨S2097152x2, .f32⟩ : BufTy).Contents (Elt F)),
    binary main_v121 main_v113 main_v122 (mulf : (⟨S2097152x2, .f32⟩ : BufTy).Contents (Elt F) → (⟨S2097152x2, .f32⟩ : BufTy).Contents (Elt F) → (⟨S2097152x2, .f32⟩ : BufTy).Contents (Elt F)),
    unary main_v107 main_v123 (broadcastInDim S2097152x2 ![0, 1] bcast_S2097152x1_S2097152x2_0_1 : (⟨S2097152x1, .f32⟩ : BufTy).Contents (Elt F) → (⟨S2097152x2, .f32⟩ : BufTy).Contents (Elt F)),
    binary main_v123 main_v115 main_v124 (mulf : (⟨S2097152x2, .f32⟩ : BufTy).Contents (Elt F) → (⟨S2097152x2, .f32⟩ : BufTy).Contents (Elt F) → (⟨S2097152x2, .f32⟩ : BufTy).Contents (Elt F)),
    binary main_v122 main_v124 main_v125 (addf : (⟨S2097152x2, .f32⟩ : BufTy).Contents (Elt F) → (⟨S2097152x2, .f32⟩ : BufTy).Contents (Elt F) → (⟨S2097152x2, .f32⟩ : BufTy).Contents (Elt F)),
    unary main_v120 main_v126 (broadcastInDim S2097152x2x1 ![0, 1] bcast_S2097152x2_S2097152x2x1_0_1 : (⟨S2097152x2, .f32⟩ : BufTy).Contents (Elt F) → (⟨S2097152x2x1, .f32⟩ : BufTy).Contents (Elt F)),
    unary main_v125 main_v127 (broadcastInDim S2097152x2x1 ![0, 1] bcast_S2097152x2_S2097152x2x1_0_1 : (⟨S2097152x2, .f32⟩ : BufTy).Contents (Elt F) → (⟨S2097152x2x1, .f32⟩ : BufTy).Contents (Elt F)),
    binary main_v126 main_v127 main_v128 ((fun a b => concatenate S2097152x2x2 2 [⟨S2097152x2x1, a⟩, ⟨S2097152x2x1, b⟩] concatenates_S2097152x2x1_S2097152x2x1_S2097152x2x2_d2) : (⟨S2097152x2x1, .f32⟩ : BufTy).Contents (Elt F) → (⟨S2097152x2x1, .f32⟩ : BufTy).Contents (Elt F) → (⟨S2097152x2x2, .f32⟩ : BufTy).Contents (Elt F)) ]
/-- The buffers window `g4` writes. -/
abbrev g4_W : List (Ref sig .tc) := [main_v102, main_v103, main_cst_11, main_v104, main_v105, main_v106, main_v107, main_cst_12, main_v108, main_v109, main_v110, main_v111, main_v112, main_v113, main_v114, main_v115, main_v116, main_v117, main_v118, main_v119, main_v120, main_v121, main_v122, main_v123, main_v124, main_v125, main_v126, main_v127, main_v128]

/-- Window `x2`: the 8 operations up to the one that writes `main_v135`. -/
abbrev x2 : List (HloOp τ sig (Elt F)) :=
  [ reshape main_v128 main_v129 rfl shapeCasts_S2097152x2x2_S2097152x4,
    nullary main_c_13 (constantI S_ 32 4#32),
    unary main_c_13 main_v130 (broadcastInDim S4 ![] bcast_S_S4 : (⟨S_, .i32⟩ : BufTy).Contents (Elt F) → (⟨S4, .i32⟩ : BufTy).Contents (Elt F)),
    binary main_c main_v130 main_v131 (addi : (⟨S4, .i32⟩ : BufTy).Contents (Elt F) → (⟨S4, .i32⟩ : BufTy).Contents (Elt F) → (⟨S4, .i32⟩ : BufTy).Contents (Elt F)),
    ternary main_c_1 main_v131 main_c main_v132 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v132 main_v133 (broadcastInDim S4x1 ![0] bcast_S4_S4x1_0 : (⟨S4, .i32⟩ : BufTy).Contents (Elt F) → (⟨S4x1, .i32⟩ : BufTy).Contents (Elt F)),
    binary main_v129 main_v133 main_v134 ((fun x i => Host.gather gather_S2097152x4_S4x1_S2097152x4_0_1_n_n_1_1_20971521 x i) : (⟨S2097152x4, .f32⟩ : BufTy).Contents (Elt F) → (⟨S4x1, .i32⟩ : BufTy).Contents (Elt F) → (⟨S2097152x4, .f32⟩ : BufTy).Contents (Elt F)),
    reshape main_v134 main_v135 rfl shapeCasts_S2097152x4_S2097152x2x2 ]
/-- The buffers window `x2` writes. -/
abbrev x2_W : List (Ref sig .tc) := [main_v129, main_c_13, main_v130, main_v131, main_v132, main_v133, main_v134, main_v135]

/-- Window `g5`: the 29 operations up to the one that writes `main_v162`. -/
abbrev g5 : List (HloOp τ sig (Elt F)) :=
  [ unary main_v8 main_v136 ((extractStridedSlice S2097152x1 ![0, 2] · slices_S2097152x4_S2097152x1_0_2) : (⟨S2097152x4, .f32⟩ : BufTy).Contents (Elt F) → (⟨S2097152x1, .f32⟩ : BufTy).Contents (Elt F)),
    reshape main_v136 main_v137 rfl shapeCasts_S2097152x1_S2097152,
    nullary main_cst_14 (constant S_ .f32 0x3F000000#32),
    unary main_cst_14 main_v138 (broadcastInDim S2097152 ![] bcast_S_S2097152 : (⟨S_, .f32⟩ : BufTy).Contents (Elt F) → (⟨S2097152, .f32⟩ : BufTy).Contents (Elt F)),
    binary main_v137 main_v138 main_v139 (mulf : (⟨S2097152, .f32⟩ : BufTy).Contents (Elt F) → (⟨S2097152, .f32⟩ : BufTy).Contents (Elt F) → (⟨S2097152, .f32⟩ : BufTy).Contents (Elt F)),
    unary main_v139 main_v140 (Host.cos : (⟨S2097152, .f32⟩ : BufTy).Contents (Elt F) → (⟨S2097152, .f32⟩ : BufTy).Contents (Elt F)),
    unary main_v140 main_v141 (broadcastInDim S2097152x1 ![0] bcast_S2097152_S2097152x1_0 : (⟨S2097152, .f32⟩ : BufTy).Contents (Elt F) → (⟨S2097152x1, .f32⟩ : BufTy).Contents (Elt F)),
    nullary main_cst_15 (constant S_ .f32 0x3F000000#32),
    unary main_cst_15 main_v142 (broadcastInDim S2097152 ![] bcast_S_S2097152 : (⟨S_, .f32⟩ : BufTy).Contents (Elt F) → (⟨S2097152, .f32⟩ : BufTy).Contents (Elt F)),
    binary main_v137 main_v142 main_v143 (mulf : (⟨S2097152, .f32⟩ : BufTy).Contents (Elt F) → (⟨S2097152, .f32⟩ : BufTy).Contents (Elt F) → (⟨S2097152, .f32⟩ : BufTy).Contents (Elt F)),
    unary main_v143 main_v144 (Host.sin : (⟨S2097152, .f32⟩ : BufTy).Contents (Elt F) → (⟨S2097152, .f32⟩ : BufTy).Contents (Elt F)),
    unary main_v144 main_v145 (broadcastInDim S2097152x1 ![0] bcast_S2097152_S2097152x1_0 : (⟨S2097152, .f32⟩ : BufTy).Contents (Elt F) → (⟨S2097152x1, .f32⟩ : BufTy).Contents (Elt F)),
    unary main_v135 main_v146 ((extractStridedSlice S2097152x1x2 ![0, 0, 0] · slices_S2097152x2x2_S2097152x1x2_0_0_0) : (⟨S2097152x2x2, .f32⟩ : BufTy).Contents (Elt F) → (⟨S2097152x1x2, .f32⟩ : BufTy).Contents (Elt F)),
    reshape main_v146 main_v147 rfl shapeCasts_S2097152x1x2_S2097152x2,
    unary main_v135 main_v148 ((extractStridedSlice S2097152x1x2 ![0, 1, 0] · slices_S2097152x2x2_S2097152x1x2_0_1_0) : (⟨S2097152x2x2, .f32⟩ : BufTy).Contents (Elt F) → (⟨S2097152x1x2, .f32⟩ : BufTy).Contents (Elt F)),
    reshape main_v148 main_v149 rfl shapeCasts_S2097152x1x2_S2097152x2,
    unary main_v141 main_v150 (broadcastInDim S2097152x2 ![0, 1] bcast_S2097152x1_S2097152x2_0_1 : (⟨S2097152x1, .f32⟩ : BufTy).Contents (Elt F) → (⟨S2097152x2, .f32⟩ : BufTy).Contents (Elt F)),
    binary main_v150 main_v147 main_v151 (mulf : (⟨S2097152x2, .f32⟩ : BufTy).Contents (Elt F) → (⟨S2097152x2, .f32⟩ : BufTy).Contents (Elt F) → (⟨S2097152x2, .f32⟩ : BufTy).Contents (Elt F)),
    unary main_v145 main_v152 (broadcastInDim S2097152x2 ![0, 1] bcast_S2097152x1_S2097152x2_0_1 : (⟨S2097152x1, .f32⟩ : BufTy).Contents (Elt F) → (⟨S2097152x2, .f32⟩ : BufTy).Contents (Elt F)),
    binary main_v152 main_v149 main_v153 (mulf : (⟨S2097152x2, .f32⟩ : BufTy).Contents (Elt F) → (⟨S2097152x2, .f32⟩ : BufTy).Contents (Elt F) → (⟨S2097152x2, .f32⟩ : BufTy).Contents (Elt F)),
    binary main_v151 main_v153 main_v154 (subf : (⟨S2097152x2, .f32⟩ : BufTy).Contents (Elt F) → (⟨S2097152x2, .f32⟩ : BufTy).Contents (Elt F) → (⟨S2097152x2, .f32⟩ : BufTy).Contents (Elt F)),
    unary main_v145 main_v155 (broadcastInDim S2097152x2 ![0, 1] bcast_S2097152x1_S2097152x2_0_1 : (⟨S2097152x1, .f32⟩ : BufTy).Contents (Elt F) → (⟨S2097152x2, .f32⟩ : BufTy).Contents (Elt F)),
    binary main_v155 main_v147 main_v156 (mulf : (⟨S2097152x2, .f32⟩ : BufTy).Contents (Elt F) → (⟨S2097152x2, .f32⟩ : BufTy).Contents (Elt F) → (⟨S2097152x2, .f32⟩ : BufTy).Contents (Elt F)),
    unary main_v141 main_v157 (broadcastInDim S2097152x2 ![0, 1] bcast_S2097152x1_S2097152x2_0_1 : (⟨S2097152x1, .f32⟩ : BufTy).Contents (Elt F) → (⟨S2097152x2, .f32⟩ : BufTy).Contents (Elt F)),
    binary main_v157 main_v149 main_v158 (mulf : (⟨S2097152x2, .f32⟩ : BufTy).Contents (Elt F) → (⟨S2097152x2, .f32⟩ : BufTy).Contents (Elt F) → (⟨S2097152x2, .f32⟩ : BufTy).Contents (Elt F)),
    binary main_v156 main_v158 main_v159 (addf : (⟨S2097152x2, .f32⟩ : BufTy).Contents (Elt F) → (⟨S2097152x2, .f32⟩ : BufTy).Contents (Elt F) → (⟨S2097152x2, .f32⟩ : BufTy).Contents (Elt F)),
    unary main_v154 main_v160 (broadcastInDim S2097152x1x2 ![0, 2] bcast_S2097152x2_S2097152x1x2_0_2 : (⟨S2097152x2, .f32⟩ : BufTy).Contents (Elt F) → (⟨S2097152x1x2, .f32⟩ : BufTy).Contents (Elt F)),
    unary main_v159 main_v161 (broadcastInDim S2097152x1x2 ![0, 2] bcast_S2097152x2_S2097152x1x2_0_2 : (⟨S2097152x2, .f32⟩ : BufTy).Contents (Elt F) → (⟨S2097152x1x2, .f32⟩ : BufTy).Contents (Elt F)),
    binary main_v160 main_v161 main_v162 ((fun a b => concatenate S2097152x2x2 1 [⟨S2097152x1x2, a⟩, ⟨S2097152x1x2, b⟩] concatenates_S2097152x1x2_S2097152x1x2_S2097152x2x2_d1) : (⟨S2097152x1x2, .f32⟩ : BufTy).Contents (Elt F) → (⟨S2097152x1x2, .f32⟩ : BufTy).Contents (Elt F) → (⟨S2097152x2x2, .f32⟩ : BufTy).Contents (Elt F)) ]
/-- The buffers window `g5` writes. -/
abbrev g5_W : List (Ref sig .tc) := [main_v136, main_v137, main_cst_14, main_v138, main_v139, main_v140, main_v141, main_cst_15, main_v142, main_v143, main_v144, main_v145, main_v146, main_v147, main_v148, main_v149, main_v150, main_v151, main_v152, main_v153, main_v154, main_v155, main_v156, main_v157, main_v158, main_v159, main_v160, main_v161, main_v162]

/-- Window `g6`: the 29 operations up to the one that writes `main_v189`. -/
abbrev g6 : List (HloOp τ sig (Elt F)) :=
  [ unary main_v8 main_v163 ((extractStridedSlice S2097152x1 ![0, 3] · slices_S2097152x4_S2097152x1_0_3) : (⟨S2097152x4, .f32⟩ : BufTy).Contents (Elt F) → (⟨S2097152x1, .f32⟩ : BufTy).Contents (Elt F)),
    reshape main_v163 main_v164 rfl shapeCasts_S2097152x1_S2097152,
    nullary main_cst_16 (constant S_ .f32 0x3F000000#32),
    unary main_cst_16 main_v165 (broadcastInDim S2097152 ![] bcast_S_S2097152 : (⟨S_, .f32⟩ : BufTy).Contents (Elt F) → (⟨S2097152, .f32⟩ : BufTy).Contents (Elt F)),
    binary main_v164 main_v165 main_v166 (mulf : (⟨S2097152, .f32⟩ : BufTy).Contents (Elt F) → (⟨S2097152, .f32⟩ : BufTy).Contents (Elt F) → (⟨S2097152, .f32⟩ : BufTy).Contents (Elt F)),
    unary main_v166 main_v167 (Host.cos : (⟨S2097152, .f32⟩ : BufTy).Contents (Elt F) → (⟨S2097152, .f32⟩ : BufTy).Contents (Elt F)),
    unary main_v167 main_v168 (broadcastInDim S2097152x1 ![0] bcast_S2097152_S2097152x1_0 : (⟨S2097152, .f32⟩ : BufTy).Contents (Elt F) → (⟨S2097152x1, .f32⟩ : BufTy).Contents (Elt F)),
    nullary main_cst_17 (constant S_ .f32 0x3F000000#32),
    unary main_cst_17 main_v169 (broadcastInDim S2097152 ![] bcast_S_S2097152 : (⟨S_, .f32⟩ : BufTy).Contents (Elt F) → (⟨S2097152, .f32⟩ : BufTy).Contents (Elt F)),
    binary main_v164 main_v169 main_v170 (mulf : (⟨S2097152, .f32⟩ : BufTy).Contents (Elt F) → (⟨S2097152, .f32⟩ : BufTy).Contents (Elt F) → (⟨S2097152, .f32⟩ : BufTy).Contents (Elt F)),
    unary main_v170 main_v171 (Host.sin : (⟨S2097152, .f32⟩ : BufTy).Contents (Elt F) → (⟨S2097152, .f32⟩ : BufTy).Contents (Elt F)),
    unary main_v171 main_v172 (broadcastInDim S2097152x1 ![0] bcast_S2097152_S2097152x1_0 : (⟨S2097152, .f32⟩ : BufTy).Contents (Elt F) → (⟨S2097152x1, .f32⟩ : BufTy).Contents (Elt F)),
    unary main_v162 main_v173 ((extractStridedSlice S2097152x2x1 ![0, 0, 0] · slices_S2097152x2x2_S2097152x2x1_0_0_0) : (⟨S2097152x2x2, .f32⟩ : BufTy).Contents (Elt F) → (⟨S2097152x2x1, .f32⟩ : BufTy).Contents (Elt F)),
    reshape main_v173 main_v174 rfl shapeCasts_S2097152x2x1_S2097152x2,
    unary main_v162 main_v175 ((extractStridedSlice S2097152x2x1 ![0, 0, 1] · slices_S2097152x2x2_S2097152x2x1_0_0_1) : (⟨S2097152x2x2, .f32⟩ : BufTy).Contents (Elt F) → (⟨S2097152x2x1, .f32⟩ : BufTy).Contents (Elt F)),
    reshape main_v175 main_v176 rfl shapeCasts_S2097152x2x1_S2097152x2,
    unary main_v168 main_v177 (broadcastInDim S2097152x2 ![0, 1] bcast_S2097152x1_S2097152x2_0_1 : (⟨S2097152x1, .f32⟩ : BufTy).Contents (Elt F) → (⟨S2097152x2, .f32⟩ : BufTy).Contents (Elt F)),
    binary main_v177 main_v174 main_v178 (mulf : (⟨S2097152x2, .f32⟩ : BufTy).Contents (Elt F) → (⟨S2097152x2, .f32⟩ : BufTy).Contents (Elt F) → (⟨S2097152x2, .f32⟩ : BufTy).Contents (Elt F)),
    unary main_v172 main_v179 (broadcastInDim S2097152x2 ![0, 1] bcast_S2097152x1_S2097152x2_0_1 : (⟨S2097152x1, .f32⟩ : BufTy).Contents (Elt F) → (⟨S2097152x2, .f32⟩ : BufTy).Contents (Elt F)),
    binary main_v179 main_v176 main_v180 (mulf : (⟨S2097152x2, .f32⟩ : BufTy).Contents (Elt F) → (⟨S2097152x2, .f32⟩ : BufTy).Contents (Elt F) → (⟨S2097152x2, .f32⟩ : BufTy).Contents (Elt F)),
    binary main_v178 main_v180 main_v181 (subf : (⟨S2097152x2, .f32⟩ : BufTy).Contents (Elt F) → (⟨S2097152x2, .f32⟩ : BufTy).Contents (Elt F) → (⟨S2097152x2, .f32⟩ : BufTy).Contents (Elt F)),
    unary main_v172 main_v182 (broadcastInDim S2097152x2 ![0, 1] bcast_S2097152x1_S2097152x2_0_1 : (⟨S2097152x1, .f32⟩ : BufTy).Contents (Elt F) → (⟨S2097152x2, .f32⟩ : BufTy).Contents (Elt F)),
    binary main_v182 main_v174 main_v183 (mulf : (⟨S2097152x2, .f32⟩ : BufTy).Contents (Elt F) → (⟨S2097152x2, .f32⟩ : BufTy).Contents (Elt F) → (⟨S2097152x2, .f32⟩ : BufTy).Contents (Elt F)),
    unary main_v168 main_v184 (broadcastInDim S2097152x2 ![0, 1] bcast_S2097152x1_S2097152x2_0_1 : (⟨S2097152x1, .f32⟩ : BufTy).Contents (Elt F) → (⟨S2097152x2, .f32⟩ : BufTy).Contents (Elt F)),
    binary main_v184 main_v176 main_v185 (mulf : (⟨S2097152x2, .f32⟩ : BufTy).Contents (Elt F) → (⟨S2097152x2, .f32⟩ : BufTy).Contents (Elt F) → (⟨S2097152x2, .f32⟩ : BufTy).Contents (Elt F)),
    binary main_v183 main_v185 main_v186 (addf : (⟨S2097152x2, .f32⟩ : BufTy).Contents (Elt F) → (⟨S2097152x2, .f32⟩ : BufTy).Contents (Elt F) → (⟨S2097152x2, .f32⟩ : BufTy).Contents (Elt F)),
    unary main_v181 main_v187 (broadcastInDim S2097152x2x1 ![0, 1] bcast_S2097152x2_S2097152x2x1_0_1 : (⟨S2097152x2, .f32⟩ : BufTy).Contents (Elt F) → (⟨S2097152x2x1, .f32⟩ : BufTy).Contents (Elt F)),
    unary main_v186 main_v188 (broadcastInDim S2097152x2x1 ![0, 1] bcast_S2097152x2_S2097152x2x1_0_1 : (⟨S2097152x2, .f32⟩ : BufTy).Contents (Elt F) → (⟨S2097152x2x1, .f32⟩ : BufTy).Contents (Elt F)),
    binary main_v187 main_v188 main_v189 ((fun a b => concatenate S2097152x2x2 2 [⟨S2097152x2x1, a⟩, ⟨S2097152x2x1, b⟩] concatenates_S2097152x2x1_S2097152x2x1_S2097152x2x2_d2) : (⟨S2097152x2x1, .f32⟩ : BufTy).Contents (Elt F) → (⟨S2097152x2x1, .f32⟩ : BufTy).Contents (Elt F) → (⟨S2097152x2x2, .f32⟩ : BufTy).Contents (Elt F)) ]
/-- The buffers window `g6` writes. -/
abbrev g6_W : List (Ref sig .tc) := [main_v163, main_v164, main_cst_16, main_v165, main_v166, main_v167, main_v168, main_cst_17, main_v169, main_v170, main_v171, main_v172, main_v173, main_v174, main_v175, main_v176, main_v177, main_v178, main_v179, main_v180, main_v181, main_v182, main_v183, main_v184, main_v185, main_v186, main_v187, main_v188, main_v189]

/-- Window `fin`: the 29 operations up to the one that writes `main_v215`. -/
abbrev fin : List (HloOp τ sig (Elt F)) :=
  [ reshape main_v189 main_v190 rfl shapeCasts_S2097152x2x2_S2097152x4,
    binary main_v190 main_v190 main_v191 (mulf : (⟨S2097152x4, .f32⟩ : BufTy).Contents (Elt F) → (⟨S2097152x4, .f32⟩ : BufTy).Contents (Elt F) → (⟨S2097152x4, .f32⟩ : BufTy).Contents (Elt F)),
    unary main_v191 main_v192 ((extractStridedSlice S2097152x1 ![0, 0] · slices_S2097152x4_S2097152x1_0_0) : (⟨S2097152x4, .f32⟩ : BufTy).Contents (Elt F) → (⟨S2097152x1, .f32⟩ : BufTy).Contents (Elt F)),
    reshape main_v192 main_v193 rfl shapeCasts_S2097152x1_S2097152,
    unary main_v191 main_v194 ((extractStridedSlice S2097152x1 ![0, 2] · slices_S2097152x4_S2097152x1_0_2) : (⟨S2097152x4, .f32⟩ : BufTy).Contents (Elt F) → (⟨S2097152x1, .f32⟩ : BufTy).Contents (Elt F)),
    reshape main_v194 main_v195 rfl shapeCasts_S2097152x1_S2097152,
    binary main_v193 main_v195 main_v196 (addf : (⟨S2097152, .f32⟩ : BufTy).Contents (Elt F) → (⟨S2097152, .f32⟩ : BufTy).Contents (Elt F) → (⟨S2097152, .f32⟩ : BufTy).Contents (Elt F)),
    unary main_v191 main_v197 ((extractStridedSlice S2097152x1 ![0, 1] · slices_S2097152x4_S2097152x1_0_1) : (⟨S2097152x4, .f32⟩ : BufTy).Contents (Elt F) → (⟨S2097152x1, .f32⟩ : BufTy).Contents (Elt F)),
    reshape main_v197 main_v198 rfl shapeCasts_S2097152x1_S2097152,
    unary main_v191 main_v199 ((extractStridedSlice S2097152x1 ![0, 3] · slices_S2097152x4_S2097152x1_0_3) : (⟨S2097152x4, .f32⟩ : BufTy).Contents (Elt F) → (⟨S2097152x1, .f32⟩ : BufTy).Contents (Elt F)),
    reshape main_v199 main_v200 rfl shapeCasts_S2097152x1_S2097152,
    binary main_v198 main_v200 main_v201 (addf : (⟨S2097152, .f32⟩ : BufTy).Contents (Elt F) → (⟨S2097152, .f32⟩ : BufTy).Contents (Elt F) → (⟨S2097152, .f32⟩ : BufTy).Contents (Elt F)),
    unary main_v196 main_v202 (broadcastInDim S2097152x1 ![0] bcast_S2097152_S2097152x1_0 : (⟨S2097152, .f32⟩ : BufTy).Contents (Elt F) → (⟨S2097152x1, .f32⟩ : BufTy).Contents (Elt F)),
    unary main_v201 main_v203 (broadcastInDim S2097152x1 ![0] bcast_S2097152_S2097152x1_0 : (⟨S2097152, .f32⟩ : BufTy).Contents (Elt F) → (⟨S2097152x1, .f32⟩ : BufTy).Contents (Elt F)),
    binary main_v202 main_v203 main_v204 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)),
    nullary main_cst_18 (constant S_ .f32 0xFF800000#32),
    binary main_v204 main_cst_18 main_v205 ((fun x v => Host.reduce FloatOps.maximumf x v reducesTo_S2097152x2_S2097152_d1 h_S_) : (⟨S2097152x2, .f32⟩ : BufTy).Contents (Elt F) → (⟨S_, .f32⟩ : BufTy).Contents (Elt F) → (⟨S2097152, .f32⟩ : BufTy).Contents (Elt F)),
    nullary main_cst_19 (constant S_ .f32 0xFF800000#32),
    unary main_cst_19 main_v206 (broadcastInDim S2097152 ![] bcast_S_S2097152 : (⟨S_, .f32⟩ : BufTy).Contents (Elt F) → (⟨S2097152, .f32⟩ : BufTy).Contents (Elt F)),
    binary main_v206 main_v205 main_v207 (maximumf : (⟨S2097152, .f32⟩ : BufTy).Contents (Elt F) → (⟨S2097152, .f32⟩ : BufTy).Contents (Elt F) → (⟨S2097152, .f32⟩ : BufTy).Contents (Elt F)),
    unary main_v207 main_v208 (broadcastInDim S2097152x1 ![0] bcast_S2097152_S2097152x1_0 : (⟨S2097152, .f32⟩ : BufTy).Contents (Elt F) → (⟨S2097152x1, .f32⟩ : BufTy).Contents (Elt F)),
    unary main_v208 main_v209 (broadcastInDim S2097152x2 ![0, 1] bcast_S2097152x1_S2097152x2_0_1 : (⟨S2097152x1, .f32⟩ : BufTy).Contents (Elt F) → (⟨S2097152x2, .f32⟩ : BufTy).Contents (Elt F)),
    binary main_v204 main_v209 main_v210 (subf : (⟨S2097152x2, .f32⟩ : BufTy).Contents (Elt F) → (⟨S2097152x2, .f32⟩ : BufTy).Contents (Elt F) → (⟨S2097152x2, .f32⟩ : BufTy).Contents (Elt F)),
    unary main_v210 main_v211 (Host.exp : (⟨S2097152x2, .f32⟩ : BufTy).Contents (Elt F) → (⟨S2097152x2, .f32⟩ : BufTy).Contents (Elt F)),
    nullary main_cst_20 (constant S_ .f32 0x00000000#32),
    binary main_v211 main_cst_20 main_v212 ((fun x v => Host.reduceAdd x v reducesTo_S2097152x2_S2097152_d1 h_S_) : (⟨S2097152x2, .f32⟩ : BufTy).Contents (Elt F) → (⟨S_, .f32⟩ : BufTy).Contents (Elt F) → (⟨S2097152, .f32⟩ : BufTy).Contents (Elt F)),
    unary main_v212 main_v213 (broadcastInDim S2097152x1 ![0] bcast_S2097152_S2097152x1_0 : (⟨S2097152, .f32⟩ : BufTy).Contents (Elt F) → (⟨S2097152x1, .f32⟩ : BufTy).Contents (Elt F)),
    unary main_v213 main_v214 (broadcastInDim S2097152x2 ![0, 1] bcast_S2097152x1_S2097152x2_0_1 : (⟨S2097152x1, .f32⟩ : BufTy).Contents (Elt F) → (⟨S2097152x2, .f32⟩ : BufTy).Contents (Elt F)),
    binary main_v211 main_v214 main_v215 (Host.divf : (⟨S2097152x2, .f32⟩ : BufTy).Contents (Elt F) → (⟨S2097152x2, .f32⟩ : BufTy).Contents (Elt F) → (⟨S2097152x2, .f32⟩ : BufTy).Contents (Elt F)) ]
/-- The buffers window `fin` writes. -/
abbrev fin_W : List (Ref sig .tc) := [main_v190, main_v191, main_v192, main_v193, main_v194, main_v195, main_v196, main_v197, main_v198, main_v199, main_v200, main_v201, main_v202, main_v203, main_v204, main_cst_18, main_v205, main_cst_19, main_v206, main_v207, main_v208, main_v209, main_v210, main_v211, main_cst_20, main_v212, main_v213, main_v214, main_v215]

/-- The printed part 0 of @main: its 60 operations. -/
abbrev p0 : List (HloOp τ sig (Elt F)) :=
  [ nullary main_c (fun i => lit0 (S4.rowMajor i)),
    nullary main_c_0 (constantI S4 1 0#1),
    nullary main_c_1 (constantI S4 1 0#1),
    binary main_arg0 main_arg1 main_v0 ((fun l r => Host.dotGeneral dot_S2097152x2_S2x8_S2097152x8_1_0_0_1_n_n none l r) : (⟨S2097152x2, .f32⟩ : BufTy).Contents (Elt F) → (⟨S2x8, .f32⟩ : BufTy).Contents (Elt F) → (⟨S2097152x8, .f32⟩ : BufTy).Contents (Elt F)),
    unary main_arg2 main_v1 (broadcastInDim S1x8 ![1] bcast_S8_S1x8_1 : (⟨S8, .f32⟩ : BufTy).Contents (Elt F) → (⟨S1x8, .f32⟩ : BufTy).Contents (Elt F)),
    unary main_v1 main_v2 (broadcastInDim S2097152x8 ![0, 1] bcast_S1x8_S2097152x8_0_1 : (⟨S1x8, .f32⟩ : BufTy).Contents (Elt F) → (⟨S2097152x8, .f32⟩ : BufTy).Contents (Elt F)),
    binary main_v0 main_v2 main_v3 (addf : (⟨S2097152x8, .f32⟩ : BufTy).Contents (Elt F) → (⟨S2097152x8, .f32⟩ : BufTy).Contents (Elt F) → (⟨S2097152x8, .f32⟩ : BufTy).Contents (Elt F)),
    unary main_v3 main_v4 (Host.tanh : (⟨S2097152x8, .f32⟩ : BufTy).Contents (Elt F) → (⟨S2097152x8, .f32⟩ : BufTy).Contents (Elt F)),
    binary main_v4 main_arg3 main_v5 ((fun l r => Host.dotGeneral dot_S2097152x8_S8x4_S2097152x4_1_0_0_1_n_n none l r) : (⟨S2097152x8, .f32⟩ : BufTy).Contents (Elt F) → (⟨S8x4, .f32⟩ : BufTy).Contents (Elt F) → (⟨S2097152x4, .f32⟩ : BufTy).Contents (Elt F)),
    unary main_arg4 main_v6 (broadcastInDim S1x4 ![1] bcast_S4_S1x4_1 : (⟨S4, .f32⟩ : BufTy).Contents (Elt F) → (⟨S1x4, .f32⟩ : BufTy).Contents (Elt F)),
    unary main_v6 main_v7 (broadcastInDim S2097152x4 ![0, 1] bcast_S1x4_S2097152x4_0_1 : (⟨S1x4, .f32⟩ : BufTy).Contents (Elt F) → (⟨S2097152x4, .f32⟩ : BufTy).Contents (Elt F)),
    binary main_v5 main_v7 main_v8 (addf : (⟨S2097152x4, .f32⟩ : BufTy).Contents (Elt F) → (⟨S2097152x4, .f32⟩ : BufTy).Contents (Elt F) → (⟨S2097152x4, .f32⟩ : BufTy).Contents (Elt F)),
    nullary main_cst (constant S_ .f32 0x00000000#32),
    unary main_cst main_v9 (broadcastInDim S2097152x4 ![] bcast_S_S2097152x4 : (⟨S_, .f32⟩ : BufTy).Contents (Elt F) → (⟨S2097152x4, .f32⟩ : BufTy).Contents (Elt F)),
    nullary main_c_2 (constantI S_ 32 0#32),
    unary main_c_2 main_v10 (broadcastInDim S1 ![] bcast_S_S1 : (⟨S_, .i32⟩ : BufTy).Contents (Elt F) → (⟨S1, .i32⟩ : BufTy).Contents (Elt F)),
    nullary main_cst_3 (constant S_ .f32 0x3F800000#32),
    unary main_cst_3 main_v11 (broadcastInDim S2097152 ![] bcast_S_S2097152 : (⟨S_, .f32⟩ : BufTy).Contents (Elt F) → (⟨S2097152, .f32⟩ : BufTy).Contents (Elt F)),
    ternary main_v9 main_v10 main_v11 main_v12 ((fun x i u => Host.scatter scatter_S2097152x4_S1_S2097152_0_1_1_0 (fun _ b => b) x i u) : (⟨S2097152x4, .f32⟩ : BufTy).Contents (Elt F) → (⟨S1, .i32⟩ : BufTy).Contents (Elt F) → (⟨S2097152, .f32⟩ : BufTy).Contents (Elt F) → (⟨S2097152x4, .f32⟩ : BufTy).Contents (Elt F)),
    reshape main_v12 main_v13 rfl shapeCasts_S2097152x4_S2097152x2x2,
    unary main_arg0 main_v14 ((extractStridedSlice S2097152x1 ![0, 0] · slices_S2097152x2_S2097152x1_0_0) : (⟨S2097152x2, .f32⟩ : BufTy).Contents (Elt F) → (⟨S2097152x1, .f32⟩ : BufTy).Contents (Elt F)),
    reshape main_v14 main_v15 rfl shapeCasts_S2097152x1_S2097152,
    nullary main_cst_4 (constant S_ .f32 0x3F000000#32),
    unary main_cst_4 main_v16 (broadcastInDim S2097152 ![] bcast_S_S2097152 : (⟨S_, .f32⟩ : BufTy).Contents (Elt F) → (⟨S2097152, .f32⟩ : BufTy).Contents (Elt F)),
    binary main_v15 main_v16 main_v17 (mulf : (⟨S2097152, .f32⟩ : BufTy).Contents (Elt F) → (⟨S2097152, .f32⟩ : BufTy).Contents (Elt F) → (⟨S2097152, .f32⟩ : BufTy).Contents (Elt F)),
    unary main_v17 main_v18 (Host.cos : (⟨S2097152, .f32⟩ : BufTy).Contents (Elt F) → (⟨S2097152, .f32⟩ : BufTy).Contents (Elt F)),
    unary main_v18 main_v19 (broadcastInDim S2097152x1 ![0] bcast_S2097152_S2097152x1_0 : (⟨S2097152, .f32⟩ : BufTy).Contents (Elt F) → (⟨S2097152x1, .f32⟩ : BufTy).Contents (Elt F)),
    nullary main_cst_5 (constant S_ .f32 0x3F000000#32),
    unary main_cst_5 main_v20 (broadcastInDim S2097152 ![] bcast_S_S2097152 : (⟨S_, .f32⟩ : BufTy).Contents (Elt F) → (⟨S2097152, .f32⟩ : BufTy).Contents (Elt F)),
    binary main_v15 main_v20 main_v21 (mulf : (⟨S2097152, .f32⟩ : BufTy).Contents (Elt F) → (⟨S2097152, .f32⟩ : BufTy).Contents (Elt F) → (⟨S2097152, .f32⟩ : BufTy).Contents (Elt F)),
    unary main_v21 main_v22 (Host.sin : (⟨S2097152, .f32⟩ : BufTy).Contents (Elt F) → (⟨S2097152, .f32⟩ : BufTy).Contents (Elt F)),
    unary main_v22 main_v23 (broadcastInDim S2097152x1 ![0] bcast_S2097152_S2097152x1_0 : (⟨S2097152, .f32⟩ : BufTy).Contents (Elt F) → (⟨S2097152x1, .f32⟩ : BufTy).Contents (Elt F)),
    unary main_v13 main_v24 ((extractStridedSlice S2097152x1x2 ![0, 0, 0] · slices_S2097152x2x2_S2097152x1x2_0_0_0) : (⟨S2097152x2x2, .f32⟩ : BufTy).Contents (Elt F) → (⟨S2097152x1x2, .f32⟩ : BufTy).Contents (Elt F)),
    reshape main_v24 main_v25 rfl shapeCasts_S2097152x1x2_S2097152x2,
    unary main_v13 main_v26 ((extractStridedSlice S2097152x1x2 ![0, 1, 0] · slices_S2097152x2x2_S2097152x1x2_0_1_0) : (⟨S2097152x2x2, .f32⟩ : BufTy).Contents (Elt F) → (⟨S2097152x1x2, .f32⟩ : BufTy).Contents (Elt F)),
    reshape main_v26 main_v27 rfl shapeCasts_S2097152x1x2_S2097152x2,
    unary main_v19 main_v28 (broadcastInDim S2097152x2 ![0, 1] bcast_S2097152x1_S2097152x2_0_1 : (⟨S2097152x1, .f32⟩ : BufTy).Contents (Elt F) → (⟨S2097152x2, .f32⟩ : BufTy).Contents (Elt F)),
    binary main_v28 main_v25 main_v29 (mulf : (⟨S2097152x2, .f32⟩ : BufTy).Contents (Elt F) → (⟨S2097152x2, .f32⟩ : BufTy).Contents (Elt F) → (⟨S2097152x2, .f32⟩ : BufTy).Contents (Elt F)),
    unary main_v23 main_v30 (broadcastInDim S2097152x2 ![0, 1] bcast_S2097152x1_S2097152x2_0_1 : (⟨S2097152x1, .f32⟩ : BufTy).Contents (Elt F) → (⟨S2097152x2, .f32⟩ : BufTy).Contents (Elt F)),
    binary main_v30 main_v27 main_v31 (mulf : (⟨S2097152x2, .f32⟩ : BufTy).Contents (Elt F) → (⟨S2097152x2, .f32⟩ : BufTy).Contents (Elt F) → (⟨S2097152x2, .f32⟩ : BufTy).Contents (Elt F)),
    binary main_v29 main_v31 main_v32 (subf : (⟨S2097152x2, .f32⟩ : BufTy).Contents (Elt F) → (⟨S2097152x2, .f32⟩ : BufTy).Contents (Elt F) → (⟨S2097152x2, .f32⟩ : BufTy).Contents (Elt F)),
    unary main_v23 main_v33 (broadcastInDim S2097152x2 ![0, 1] bcast_S2097152x1_S2097152x2_0_1 : (⟨S2097152x1, .f32⟩ : BufTy).Contents (Elt F) → (⟨S2097152x2, .f32⟩ : BufTy).Contents (Elt F)),
    binary main_v33 main_v25 main_v34 (mulf : (⟨S2097152x2, .f32⟩ : BufTy).Contents (Elt F) → (⟨S2097152x2, .f32⟩ : BufTy).Contents (Elt F) → (⟨S2097152x2, .f32⟩ : BufTy).Contents (Elt F)),
    unary main_v19 main_v35 (broadcastInDim S2097152x2 ![0, 1] bcast_S2097152x1_S2097152x2_0_1 : (⟨S2097152x1, .f32⟩ : BufTy).Contents (Elt F) → (⟨S2097152x2, .f32⟩ : BufTy).Contents (Elt F)),
    binary main_v35 main_v27 main_v36 (mulf : (⟨S2097152x2, .f32⟩ : BufTy).Contents (Elt F) → (⟨S2097152x2, .f32⟩ : BufTy).Contents (Elt F) → (⟨S2097152x2, .f32⟩ : BufTy).Contents (Elt F)),
    binary main_v34 main_v36 main_v37 (addf : (⟨S2097152x2, .f32⟩ : BufTy).Contents (Elt F) → (⟨S2097152x2, .f32⟩ : BufTy).Contents (Elt F) → (⟨S2097152x2, .f32⟩ : BufTy).Contents (Elt F)),
    unary main_v32 main_v38 (broadcastInDim S2097152x1x2 ![0, 2] bcast_S2097152x2_S2097152x1x2_0_2 : (⟨S2097152x2, .f32⟩ : BufTy).Contents (Elt F) → (⟨S2097152x1x2, .f32⟩ : BufTy).Contents (Elt F)),
    unary main_v37 main_v39 (broadcastInDim S2097152x1x2 ![0, 2] bcast_S2097152x2_S2097152x1x2_0_2 : (⟨S2097152x2, .f32⟩ : BufTy).Contents (Elt F) → (⟨S2097152x1x2, .f32⟩ : BufTy).Contents (Elt F)),
    binary main_v38 main_v39 main_v40 ((fun a b => concatenate S2097152x2x2 1 [⟨S2097152x1x2, a⟩, ⟨S2097152x1x2, b⟩] concatenates_S2097152x1x2_S2097152x1x2_S2097152x2x2_d1) : (⟨S2097152x1x2, .f32⟩ : BufTy).Contents (Elt F) → (⟨S2097152x1x2, .f32⟩ : BufTy).Contents (Elt F) → (⟨S2097152x2x2, .f32⟩ : BufTy).Contents (Elt F)),
    unary main_arg0 main_v41 ((extractStridedSlice S2097152x1 ![0, 1] · slices_S2097152x2_S2097152x1_0_1) : (⟨S2097152x2, .f32⟩ : BufTy).Contents (Elt F) → (⟨S2097152x1, .f32⟩ : BufTy).Contents (Elt F)),
    reshape main_v41 main_v42 rfl shapeCasts_S2097152x1_S2097152,
    nullary main_cst_6 (constant S_ .f32 0x3F000000#32),
    unary main_cst_6 main_v43 (broadcastInDim S2097152 ![] bcast_S_S2097152 : (⟨S_, .f32⟩ : BufTy).Contents (Elt F) → (⟨S2097152, .f32⟩ : BufTy).Contents (Elt F)),
    binary main_v42 main_v43 main_v44 (mulf : (⟨S2097152, .f32⟩ : BufTy).Contents (Elt F) → (⟨S2097152, .f32⟩ : BufTy).Contents (Elt F) → (⟨S2097152, .f32⟩ : BufTy).Contents (Elt F)),
    unary main_v44 main_v45 (Host.cos : (⟨S2097152, .f32⟩ : BufTy).Contents (Elt F) → (⟨S2097152, .f32⟩ : BufTy).Contents (Elt F)),
    unary main_v45 main_v46 (broadcastInDim S2097152x1 ![0] bcast_S2097152_S2097152x1_0 : (⟨S2097152, .f32⟩ : BufTy).Contents (Elt F) → (⟨S2097152x1, .f32⟩ : BufTy).Contents (Elt F)),
    nullary main_cst_7 (constant S_ .f32 0x3F000000#32),
    unary main_cst_7 main_v47 (broadcastInDim S2097152 ![] bcast_S_S2097152 : (⟨S_, .f32⟩ : BufTy).Contents (Elt F) → (⟨S2097152, .f32⟩ : BufTy).Contents (Elt F)),
    binary main_v42 main_v47 main_v48 (mulf : (⟨S2097152, .f32⟩ : BufTy).Contents (Elt F) → (⟨S2097152, .f32⟩ : BufTy).Contents (Elt F) → (⟨S2097152, .f32⟩ : BufTy).Contents (Elt F)),
    unary main_v48 main_v49 (Host.sin : (⟨S2097152, .f32⟩ : BufTy).Contents (Elt F) → (⟨S2097152, .f32⟩ : BufTy).Contents (Elt F)) ]

/-- The printed part 1 of @main: its 60 operations. -/
abbrev p1 : List (HloOp τ sig (Elt F)) :=
  [ unary main_v49 main_v50 (broadcastInDim S2097152x1 ![0] bcast_S2097152_S2097152x1_0 : (⟨S2097152, .f32⟩ : BufTy).Contents (Elt F) → (⟨S2097152x1, .f32⟩ : BufTy).Contents (Elt F)),
    unary main_v40 main_v51 ((extractStridedSlice S2097152x2x1 ![0, 0, 0] · slices_S2097152x2x2_S2097152x2x1_0_0_0) : (⟨S2097152x2x2, .f32⟩ : BufTy).Contents (Elt F) → (⟨S2097152x2x1, .f32⟩ : BufTy).Contents (Elt F)),
    reshape main_v51 main_v52 rfl shapeCasts_S2097152x2x1_S2097152x2,
    unary main_v40 main_v53 ((extractStridedSlice S2097152x2x1 ![0, 0, 1] · slices_S2097152x2x2_S2097152x2x1_0_0_1) : (⟨S2097152x2x2, .f32⟩ : BufTy).Contents (Elt F) → (⟨S2097152x2x1, .f32⟩ : BufTy).Contents (Elt F)),
    reshape main_v53 main_v54 rfl shapeCasts_S2097152x2x1_S2097152x2,
    unary main_v46 main_v55 (broadcastInDim S2097152x2 ![0, 1] bcast_S2097152x1_S2097152x2_0_1 : (⟨S2097152x1, .f32⟩ : BufTy).Contents (Elt F) → (⟨S2097152x2, .f32⟩ : BufTy).Contents (Elt F)),
    binary main_v55 main_v52 main_v56 (mulf : (⟨S2097152x2, .f32⟩ : BufTy).Contents (Elt F) → (⟨S2097152x2, .f32⟩ : BufTy).Contents (Elt F) → (⟨S2097152x2, .f32⟩ : BufTy).Contents (Elt F)),
    unary main_v50 main_v57 (broadcastInDim S2097152x2 ![0, 1] bcast_S2097152x1_S2097152x2_0_1 : (⟨S2097152x1, .f32⟩ : BufTy).Contents (Elt F) → (⟨S2097152x2, .f32⟩ : BufTy).Contents (Elt F)),
    binary main_v57 main_v54 main_v58 (mulf : (⟨S2097152x2, .f32⟩ : BufTy).Contents (Elt F) → (⟨S2097152x2, .f32⟩ : BufTy).Contents (Elt F) → (⟨S2097152x2, .f32⟩ : BufTy).Contents (Elt F)),
    binary main_v56 main_v58 main_v59 (subf : (⟨S2097152x2, .f32⟩ : BufTy).Contents (Elt F) → (⟨S2097152x2, .f32⟩ : BufTy).Contents (Elt F) → (⟨S2097152x2, .f32⟩ : BufTy).Contents (Elt F)),
    unary main_v50 main_v60 (broadcastInDim S2097152x2 ![0, 1] bcast_S2097152x1_S2097152x2_0_1 : (⟨S2097152x1, .f32⟩ : BufTy).Contents (Elt F) → (⟨S2097152x2, .f32⟩ : BufTy).Contents (Elt F)),
    binary main_v60 main_v52 main_v61 (mulf : (⟨S2097152x2, .f32⟩ : BufTy).Contents (Elt F) → (⟨S2097152x2, .f32⟩ : BufTy).Contents (Elt F) → (⟨S2097152x2, .f32⟩ : BufTy).Contents (Elt F)),
    unary main_v46 main_v62 (broadcastInDim S2097152x2 ![0, 1] bcast_S2097152x1_S2097152x2_0_1 : (⟨S2097152x1, .f32⟩ : BufTy).Contents (Elt F) → (⟨S2097152x2, .f32⟩ : BufTy).Contents (Elt F)),
    binary main_v62 main_v54 main_v63 (mulf : (⟨S2097152x2, .f32⟩ : BufTy).Contents (Elt F) → (⟨S2097152x2, .f32⟩ : BufTy).Contents (Elt F) → (⟨S2097152x2, .f32⟩ : BufTy).Contents (Elt F)),
    binary main_v61 main_v63 main_v64 (addf : (⟨S2097152x2, .f32⟩ : BufTy).Contents (Elt F) → (⟨S2097152x2, .f32⟩ : BufTy).Contents (Elt F) → (⟨S2097152x2, .f32⟩ : BufTy).Contents (Elt F)),
    unary main_v59 main_v65 (broadcastInDim S2097152x2x1 ![0, 1] bcast_S2097152x2_S2097152x2x1_0_1 : (⟨S2097152x2, .f32⟩ : BufTy).Contents (Elt F) → (⟨S2097152x2x1, .f32⟩ : BufTy).Contents (Elt F)),
    unary main_v64 main_v66 (broadcastInDim S2097152x2x1 ![0, 1] bcast_S2097152x2_S2097152x2x1_0_1 : (⟨S2097152x2, .f32⟩ : BufTy).Contents (Elt F) → (⟨S2097152x2x1, .f32⟩ : BufTy).Contents (Elt F)),
    binary main_v65 main_v66 main_v67 ((fun a b => concatenate S2097152x2x2 2 [⟨S2097152x2x1, a⟩, ⟨S2097152x2x1, b⟩] concatenates_S2097152x2x1_S2097152x2x1_S2097152x2x2_d2) : (⟨S2097152x2x1, .f32⟩ : BufTy).Contents (Elt F) → (⟨S2097152x2x1, .f32⟩ : BufTy).Contents (Elt F) → (⟨S2097152x2x2, .f32⟩ : BufTy).Contents (Elt F)),
    reshape main_v67 main_v68 rfl shapeCasts_S2097152x2x2_S2097152x4,
    nullary main_c_8 (constantI S_ 32 4#32),
    unary main_c_8 main_v69 (broadcastInDim S4 ![] bcast_S_S4 : (⟨S_, .i32⟩ : BufTy).Contents (Elt F) → (⟨S4, .i32⟩ : BufTy).Contents (Elt F)),
    binary main_c main_v69 main_v70 (addi : (⟨S4, .i32⟩ : BufTy).Contents (Elt F) → (⟨S4, .i32⟩ : BufTy).Contents (Elt F) → (⟨S4, .i32⟩ : BufTy).Contents (Elt F)),
    ternary main_c_0 main_v70 main_c main_v71 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v71 main_v72 (broadcastInDim S4x1 ![0] bcast_S4_S4x1_0 : (⟨S4, .i32⟩ : BufTy).Contents (Elt F) → (⟨S4x1, .i32⟩ : BufTy).Contents (Elt F)),
    binary main_v68 main_v72 main_v73 ((fun x i => Host.gather gather_S2097152x4_S4x1_S2097152x4_0_1_n_n_1_1_20971521 x i) : (⟨S2097152x4, .f32⟩ : BufTy).Contents (Elt F) → (⟨S4x1, .i32⟩ : BufTy).Contents (Elt F) → (⟨S2097152x4, .f32⟩ : BufTy).Contents (Elt F)),
    reshape main_v73 main_v74 rfl shapeCasts_S2097152x4_S2097152x2x2,
    unary main_v8 main_v75 ((extractStridedSlice S2097152x1 ![0, 0] · slices_S2097152x4_S2097152x1_0_0) : (⟨S2097152x4, .f32⟩ : BufTy).Contents (Elt F) → (⟨S2097152x1, .f32⟩ : BufTy).Contents (Elt F)),
    reshape main_v75 main_v76 rfl shapeCasts_S2097152x1_S2097152,
    nullary main_cst_9 (constant S_ .f32 0x3F000000#32),
    unary main_cst_9 main_v77 (broadcastInDim S2097152 ![] bcast_S_S2097152 : (⟨S_, .f32⟩ : BufTy).Contents (Elt F) → (⟨S2097152, .f32⟩ : BufTy).Contents (Elt F)),
    binary main_v76 main_v77 main_v78 (mulf : (⟨S2097152, .f32⟩ : BufTy).Contents (Elt F) → (⟨S2097152, .f32⟩ : BufTy).Contents (Elt F) → (⟨S2097152, .f32⟩ : BufTy).Contents (Elt F)),
    unary main_v78 main_v79 (Host.cos : (⟨S2097152, .f32⟩ : BufTy).Contents (Elt F) → (⟨S2097152, .f32⟩ : BufTy).Contents (Elt F)),
    unary main_v79 main_v80 (broadcastInDim S2097152x1 ![0] bcast_S2097152_S2097152x1_0 : (⟨S2097152, .f32⟩ : BufTy).Contents (Elt F) → (⟨S2097152x1, .f32⟩ : BufTy).Contents (Elt F)),
    nullary main_cst_10 (constant S_ .f32 0x3F000000#32),
    unary main_cst_10 main_v81 (broadcastInDim S2097152 ![] bcast_S_S2097152 : (⟨S_, .f32⟩ : BufTy).Contents (Elt F) → (⟨S2097152, .f32⟩ : BufTy).Contents (Elt F)),
    binary main_v76 main_v81 main_v82 (mulf : (⟨S2097152, .f32⟩ : BufTy).Contents (Elt F) → (⟨S2097152, .f32⟩ : BufTy).Contents (Elt F) → (⟨S2097152, .f32⟩ : BufTy).Contents (Elt F)),
    unary main_v82 main_v83 (Host.sin : (⟨S2097152, .f32⟩ : BufTy).Contents (Elt F) → (⟨S2097152, .f32⟩ : BufTy).Contents (Elt F)),
    unary main_v83 main_v84 (broadcastInDim S2097152x1 ![0] bcast_S2097152_S2097152x1_0 : (⟨S2097152, .f32⟩ : BufTy).Contents (Elt F) → (⟨S2097152x1, .f32⟩ : BufTy).Contents (Elt F)),
    unary main_v74 main_v85 ((extractStridedSlice S2097152x1x2 ![0, 0, 0] · slices_S2097152x2x2_S2097152x1x2_0_0_0) : (⟨S2097152x2x2, .f32⟩ : BufTy).Contents (Elt F) → (⟨S2097152x1x2, .f32⟩ : BufTy).Contents (Elt F)),
    reshape main_v85 main_v86 rfl shapeCasts_S2097152x1x2_S2097152x2,
    unary main_v74 main_v87 ((extractStridedSlice S2097152x1x2 ![0, 1, 0] · slices_S2097152x2x2_S2097152x1x2_0_1_0) : (⟨S2097152x2x2, .f32⟩ : BufTy).Contents (Elt F) → (⟨S2097152x1x2, .f32⟩ : BufTy).Contents (Elt F)),
    reshape main_v87 main_v88 rfl shapeCasts_S2097152x1x2_S2097152x2,
    unary main_v80 main_v89 (broadcastInDim S2097152x2 ![0, 1] bcast_S2097152x1_S2097152x2_0_1 : (⟨S2097152x1, .f32⟩ : BufTy).Contents (Elt F) → (⟨S2097152x2, .f32⟩ : BufTy).Contents (Elt F)),
    binary main_v89 main_v86 main_v90 (mulf : (⟨S2097152x2, .f32⟩ : BufTy).Contents (Elt F) → (⟨S2097152x2, .f32⟩ : BufTy).Contents (Elt F) → (⟨S2097152x2, .f32⟩ : BufTy).Contents (Elt F)),
    unary main_v84 main_v91 (broadcastInDim S2097152x2 ![0, 1] bcast_S2097152x1_S2097152x2_0_1 : (⟨S2097152x1, .f32⟩ : BufTy).Contents (Elt F) → (⟨S2097152x2, .f32⟩ : BufTy).Contents (Elt F)),
    binary main_v91 main_v88 main_v92 (mulf : (⟨S2097152x2, .f32⟩ : BufTy).Contents (Elt F) → (⟨S2097152x2, .f32⟩ : BufTy).Contents (Elt F) → (⟨S2097152x2, .f32⟩ : BufTy).Contents (Elt F)),
    binary main_v90 main_v92 main_v93 (subf : (⟨S2097152x2, .f32⟩ : BufTy).Contents (Elt F) → (⟨S2097152x2, .f32⟩ : BufTy).Contents (Elt F) → (⟨S2097152x2, .f32⟩ : BufTy).Contents (Elt F)),
    unary main_v84 main_v94 (broadcastInDim S2097152x2 ![0, 1] bcast_S2097152x1_S2097152x2_0_1 : (⟨S2097152x1, .f32⟩ : BufTy).Contents (Elt F) → (⟨S2097152x2, .f32⟩ : BufTy).Contents (Elt F)),
    binary main_v94 main_v86 main_v95 (mulf : (⟨S2097152x2, .f32⟩ : BufTy).Contents (Elt F) → (⟨S2097152x2, .f32⟩ : BufTy).Contents (Elt F) → (⟨S2097152x2, .f32⟩ : BufTy).Contents (Elt F)),
    unary main_v80 main_v96 (broadcastInDim S2097152x2 ![0, 1] bcast_S2097152x1_S2097152x2_0_1 : (⟨S2097152x1, .f32⟩ : BufTy).Contents (Elt F) → (⟨S2097152x2, .f32⟩ : BufTy).Contents (Elt F)),
    binary main_v96 main_v88 main_v97 (mulf : (⟨S2097152x2, .f32⟩ : BufTy).Contents (Elt F) → (⟨S2097152x2, .f32⟩ : BufTy).Contents (Elt F) → (⟨S2097152x2, .f32⟩ : BufTy).Contents (Elt F)),
    binary main_v95 main_v97 main_v98 (addf : (⟨S2097152x2, .f32⟩ : BufTy).Contents (Elt F) → (⟨S2097152x2, .f32⟩ : BufTy).Contents (Elt F) → (⟨S2097152x2, .f32⟩ : BufTy).Contents (Elt F)),
    unary main_v93 main_v99 (broadcastInDim S2097152x1x2 ![0, 2] bcast_S2097152x2_S2097152x1x2_0_2 : (⟨S2097152x2, .f32⟩ : BufTy).Contents (Elt F) → (⟨S2097152x1x2, .f32⟩ : BufTy).Contents (Elt F)),
    unary main_v98 main_v100 (broadcastInDim S2097152x1x2 ![0, 2] bcast_S2097152x2_S2097152x1x2_0_2 : (⟨S2097152x2, .f32⟩ : BufTy).Contents (Elt F) → (⟨S2097152x1x2, .f32⟩ : BufTy).Contents (Elt F)),
    binary main_v99 main_v100 main_v101 ((fun a b => concatenate S2097152x2x2 1 [⟨S2097152x1x2, a⟩, ⟨S2097152x1x2, b⟩] concatenates_S2097152x1x2_S2097152x1x2_S2097152x2x2_d1) : (⟨S2097152x1x2, .f32⟩ : BufTy).Contents (Elt F) → (⟨S2097152x1x2, .f32⟩ : BufTy).Contents (Elt F) → (⟨S2097152x2x2, .f32⟩ : BufTy).Contents (Elt F)),
    unary main_v8 main_v102 ((extractStridedSlice S2097152x1 ![0, 1] · slices_S2097152x4_S2097152x1_0_1) : (⟨S2097152x4, .f32⟩ : BufTy).Contents (Elt F) → (⟨S2097152x1, .f32⟩ : BufTy).Contents (Elt F)),
    reshape main_v102 main_v103 rfl shapeCasts_S2097152x1_S2097152,
    nullary main_cst_11 (constant S_ .f32 0x3F000000#32),
    unary main_cst_11 main_v104 (broadcastInDim S2097152 ![] bcast_S_S2097152 : (⟨S_, .f32⟩ : BufTy).Contents (Elt F) → (⟨S2097152, .f32⟩ : BufTy).Contents (Elt F)),
    binary main_v103 main_v104 main_v105 (mulf : (⟨S2097152, .f32⟩ : BufTy).Contents (Elt F) → (⟨S2097152, .f32⟩ : BufTy).Contents (Elt F) → (⟨S2097152, .f32⟩ : BufTy).Contents (Elt F)) ]

/-- The printed part 2 of @main: its 60 operations. -/
abbrev p2 : List (HloOp τ sig (Elt F)) :=
  [ unary main_v105 main_v106 (Host.cos : (⟨S2097152, .f32⟩ : BufTy).Contents (Elt F) → (⟨S2097152, .f32⟩ : BufTy).Contents (Elt F)),
    unary main_v106 main_v107 (broadcastInDim S2097152x1 ![0] bcast_S2097152_S2097152x1_0 : (⟨S2097152, .f32⟩ : BufTy).Contents (Elt F) → (⟨S2097152x1, .f32⟩ : BufTy).Contents (Elt F)),
    nullary main_cst_12 (constant S_ .f32 0x3F000000#32),
    unary main_cst_12 main_v108 (broadcastInDim S2097152 ![] bcast_S_S2097152 : (⟨S_, .f32⟩ : BufTy).Contents (Elt F) → (⟨S2097152, .f32⟩ : BufTy).Contents (Elt F)),
    binary main_v103 main_v108 main_v109 (mulf : (⟨S2097152, .f32⟩ : BufTy).Contents (Elt F) → (⟨S2097152, .f32⟩ : BufTy).Contents (Elt F) → (⟨S2097152, .f32⟩ : BufTy).Contents (Elt F)),
    unary main_v109 main_v110 (Host.sin : (⟨S2097152, .f32⟩ : BufTy).Contents (Elt F) → (⟨S2097152, .f32⟩ : BufTy).Contents (Elt F)),
    unary main_v110 main_v111 (broadcastInDim S2097152x1 ![0] bcast_S2097152_S2097152x1_0 : (⟨S2097152, .f32⟩ : BufTy).Contents (Elt F) → (⟨S2097152x1, .f32⟩ : BufTy).Contents (Elt F)),
    unary main_v101 main_v112 ((extractStridedSlice S2097152x2x1 ![0, 0, 0] · slices_S2097152x2x2_S2097152x2x1_0_0_0) : (⟨S2097152x2x2, .f32⟩ : BufTy).Contents (Elt F) → (⟨S2097152x2x1, .f32⟩ : BufTy).Contents (Elt F)),
    reshape main_v112 main_v113 rfl shapeCasts_S2097152x2x1_S2097152x2,
    unary main_v101 main_v114 ((extractStridedSlice S2097152x2x1 ![0, 0, 1] · slices_S2097152x2x2_S2097152x2x1_0_0_1) : (⟨S2097152x2x2, .f32⟩ : BufTy).Contents (Elt F) → (⟨S2097152x2x1, .f32⟩ : BufTy).Contents (Elt F)),
    reshape main_v114 main_v115 rfl shapeCasts_S2097152x2x1_S2097152x2,
    unary main_v107 main_v116 (broadcastInDim S2097152x2 ![0, 1] bcast_S2097152x1_S2097152x2_0_1 : (⟨S2097152x1, .f32⟩ : BufTy).Contents (Elt F) → (⟨S2097152x2, .f32⟩ : BufTy).Contents (Elt F)),
    binary main_v116 main_v113 main_v117 (mulf : (⟨S2097152x2, .f32⟩ : BufTy).Contents (Elt F) → (⟨S2097152x2, .f32⟩ : BufTy).Contents (Elt F) → (⟨S2097152x2, .f32⟩ : BufTy).Contents (Elt F)),
    unary main_v111 main_v118 (broadcastInDim S2097152x2 ![0, 1] bcast_S2097152x1_S2097152x2_0_1 : (⟨S2097152x1, .f32⟩ : BufTy).Contents (Elt F) → (⟨S2097152x2, .f32⟩ : BufTy).Contents (Elt F)),
    binary main_v118 main_v115 main_v119 (mulf : (⟨S2097152x2, .f32⟩ : BufTy).Contents (Elt F) → (⟨S2097152x2, .f32⟩ : BufTy).Contents (Elt F) → (⟨S2097152x2, .f32⟩ : BufTy).Contents (Elt F)),
    binary main_v117 main_v119 main_v120 (subf : (⟨S2097152x2, .f32⟩ : BufTy).Contents (Elt F) → (⟨S2097152x2, .f32⟩ : BufTy).Contents (Elt F) → (⟨S2097152x2, .f32⟩ : BufTy).Contents (Elt F)),
    unary main_v111 main_v121 (broadcastInDim S2097152x2 ![0, 1] bcast_S2097152x1_S2097152x2_0_1 : (⟨S2097152x1, .f32⟩ : BufTy).Contents (Elt F) → (⟨S2097152x2, .f32⟩ : BufTy).Contents (Elt F)),
    binary main_v121 main_v113 main_v122 (mulf : (⟨S2097152x2, .f32⟩ : BufTy).Contents (Elt F) → (⟨S2097152x2, .f32⟩ : BufTy).Contents (Elt F) → (⟨S2097152x2, .f32⟩ : BufTy).Contents (Elt F)),
    unary main_v107 main_v123 (broadcastInDim S2097152x2 ![0, 1] bcast_S2097152x1_S2097152x2_0_1 : (⟨S2097152x1, .f32⟩ : BufTy).Contents (Elt F) → (⟨S2097152x2, .f32⟩ : BufTy).Contents (Elt F)),
    binary main_v123 main_v115 main_v124 (mulf : (⟨S2097152x2, .f32⟩ : BufTy).Contents (Elt F) → (⟨S2097152x2, .f32⟩ : BufTy).Contents (Elt F) → (⟨S2097152x2, .f32⟩ : BufTy).Contents (Elt F)),
    binary main_v122 main_v124 main_v125 (addf : (⟨S2097152x2, .f32⟩ : BufTy).Contents (Elt F) → (⟨S2097152x2, .f32⟩ : BufTy).Contents (Elt F) → (⟨S2097152x2, .f32⟩ : BufTy).Contents (Elt F)),
    unary main_v120 main_v126 (broadcastInDim S2097152x2x1 ![0, 1] bcast_S2097152x2_S2097152x2x1_0_1 : (⟨S2097152x2, .f32⟩ : BufTy).Contents (Elt F) → (⟨S2097152x2x1, .f32⟩ : BufTy).Contents (Elt F)),
    unary main_v125 main_v127 (broadcastInDim S2097152x2x1 ![0, 1] bcast_S2097152x2_S2097152x2x1_0_1 : (⟨S2097152x2, .f32⟩ : BufTy).Contents (Elt F) → (⟨S2097152x2x1, .f32⟩ : BufTy).Contents (Elt F)),
    binary main_v126 main_v127 main_v128 ((fun a b => concatenate S2097152x2x2 2 [⟨S2097152x2x1, a⟩, ⟨S2097152x2x1, b⟩] concatenates_S2097152x2x1_S2097152x2x1_S2097152x2x2_d2) : (⟨S2097152x2x1, .f32⟩ : BufTy).Contents (Elt F) → (⟨S2097152x2x1, .f32⟩ : BufTy).Contents (Elt F) → (⟨S2097152x2x2, .f32⟩ : BufTy).Contents (Elt F)),
    reshape main_v128 main_v129 rfl shapeCasts_S2097152x2x2_S2097152x4,
    nullary main_c_13 (constantI S_ 32 4#32),
    unary main_c_13 main_v130 (broadcastInDim S4 ![] bcast_S_S4 : (⟨S_, .i32⟩ : BufTy).Contents (Elt F) → (⟨S4, .i32⟩ : BufTy).Contents (Elt F)),
    binary main_c main_v130 main_v131 (addi : (⟨S4, .i32⟩ : BufTy).Contents (Elt F) → (⟨S4, .i32⟩ : BufTy).Contents (Elt F) → (⟨S4, .i32⟩ : BufTy).Contents (Elt F)),
    ternary main_c_1 main_v131 main_c main_v132 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v132 main_v133 (broadcastInDim S4x1 ![0] bcast_S4_S4x1_0 : (⟨S4, .i32⟩ : BufTy).Contents (Elt F) → (⟨S4x1, .i32⟩ : BufTy).Contents (Elt F)),
    binary main_v129 main_v133 main_v134 ((fun x i => Host.gather gather_S2097152x4_S4x1_S2097152x4_0_1_n_n_1_1_20971521 x i) : (⟨S2097152x4, .f32⟩ : BufTy).Contents (Elt F) → (⟨S4x1, .i32⟩ : BufTy).Contents (Elt F) → (⟨S2097152x4, .f32⟩ : BufTy).Contents (Elt F)),
    reshape main_v134 main_v135 rfl shapeCasts_S2097152x4_S2097152x2x2,
    unary main_v8 main_v136 ((extractStridedSlice S2097152x1 ![0, 2] · slices_S2097152x4_S2097152x1_0_2) : (⟨S2097152x4, .f32⟩ : BufTy).Contents (Elt F) → (⟨S2097152x1, .f32⟩ : BufTy).Contents (Elt F)),
    reshape main_v136 main_v137 rfl shapeCasts_S2097152x1_S2097152,
    nullary main_cst_14 (constant S_ .f32 0x3F000000#32),
    unary main_cst_14 main_v138 (broadcastInDim S2097152 ![] bcast_S_S2097152 : (⟨S_, .f32⟩ : BufTy).Contents (Elt F) → (⟨S2097152, .f32⟩ : BufTy).Contents (Elt F)),
    binary main_v137 main_v138 main_v139 (mulf : (⟨S2097152, .f32⟩ : BufTy).Contents (Elt F) → (⟨S2097152, .f32⟩ : BufTy).Contents (Elt F) → (⟨S2097152, .f32⟩ : BufTy).Contents (Elt F)),
    unary main_v139 main_v140 (Host.cos : (⟨S2097152, .f32⟩ : BufTy).Contents (Elt F) → (⟨S2097152, .f32⟩ : BufTy).Contents (Elt F)),
    unary main_v140 main_v141 (broadcastInDim S2097152x1 ![0] bcast_S2097152_S2097152x1_0 : (⟨S2097152, .f32⟩ : BufTy).Contents (Elt F) → (⟨S2097152x1, .f32⟩ : BufTy).Contents (Elt F)),
    nullary main_cst_15 (constant S_ .f32 0x3F000000#32),
    unary main_cst_15 main_v142 (broadcastInDim S2097152 ![] bcast_S_S2097152 : (⟨S_, .f32⟩ : BufTy).Contents (Elt F) → (⟨S2097152, .f32⟩ : BufTy).Contents (Elt F)),
    binary main_v137 main_v142 main_v143 (mulf : (⟨S2097152, .f32⟩ : BufTy).Contents (Elt F) → (⟨S2097152, .f32⟩ : BufTy).Contents (Elt F) → (⟨S2097152, .f32⟩ : BufTy).Contents (Elt F)),
    unary main_v143 main_v144 (Host.sin : (⟨S2097152, .f32⟩ : BufTy).Contents (Elt F) → (⟨S2097152, .f32⟩ : BufTy).Contents (Elt F)),
    unary main_v144 main_v145 (broadcastInDim S2097152x1 ![0] bcast_S2097152_S2097152x1_0 : (⟨S2097152, .f32⟩ : BufTy).Contents (Elt F) → (⟨S2097152x1, .f32⟩ : BufTy).Contents (Elt F)),
    unary main_v135 main_v146 ((extractStridedSlice S2097152x1x2 ![0, 0, 0] · slices_S2097152x2x2_S2097152x1x2_0_0_0) : (⟨S2097152x2x2, .f32⟩ : BufTy).Contents (Elt F) → (⟨S2097152x1x2, .f32⟩ : BufTy).Contents (Elt F)),
    reshape main_v146 main_v147 rfl shapeCasts_S2097152x1x2_S2097152x2,
    unary main_v135 main_v148 ((extractStridedSlice S2097152x1x2 ![0, 1, 0] · slices_S2097152x2x2_S2097152x1x2_0_1_0) : (⟨S2097152x2x2, .f32⟩ : BufTy).Contents (Elt F) → (⟨S2097152x1x2, .f32⟩ : BufTy).Contents (Elt F)),
    reshape main_v148 main_v149 rfl shapeCasts_S2097152x1x2_S2097152x2,
    unary main_v141 main_v150 (broadcastInDim S2097152x2 ![0, 1] bcast_S2097152x1_S2097152x2_0_1 : (⟨S2097152x1, .f32⟩ : BufTy).Contents (Elt F) → (⟨S2097152x2, .f32⟩ : BufTy).Contents (Elt F)),
    binary main_v150 main_v147 main_v151 (mulf : (⟨S2097152x2, .f32⟩ : BufTy).Contents (Elt F) → (⟨S2097152x2, .f32⟩ : BufTy).Contents (Elt F) → (⟨S2097152x2, .f32⟩ : BufTy).Contents (Elt F)),
    unary main_v145 main_v152 (broadcastInDim S2097152x2 ![0, 1] bcast_S2097152x1_S2097152x2_0_1 : (⟨S2097152x1, .f32⟩ : BufTy).Contents (Elt F) → (⟨S2097152x2, .f32⟩ : BufTy).Contents (Elt F)),
    binary main_v152 main_v149 main_v153 (mulf : (⟨S2097152x2, .f32⟩ : BufTy).Contents (Elt F) → (⟨S2097152x2, .f32⟩ : BufTy).Contents (Elt F) → (⟨S2097152x2, .f32⟩ : BufTy).Contents (Elt F)),
    binary main_v151 main_v153 main_v154 (subf : (⟨S2097152x2, .f32⟩ : BufTy).Contents (Elt F) → (⟨S2097152x2, .f32⟩ : BufTy).Contents (Elt F) → (⟨S2097152x2, .f32⟩ : BufTy).Contents (Elt F)),
    unary main_v145 main_v155 (broadcastInDim S2097152x2 ![0, 1] bcast_S2097152x1_S2097152x2_0_1 : (⟨S2097152x1, .f32⟩ : BufTy).Contents (Elt F) → (⟨S2097152x2, .f32⟩ : BufTy).Contents (Elt F)),
    binary main_v155 main_v147 main_v156 (mulf : (⟨S2097152x2, .f32⟩ : BufTy).Contents (Elt F) → (⟨S2097152x2, .f32⟩ : BufTy).Contents (Elt F) → (⟨S2097152x2, .f32⟩ : BufTy).Contents (Elt F)),
    unary main_v141 main_v157 (broadcastInDim S2097152x2 ![0, 1] bcast_S2097152x1_S2097152x2_0_1 : (⟨S2097152x1, .f32⟩ : BufTy).Contents (Elt F) → (⟨S2097152x2, .f32⟩ : BufTy).Contents (Elt F)),
    binary main_v157 main_v149 main_v158 (mulf : (⟨S2097152x2, .f32⟩ : BufTy).Contents (Elt F) → (⟨S2097152x2, .f32⟩ : BufTy).Contents (Elt F) → (⟨S2097152x2, .f32⟩ : BufTy).Contents (Elt F)),
    binary main_v156 main_v158 main_v159 (addf : (⟨S2097152x2, .f32⟩ : BufTy).Contents (Elt F) → (⟨S2097152x2, .f32⟩ : BufTy).Contents (Elt F) → (⟨S2097152x2, .f32⟩ : BufTy).Contents (Elt F)),
    unary main_v154 main_v160 (broadcastInDim S2097152x1x2 ![0, 2] bcast_S2097152x2_S2097152x1x2_0_2 : (⟨S2097152x2, .f32⟩ : BufTy).Contents (Elt F) → (⟨S2097152x1x2, .f32⟩ : BufTy).Contents (Elt F)),
    unary main_v159 main_v161 (broadcastInDim S2097152x1x2 ![0, 2] bcast_S2097152x2_S2097152x1x2_0_2 : (⟨S2097152x2, .f32⟩ : BufTy).Contents (Elt F) → (⟨S2097152x1x2, .f32⟩ : BufTy).Contents (Elt F)) ]

/-- The printed part 3 of @main: its 59 operations. -/
abbrev p3 : List (HloOp τ sig (Elt F)) :=
  [ binary main_v160 main_v161 main_v162 ((fun a b => concatenate S2097152x2x2 1 [⟨S2097152x1x2, a⟩, ⟨S2097152x1x2, b⟩] concatenates_S2097152x1x2_S2097152x1x2_S2097152x2x2_d1) : (⟨S2097152x1x2, .f32⟩ : BufTy).Contents (Elt F) → (⟨S2097152x1x2, .f32⟩ : BufTy).Contents (Elt F) → (⟨S2097152x2x2, .f32⟩ : BufTy).Contents (Elt F)),
    unary main_v8 main_v163 ((extractStridedSlice S2097152x1 ![0, 3] · slices_S2097152x4_S2097152x1_0_3) : (⟨S2097152x4, .f32⟩ : BufTy).Contents (Elt F) → (⟨S2097152x1, .f32⟩ : BufTy).Contents (Elt F)),
    reshape main_v163 main_v164 rfl shapeCasts_S2097152x1_S2097152,
    nullary main_cst_16 (constant S_ .f32 0x3F000000#32),
    unary main_cst_16 main_v165 (broadcastInDim S2097152 ![] bcast_S_S2097152 : (⟨S_, .f32⟩ : BufTy).Contents (Elt F) → (⟨S2097152, .f32⟩ : BufTy).Contents (Elt F)),
    binary main_v164 main_v165 main_v166 (mulf : (⟨S2097152, .f32⟩ : BufTy).Contents (Elt F) → (⟨S2097152, .f32⟩ : BufTy).Contents (Elt F) → (⟨S2097152, .f32⟩ : BufTy).Contents (Elt F)),
    unary main_v166 main_v167 (Host.cos : (⟨S2097152, .f32⟩ : BufTy).Contents (Elt F) → (⟨S2097152, .f32⟩ : BufTy).Contents (Elt F)),
    unary main_v167 main_v168 (broadcastInDim S2097152x1 ![0] bcast_S2097152_S2097152x1_0 : (⟨S2097152, .f32⟩ : BufTy).Contents (Elt F) → (⟨S2097152x1, .f32⟩ : BufTy).Contents (Elt F)),
    nullary main_cst_17 (constant S_ .f32 0x3F000000#32),
    unary main_cst_17 main_v169 (broadcastInDim S2097152 ![] bcast_S_S2097152 : (⟨S_, .f32⟩ : BufTy).Contents (Elt F) → (⟨S2097152, .f32⟩ : BufTy).Contents (Elt F)),
    binary main_v164 main_v169 main_v170 (mulf : (⟨S2097152, .f32⟩ : BufTy).Contents (Elt F) → (⟨S2097152, .f32⟩ : BufTy).Contents (Elt F) → (⟨S2097152, .f32⟩ : BufTy).Contents (Elt F)),
    unary main_v170 main_v171 (Host.sin : (⟨S2097152, .f32⟩ : BufTy).Contents (Elt F) → (⟨S2097152, .f32⟩ : BufTy).Contents (Elt F)),
    unary main_v171 main_v172 (broadcastInDim S2097152x1 ![0] bcast_S2097152_S2097152x1_0 : (⟨S2097152, .f32⟩ : BufTy).Contents (Elt F) → (⟨S2097152x1, .f32⟩ : BufTy).Contents (Elt F)),
    unary main_v162 main_v173 ((extractStridedSlice S2097152x2x1 ![0, 0, 0] · slices_S2097152x2x2_S2097152x2x1_0_0_0) : (⟨S2097152x2x2, .f32⟩ : BufTy).Contents (Elt F) → (⟨S2097152x2x1, .f32⟩ : BufTy).Contents (Elt F)),
    reshape main_v173 main_v174 rfl shapeCasts_S2097152x2x1_S2097152x2,
    unary main_v162 main_v175 ((extractStridedSlice S2097152x2x1 ![0, 0, 1] · slices_S2097152x2x2_S2097152x2x1_0_0_1) : (⟨S2097152x2x2, .f32⟩ : BufTy).Contents (Elt F) → (⟨S2097152x2x1, .f32⟩ : BufTy).Contents (Elt F)),
    reshape main_v175 main_v176 rfl shapeCasts_S2097152x2x1_S2097152x2,
    unary main_v168 main_v177 (broadcastInDim S2097152x2 ![0, 1] bcast_S2097152x1_S2097152x2_0_1 : (⟨S2097152x1, .f32⟩ : BufTy).Contents (Elt F) → (⟨S2097152x2, .f32⟩ : BufTy).Contents (Elt F)),
    binary main_v177 main_v174 main_v178 (mulf : (⟨S2097152x2, .f32⟩ : BufTy).Contents (Elt F) → (⟨S2097152x2, .f32⟩ : BufTy).Contents (Elt F) → (⟨S2097152x2, .f32⟩ : BufTy).Contents (Elt F)),
    unary main_v172 main_v179 (broadcastInDim S2097152x2 ![0, 1] bcast_S2097152x1_S2097152x2_0_1 : (⟨S2097152x1, .f32⟩ : BufTy).Contents (Elt F) → (⟨S2097152x2, .f32⟩ : BufTy).Contents (Elt F)),
    binary main_v179 main_v176 main_v180 (mulf : (⟨S2097152x2, .f32⟩ : BufTy).Contents (Elt F) → (⟨S2097152x2, .f32⟩ : BufTy).Contents (Elt F) → (⟨S2097152x2, .f32⟩ : BufTy).Contents (Elt F)),
    binary main_v178 main_v180 main_v181 (subf : (⟨S2097152x2, .f32⟩ : BufTy).Contents (Elt F) → (⟨S2097152x2, .f32⟩ : BufTy).Contents (Elt F) → (⟨S2097152x2, .f32⟩ : BufTy).Contents (Elt F)),
    unary main_v172 main_v182 (broadcastInDim S2097152x2 ![0, 1] bcast_S2097152x1_S2097152x2_0_1 : (⟨S2097152x1, .f32⟩ : BufTy).Contents (Elt F) → (⟨S2097152x2, .f32⟩ : BufTy).Contents (Elt F)),
    binary main_v182 main_v174 main_v183 (mulf : (⟨S2097152x2, .f32⟩ : BufTy).Contents (Elt F) → (⟨S2097152x2, .f32⟩ : BufTy).Contents (Elt F) → (⟨S2097152x2, .f32⟩ : BufTy).Contents (Elt F)),
    unary main_v168 main_v184 (broadcastInDim S2097152x2 ![0, 1] bcast_S2097152x1_S2097152x2_0_1 : (⟨S2097152x1, .f32⟩ : BufTy).Contents (Elt F) → (⟨S2097152x2, .f32⟩ : BufTy).Contents (Elt F)),
    binary main_v184 main_v176 main_v185 (mulf : (⟨S2097152x2, .f32⟩ : BufTy).Contents (Elt F) → (⟨S2097152x2, .f32⟩ : BufTy).Contents (Elt F) → (⟨S2097152x2, .f32⟩ : BufTy).Contents (Elt F)),
    binary main_v183 main_v185 main_v186 (addf : (⟨S2097152x2, .f32⟩ : BufTy).Contents (Elt F) → (⟨S2097152x2, .f32⟩ : BufTy).Contents (Elt F) → (⟨S2097152x2, .f32⟩ : BufTy).Contents (Elt F)),
    unary main_v181 main_v187 (broadcastInDim S2097152x2x1 ![0, 1] bcast_S2097152x2_S2097152x2x1_0_1 : (⟨S2097152x2, .f32⟩ : BufTy).Contents (Elt F) → (⟨S2097152x2x1, .f32⟩ : BufTy).Contents (Elt F)),
    unary main_v186 main_v188 (broadcastInDim S2097152x2x1 ![0, 1] bcast_S2097152x2_S2097152x2x1_0_1 : (⟨S2097152x2, .f32⟩ : BufTy).Contents (Elt F) → (⟨S2097152x2x1, .f32⟩ : BufTy).Contents (Elt F)),
    binary main_v187 main_v188 main_v189 ((fun a b => concatenate S2097152x2x2 2 [⟨S2097152x2x1, a⟩, ⟨S2097152x2x1, b⟩] concatenates_S2097152x2x1_S2097152x2x1_S2097152x2x2_d2) : (⟨S2097152x2x1, .f32⟩ : BufTy).Contents (Elt F) → (⟨S2097152x2x1, .f32⟩ : BufTy).Contents (Elt F) → (⟨S2097152x2x2, .f32⟩ : BufTy).Contents (Elt F)),
    reshape main_v189 main_v190 rfl shapeCasts_S2097152x2x2_S2097152x4,
    binary main_v190 main_v190 main_v191 (mulf : (⟨S2097152x4, .f32⟩ : BufTy).Contents (Elt F) → (⟨S2097152x4, .f32⟩ : BufTy).Contents (Elt F) → (⟨S2097152x4, .f32⟩ : BufTy).Contents (Elt F)),
    unary main_v191 main_v192 ((extractStridedSlice S2097152x1 ![0, 0] · slices_S2097152x4_S2097152x1_0_0) : (⟨S2097152x4, .f32⟩ : BufTy).Contents (Elt F) → (⟨S2097152x1, .f32⟩ : BufTy).Contents (Elt F)),
    reshape main_v192 main_v193 rfl shapeCasts_S2097152x1_S2097152,
    unary main_v191 main_v194 ((extractStridedSlice S2097152x1 ![0, 2] · slices_S2097152x4_S2097152x1_0_2) : (⟨S2097152x4, .f32⟩ : BufTy).Contents (Elt F) → (⟨S2097152x1, .f32⟩ : BufTy).Contents (Elt F)),
    reshape main_v194 main_v195 rfl shapeCasts_S2097152x1_S2097152,
    binary main_v193 main_v195 main_v196 (addf : (⟨S2097152, .f32⟩ : BufTy).Contents (Elt F) → (⟨S2097152, .f32⟩ : BufTy).Contents (Elt F) → (⟨S2097152, .f32⟩ : BufTy).Contents (Elt F)),
    unary main_v191 main_v197 ((extractStridedSlice S2097152x1 ![0, 1] · slices_S2097152x4_S2097152x1_0_1) : (⟨S2097152x4, .f32⟩ : BufTy).Contents (Elt F) → (⟨S2097152x1, .f32⟩ : BufTy).Contents (Elt F)),
    reshape main_v197 main_v198 rfl shapeCasts_S2097152x1_S2097152,
    unary main_v191 main_v199 ((extractStridedSlice S2097152x1 ![0, 3] · slices_S2097152x4_S2097152x1_0_3) : (⟨S2097152x4, .f32⟩ : BufTy).Contents (Elt F) → (⟨S2097152x1, .f32⟩ : BufTy).Contents (Elt F)),
    reshape main_v199 main_v200 rfl shapeCasts_S2097152x1_S2097152,
    binary main_v198 main_v200 main_v201 (addf : (⟨S2097152, .f32⟩ : BufTy).Contents (Elt F) → (⟨S2097152, .f32⟩ : BufTy).Contents (Elt F) → (⟨S2097152, .f32⟩ : BufTy).Contents (Elt F)),
    unary main_v196 main_v202 (broadcastInDim S2097152x1 ![0] bcast_S2097152_S2097152x1_0 : (⟨S2097152, .f32⟩ : BufTy).Contents (Elt F) → (⟨S2097152x1, .f32⟩ : BufTy).Contents (Elt F)),
    unary main_v201 main_v203 (broadcastInDim S2097152x1 ![0] bcast_S2097152_S2097152x1_0 : (⟨S2097152, .f32⟩ : BufTy).Contents (Elt F) → (⟨S2097152x1, .f32⟩ : BufTy).Contents (Elt F)),
    binary main_v202 main_v203 main_v204 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)),
    nullary main_cst_18 (constant S_ .f32 0xFF800000#32),
    binary main_v204 main_cst_18 main_v205 ((fun x v => Host.reduce FloatOps.maximumf x v reducesTo_S2097152x2_S2097152_d1 h_S_) : (⟨S2097152x2, .f32⟩ : BufTy).Contents (Elt F) → (⟨S_, .f32⟩ : BufTy).Contents (Elt F) → (⟨S2097152, .f32⟩ : BufTy).Contents (Elt F)),
    nullary main_cst_19 (constant S_ .f32 0xFF800000#32),
    unary main_cst_19 main_v206 (broadcastInDim S2097152 ![] bcast_S_S2097152 : (⟨S_, .f32⟩ : BufTy).Contents (Elt F) → (⟨S2097152, .f32⟩ : BufTy).Contents (Elt F)),
    binary main_v206 main_v205 main_v207 (maximumf : (⟨S2097152, .f32⟩ : BufTy).Contents (Elt F) → (⟨S2097152, .f32⟩ : BufTy).Contents (Elt F) → (⟨S2097152, .f32⟩ : BufTy).Contents (Elt F)),
    unary main_v207 main_v208 (broadcastInDim S2097152x1 ![0] bcast_S2097152_S2097152x1_0 : (⟨S2097152, .f32⟩ : BufTy).Contents (Elt F) → (⟨S2097152x1, .f32⟩ : BufTy).Contents (Elt F)),
    unary main_v208 main_v209 (broadcastInDim S2097152x2 ![0, 1] bcast_S2097152x1_S2097152x2_0_1 : (⟨S2097152x1, .f32⟩ : BufTy).Contents (Elt F) → (⟨S2097152x2, .f32⟩ : BufTy).Contents (Elt F)),
    binary main_v204 main_v209 main_v210 (subf : (⟨S2097152x2, .f32⟩ : BufTy).Contents (Elt F) → (⟨S2097152x2, .f32⟩ : BufTy).Contents (Elt F) → (⟨S2097152x2, .f32⟩ : BufTy).Contents (Elt F)),
    unary main_v210 main_v211 (Host.exp : (⟨S2097152x2, .f32⟩ : BufTy).Contents (Elt F) → (⟨S2097152x2, .f32⟩ : BufTy).Contents (Elt F)),
    nullary main_cst_20 (constant S_ .f32 0x00000000#32),
    binary main_v211 main_cst_20 main_v212 ((fun x v => Host.reduceAdd x v reducesTo_S2097152x2_S2097152_d1 h_S_) : (⟨S2097152x2, .f32⟩ : BufTy).Contents (Elt F) → (⟨S_, .f32⟩ : BufTy).Contents (Elt F) → (⟨S2097152, .f32⟩ : BufTy).Contents (Elt F)),
    unary main_v212 main_v213 (broadcastInDim S2097152x1 ![0] bcast_S2097152_S2097152x1_0 : (⟨S2097152, .f32⟩ : BufTy).Contents (Elt F) → (⟨S2097152x1, .f32⟩ : BufTy).Contents (Elt F)),
    unary main_v213 main_v214 (broadcastInDim S2097152x2 ![0, 1] bcast_S2097152x1_S2097152x2_0_1 : (⟨S2097152x1, .f32⟩ : BufTy).Contents (Elt F) → (⟨S2097152x2, .f32⟩ : BufTy).Contents (Elt F)),
    binary main_v211 main_v214 main_v215 (Host.divf : (⟨S2097152x2, .f32⟩ : BufTy).Contents (Elt F) → (⟨S2097152x2, .f32⟩ : BufTy).Contents (Elt F) → (⟨S2097152x2, .f32⟩ : BufTy).Contents (Elt F)) ]

/-- The printed parts in order. -/
abbrev parts : List (HloOp τ sig (Elt F)) := p0 ++ p1 ++ p2 ++ p3

/-- Every window in order. -/
abbrev all : List (HloOp τ sig (Elt F)) := w0 ++ w1 ++ g1 ++ g2 ++ x1 ++ g3 ++ g4 ++ x2 ++ g5 ++ g6 ++ fin

-- operations per window: w0: 12, w1: 8, g1: 29, g2: 29, x1: 8, g3: 29, g4: 29, x2: 8, g5: 29, g6: 29, fin: 29

end Cert.ReferenceIdeal.Ops

end
-- ==== Proof.RefRun.lean ====
/-
  The reference program run as a list of host operations.

  The printed program is four parts run in order; each part is the sequence of its operations, so the whole
  program is the sequence of all of them, regrouped here into eleven windows that follow the mathematics:
  the network, the initial state, six rotations, two controlled-nots, and the final probabilities with
  their softmax. Every weakly fair execution then terminates with each buffer at the fold of the
  operations' results over the launch contents.
-/
import proofs.«430581_j65481071406452_3_alg».proof.Proof.RefOps

noncomputable section

namespace Cert.ReferenceIdeal.HandRun

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

set_option maxRecDepth 8192 in
theorem part0_eq (c : Dev nD) : main_part0 (F := F) c = seq p0 := rfl
set_option maxRecDepth 8192 in
theorem part1_eq (c : Dev nD) : main_part1 (F := F) c = seq p1 := rfl
set_option maxRecDepth 8192 in
theorem part2_eq (c : Dev nD) : main_part2 (F := F) c = seq p2 := rfl
set_option maxRecDepth 8192 in
theorem part3_eq (c : Dev nD) : main_part3 (F := F) c = seq p3 := rfl

/-- The four printed parts, concatenated, are the eleven windows, concatenated: one list of operations. -/
theorem parts_eq_all : (parts : List (HloOp τ sig (Elt F))) = all := by
  simp only [parts, all, p0, p1, p2, p3, w0, w1, g1, g2, x1, g3, g4, x2, g5, g6, fin, List.cons_append, List.nil_append]

set_option maxRecDepth 8192 in
/-- The program is its operations in order. -/
theorem main_eq (c : Dev nD) : main (F := F) c = seq all := by
  rw [← parts_eq_all]
  simp only [parts, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of a window touches TensorCore buffers only. -/
theorem w0_sub : (w0 : List (HloOp τ sig (Elt F))).Forall fun op => op.bufs ⊆ tcRefs τ sig := by
  simp only [w0, List.Forall, nullary_bufs_sub, unary_bufs_sub, binary_bufs_sub, ternary_bufs_sub, reshape_bufs_sub, and_self]
theorem w1_sub : (w1 : List (HloOp τ sig (Elt F))).Forall fun op => op.bufs ⊆ tcRefs τ sig := by
  simp only [w1, List.Forall, nullary_bufs_sub, unary_bufs_sub, binary_bufs_sub, ternary_bufs_sub, reshape_bufs_sub, and_self]
theorem g1_sub : (g1 : List (HloOp τ sig (Elt F))).Forall fun op => op.bufs ⊆ tcRefs τ sig := by
  simp only [g1, List.Forall, nullary_bufs_sub, unary_bufs_sub, binary_bufs_sub, ternary_bufs_sub, reshape_bufs_sub, and_self]
theorem g2_sub : (g2 : List (HloOp τ sig (Elt F))).Forall fun op => op.bufs ⊆ tcRefs τ sig := by
  simp only [g2, List.Forall, nullary_bufs_sub, unary_bufs_sub, binary_bufs_sub, ternary_bufs_sub, reshape_bufs_sub, and_self]
theorem x1_sub : (x1 : List (HloOp τ sig (Elt F))).Forall fun op => op.bufs ⊆ tcRefs τ sig := by
  simp only [x1, List.Forall, nullary_bufs_sub, unary_bufs_sub, binary_bufs_sub, ternary_bufs_sub, reshape_bufs_sub, and_self]
theorem g3_sub : (g3 : List (HloOp τ sig (Elt F))).Forall fun op => op.bufs ⊆ tcRefs τ sig := by
  simp only [g3, List.Forall, nullary_bufs_sub, unary_bufs_sub, binary_bufs_sub, ternary_bufs_sub, reshape_bufs_sub, and_self]
theorem g4_sub : (g4 : List (HloOp τ sig (Elt F))).Forall fun op => op.bufs ⊆ tcRefs τ sig := by
  simp only [g4, List.Forall, nullary_bufs_sub, unary_bufs_sub, binary_bufs_sub, ternary_bufs_sub, reshape_bufs_sub, and_self]
theorem x2_sub : (x2 : List (HloOp τ sig (Elt F))).Forall fun op => op.bufs ⊆ tcRefs τ sig := by
  simp only [x2, List.Forall, nullary_bufs_sub, unary_bufs_sub, binary_bufs_sub, ternary_bufs_sub, reshape_bufs_sub, and_self]
theorem g5_sub : (g5 : List (HloOp τ sig (Elt F))).Forall fun op => op.bufs ⊆ tcRefs τ sig := by
  simp only [g5, List.Forall, nullary_bufs_sub, unary_bufs_sub, binary_bufs_sub, ternary_bufs_sub, reshape_bufs_sub, and_self]
theorem g6_sub : (g6 : List (HloOp τ sig (Elt F))).Forall fun op => op.bufs ⊆ tcRefs τ sig := by
  simp only [g6, List.Forall, nullary_bufs_sub, unary_bufs_sub, binary_bufs_sub, ternary_bufs_sub, reshape_bufs_sub, and_self]
theorem fin_sub : (fin : List (HloOp τ sig (Elt F))).Forall fun op => op.bufs ⊆ tcRefs τ sig := by
  simp only [fin, List.Forall, nullary_bufs_sub, unary_bufs_sub, binary_bufs_sub, ternary_bufs_sub, reshape_bufs_sub, and_self]

/-- Every operation touches TensorCore buffers only. -/
theorem all_sub : (all : List (HloOp τ sig (Elt F))).Forall fun op => op.bufs ⊆ tcRefs τ sig :=
  List.forall_iff_forall_mem.mpr fun op h => by
    simp only [all, List.mem_append, or_assoc] at h
    rcases h with h | h | h | h | h | h | h | h | h | h | h
    exacts [List.forall_iff_forall_mem.mp w0_sub op h, List.forall_iff_forall_mem.mp w1_sub op h, List.forall_iff_forall_mem.mp g1_sub op h, List.forall_iff_forall_mem.mp g2_sub op h, List.forall_iff_forall_mem.mp x1_sub op h, List.forall_iff_forall_mem.mp g3_sub op h, List.forall_iff_forall_mem.mp g4_sub op h, List.forall_iff_forall_mem.mp x2_sub op h, List.forall_iff_forall_mem.mp g5_sub op h, List.forall_iff_forall_mem.mp g6_sub op h, List.forall_iff_forall_mem.mp fin_sub op h]

/-- On every device, from any memory with zero counters: every weakly fair execution of the reference
    terminates, each buffer at the fold of the operations' results over what the launch dealt it. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after all (launchContents m c) (Proc.devRef .tc b) :=
  run_seq scopedRefs_eq scopedSems_eq defs main (fun _ => all) main_eq (fun _ => all_sub) m ρ

end Cert.ReferenceIdeal.HandRun

end
-- ==== Proof.RefWinDefs.lean ====
/-
  Names shared by the modules that read the reference program's windows: the valuations of the reference's
  buffers at the extended reals, and the state of row b held in a [rows, 2, 2] buffer.
-/
import proofs.«430581_j65481071406452_3_alg».proof.Proof.RefOps
import proofs.«430581_j65481071406452_3_alg».proof.Proof.Spec
import Idealize.ShloMosaic.Lib.ValueIdx

noncomputable section

namespace Cert.ReferenceIdeal.Win

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- The contents of the reference's buffers, at the extended reals. -/
abbrev Vl := Valuation τ sig (Elt Ideal)

/-- The two-qubit state of row b held in a [rows, 2, 2] array: entry (b, p, q) is the amplitude of |p q>. -/
def stOf (S : S2097152x2x2.Idx → EReal) (b : Fin 2097152) : Cert.Spec.Amp := Cert.Spec.Amp.of fun p q => S (ix3 b p q)

end Cert.ReferenceIdeal.Win

end
-- ==== Proof.RefWinRot0.lean ====
/-
  The three windows of the reference that rotate qubit 0.

  Each window takes one column of an array of angles (θ for row b), halves it, takes cos(θ/2) and sin(θ/2) per row and
  spreads them over the row's two columns; it takes the two rows of every 2 × 2 state (qubit 0 = 0 and qubit 0 = 1),
  forms  cos · row0 − sin · row1  and  sin · row0 + cos · row1,  and stacks the two along the qubit-0 axis. Read at the
  entry (b, p, q) this is the rotation of qubit 0 of row b's state by θ. The three windows differ only in the buffers
  they read and in the angle column, so one statement over a column of angles and two row arrays serves all three.
-/
import proofs.«430581_j65481071406452_3_alg».proof.Proof.RefWinDefs
import Idealize.ShloMosaic.Lib.Pipeline.Value

noncomputable section

namespace Cert.ReferenceIdeal.Win

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-- A column of an n-column array, sliced out as [rows, 1] and flattened to [rows], reads the array at (row, column). -/
theorem col_read {α : Type} {n : Nat} (X : (⟨2, ![2097152, n]⟩ : Shape).Idx → α) (off : Fin 2 → Nat)
    (h : (⟨2, ![2097152, n]⟩ : Shape).Slices off S2097152x1) (h' : S2097152x1.ShapeCasts S2097152)
    (c : Fin n) (h0 : off 0 = 0) (h1 : off 1 = c.val) (b : Fin 2097152) :
    shapeCast S2097152 (extractStridedSlice S2097152x1 off X h) h' (ix1 b) = X (ix2 b c) := by
  refine (shapeCast_apply _ h' (ix1 b) (ix2 b (0 : Fin 1)) ?_).trans ?_
  · rw [Shape.rowMajor_val_two, Shape.rowMajor_val_one]
    show b.val * 1 + 0 = b.val
    omega
  · refine extractStridedSlice_apply off X h (ix2 b 0) (ix2 b c) (fun a => ?_)
    match a with
    | ⟨0, _⟩ => show b.val = off 0 + b.val; omega
    | ⟨1, _⟩ => show c.val = off 1 + 0; omega

/-- Row r of every 2 × 2 state, sliced out as [rows, 1, 2] and flattened to [rows, 2], reads the state at (row, r, column). -/
theorem row_read {α : Type} (S : S2097152x2x2.Idx → α) (off : Fin 3 → Nat)
    (h : S2097152x2x2.Slices off S2097152x1x2) (h' : S2097152x1x2.ShapeCasts S2097152x2)
    (r : Fin 2) (h0 : off 0 = 0) (h1 : off 1 = r.val) (h2 : off 2 = 0) (b : Fin 2097152) (q : Fin 2) :
    shapeCast S2097152x2 (extractStridedSlice S2097152x1x2 off S h) h' (ix2 b q) = S (ix3 b r q) := by
  refine (shapeCast_apply _ h' (ix2 b q) (ix3 b (0 : Fin 1) q) ?_).trans ?_
  · rw [Shape.rowMajor_val_three, Shape.rowMajor_val_two]
    show (b.val * 1 + 0) * 2 + q.val = b.val * 2 + q.val
    omega
  · refine extractStridedSlice_apply off S h (ix3 b 0 q) (ix3 b r q) (fun a => ?_)
    match a with
    | ⟨0, _⟩ => show b.val = off 0 + b.val; omega
    | ⟨1, _⟩ => show r.val = off 1 + 0; omega
    | ⟨2, _⟩ => show q.val = off 2 + q.val; omega

/-- An array of angles times the constant one half; a per-row value spread over the two columns; a [rows, 2] array
    given a unit middle axis. -/
local notation "halfOf(" a ")" =>
  mulf a (broadcastInDim S2097152 ![] bcast_S_S2097152 (constant (F := Ideal) S_ FTy.f32 0x3F000000#32))
local notation "colB(" y ")" =>
  broadcastInDim S2097152x2 ![0, 1] bcast_S2097152x1_S2097152x2_0_1
    (broadcastInDim S2097152x1 ![0] bcast_S2097152_S2097152x1_0 y)
local notation "rowB(" y ")" =>
  broadcastInDim S2097152x1x2 ![0, 2] bcast_S2097152x2_S2097152x1x2_0_2 y

/-- An angle times the broadcast constant one half, read at row b. -/
theorem half_apply (ang : FVec Ideal S2097152 .f32) (b : Fin 2097152) :
    halfOf(ang) (ix1 b) = ang (ix1 b) * Cert.Spec.half := by
  refine (mulf_apply _ _ _).trans ?_
  refine congrArg (fun t => ang (ix1 b) * t) ?_
  exact broadcastInDim_apply ![] bcast_S_S2097152 _ (ix1 b) ix0 (fun a => a.elim0)

/-- A per-row value broadcast along both columns reads the row's value. -/
theorem colB_apply (y : FVec Ideal S2097152 .f32) (b : Fin 2097152) (q : Fin 2) :
    colB(y) (ix2 b q) = y (ix1 b) := by
  refine (broadcastInDim_apply _ _ _ (ix2 b q) (ix2 b (0 : Fin 1)) (fun a => ?_)).trans ?_
  · match a with
    | ⟨0, _⟩ => rfl
    | ⟨1, _⟩ => rfl
  refine (broadcastInDim_apply _ _ _ (ix2 b (0 : Fin 1)) (ix1 b) (fun a => ?_))
  match a with
  | ⟨0, _⟩ => rfl

/-- A [rows, 2] array given a unit middle axis reads the same entry. -/
theorem rowB_apply (y : FVec Ideal S2097152x2 .f32) (b : Fin 2097152) (q : Fin 2) :
    rowB(y) (ix3 b (0 : Fin 1) q) = y (ix2 b q) := by
  refine (broadcastInDim_apply _ _ _ (ix3 b (0 : Fin 1) q) (ix2 b q) (fun a => ?_))
  match a with
  | ⟨0, _⟩ => rfl
  | ⟨1, _⟩ => rfl

/-- THE ROTATION WINDOW over variables: from a column of angles and the two rows of every state, the concatenation of
    (cos · row 0 − sin · row 1) and (sin · row 0 + cos · row 1) along the qubit-0 axis is the rotation of qubit 0. -/
theorem rot_core (ang : FVec Ideal S2097152 .f32) (r0 r1 : FVec Ideal S2097152x2 .f32) (b : Fin 2097152) (p q : Fin 2)
    (θ : EReal) (s : Cert.Spec.Amp) (hθ : ang (ix1 b) = θ)
    (h00 : r0 (ix2 b 0) = s.a00) (h01 : r0 (ix2 b 1) = s.a01) (h10 : r1 (ix2 b 0) = s.a10) (h11 : r1 (ix2 b 1) = s.a11) :
    concatenate S2097152x2x2 1
      [⟨S2097152x1x2, rowB(subf (mulf colB(Host.cos halfOf(ang)) r0) (mulf colB(Host.sin halfOf(ang)) r1))⟩,
       ⟨S2097152x1x2, rowB(addf (mulf colB(Host.sin halfOf(ang)) r0) (mulf colB(Host.cos halfOf(ang)) r1))⟩]
      concatenates_S2097152x1x2_S2097152x1x2_S2097152x2x2_d1 (ix3 b p q)
    = (Cert.Spec.rot0 θ s).at p q := by
  have hc : colB(Host.cos halfOf(ang)) (ix2 b q) = Ideal.cos (θ * Cert.Spec.half) := by
    refine (colB_apply _ b q).trans ?_
    show Ideal.cos (halfOf(ang) (ix1 b)) = _
    rw [half_apply, hθ]
  have hs : colB(Host.sin halfOf(ang)) (ix2 b q) = Ideal.sin (θ * Cert.Spec.half) := by
    refine (colB_apply _ b q).trans ?_
    show Ideal.sin (halfOf(ang) (ix1 b)) = _
    rw [half_apply, hθ]
  match p with
  | ⟨0, _⟩ =>
    refine (concatenate_pair_apply_left (t := S2097152x2x2) (s₁ := S2097152x1x2) (s₂ := S2097152x1x2) (1 : Fin 3) _ _ concatenates_S2097152x1x2_S2097152x1x2_S2097152x2x2_d1
      (ix3 b (0 : Fin 2) q) rfl (ix3 b (0 : Fin 1) q) (fun a => ?_)).trans ?_
    · match a with
      | ⟨0, _⟩ => rfl
      | ⟨1, _⟩ => rfl
      | ⟨2, _⟩ => rfl
    refine (rowB_apply _ b q).trans ?_
    show colB(Host.cos halfOf(ang)) (ix2 b q) * r0 (ix2 b q) - colB(Host.sin halfOf(ang)) (ix2 b q) * r1 (ix2 b q) = _
    rw [hc, hs]
    match q with
    | ⟨0, _⟩ =>
      show Ideal.cos (θ * Cert.Spec.half) * r0 (ix2 b 0) - Ideal.sin (θ * Cert.Spec.half) * r1 (ix2 b 0) = (Cert.Spec.rot0 θ s).a00
      rw [h00, h10]; rfl
    | ⟨1, _⟩ =>
      show Ideal.cos (θ * Cert.Spec.half) * r0 (ix2 b 1) - Ideal.sin (θ * Cert.Spec.half) * r1 (ix2 b 1) = (Cert.Spec.rot0 θ s).a01
      rw [h01, h11]; rfl
  | ⟨1, _⟩ =>
    refine (concatenate_pair_apply_right (t := S2097152x2x2) (s₁ := S2097152x1x2) (s₂ := S2097152x1x2) (1 : Fin 3) _ _ concatenates_S2097152x1x2_S2097152x1x2_S2097152x2x2_d1
      (ix3 b (1 : Fin 2) q) rfl rfl (ix3 b (0 : Fin 1) q) (fun a ha => ?_) rfl).trans ?_
    · match a with
      | ⟨0, _⟩ => rfl
      | ⟨1, _⟩ => exact absurd rfl ha
      | ⟨2, _⟩ => rfl
    refine (rowB_apply _ b q).trans ?_
    show colB(Host.sin halfOf(ang)) (ix2 b q) * r0 (ix2 b q) + colB(Host.cos halfOf(ang)) (ix2 b q) * r1 (ix2 b q) = _
    rw [hc, hs]
    match q with
    | ⟨0, _⟩ =>
      show Ideal.sin (θ * Cert.Spec.half) * r0 (ix2 b 0) + Ideal.cos (θ * Cert.Spec.half) * r1 (ix2 b 0) = (Cert.Spec.rot0 θ s).a10
      rw [h00, h10]; rfl
    | ⟨1, _⟩ =>
      show Ideal.sin (θ * Cert.Spec.half) * r0 (ix2 b 1) + Ideal.cos (θ * Cert.Spec.half) * r1 (ix2 b 1) = (Cert.Spec.rot0 θ s).a11
      rw [h01, h11]; rfl

/-- Window `g1` rotates qubit 0 of every row's state by the row's angle in column 0 of `main_arg0`. -/
theorem g1_apply (V : Vl) (b : Fin 2097152) (p q : Fin 2) :
    (after (g1 (F := Ideal)) V (Proc.devRef .tc main_v40) : S2097152x2x2.Idx → EReal) (ix3 b p q)
      = (Cert.Spec.rot0 ((V (Proc.devRef .tc main_arg0) : S2097152x2.Idx → EReal) (ix2 b 0))
          (stOf (V (Proc.devRef .tc main_v13)) b)).at p q := by
  simp only [g1]
  after_results_simp
  exact rot_core _ _ _ b p q _ _
    (col_read (V (Proc.devRef .tc main_arg0)) _ slices_S2097152x2_S2097152x1_0_0 shapeCasts_S2097152x1_S2097152 (0 : Fin 2) rfl rfl b)
    (row_read (V (Proc.devRef .tc main_v13)) _ slices_S2097152x2x2_S2097152x1x2_0_0_0 shapeCasts_S2097152x1x2_S2097152x2 0 rfl rfl rfl b 0)
    (row_read (V (Proc.devRef .tc main_v13)) _ slices_S2097152x2x2_S2097152x1x2_0_0_0 shapeCasts_S2097152x1x2_S2097152x2 0 rfl rfl rfl b 1)
    (row_read (V (Proc.devRef .tc main_v13)) _ slices_S2097152x2x2_S2097152x1x2_0_1_0 shapeCasts_S2097152x1x2_S2097152x2 1 rfl rfl rfl b 0)
    (row_read (V (Proc.devRef .tc main_v13)) _ slices_S2097152x2x2_S2097152x1x2_0_1_0 shapeCasts_S2097152x1x2_S2097152x2 1 rfl rfl rfl b 1)

/-- Window `g3` rotates qubit 0 of every row's state by the row's angle in column 0 of `main_v8`. -/
theorem g3_apply (V : Vl) (b : Fin 2097152) (p q : Fin 2) :
    (after (g3 (F := Ideal)) V (Proc.devRef .tc main_v101) : S2097152x2x2.Idx → EReal) (ix3 b p q)
      = (Cert.Spec.rot0 ((V (Proc.devRef .tc main_v8) : S2097152x4.Idx → EReal) (ix2 b 0))
          (stOf (V (Proc.devRef .tc main_v74)) b)).at p q := by
  simp only [g3]
  after_results_simp
  exact rot_core _ _ _ b p q _ _
    (col_read (V (Proc.devRef .tc main_v8)) _ slices_S2097152x4_S2097152x1_0_0 shapeCasts_S2097152x1_S2097152 (0 : Fin 4) rfl rfl b)
    (row_read (V (Proc.devRef .tc main_v74)) _ slices_S2097152x2x2_S2097152x1x2_0_0_0 shapeCasts_S2097152x1x2_S2097152x2 0 rfl rfl rfl b 0)
    (row_read (V (Proc.devRef .tc main_v74)) _ slices_S2097152x2x2_S2097152x1x2_0_0_0 shapeCasts_S2097152x1x2_S2097152x2 0 rfl rfl rfl b 1)
    (row_read (V (Proc.devRef .tc main_v74)) _ slices_S2097152x2x2_S2097152x1x2_0_1_0 shapeCasts_S2097152x1x2_S2097152x2 1 rfl rfl rfl b 0)
    (row_read (V (Proc.devRef .tc main_v74)) _ slices_S2097152x2x2_S2097152x1x2_0_1_0 shapeCasts_S2097152x1x2_S2097152x2 1 rfl rfl rfl b 1)

/-- Window `g5` rotates qubit 0 of every row's state by the row's angle in column 2 of `main_v8`. -/
theorem g5_apply (V : Vl) (b : Fin 2097152) (p q : Fin 2) :
    (after (g5 (F := Ideal)) V (Proc.devRef .tc main_v162) : S2097152x2x2.Idx → EReal) (ix3 b p q)
      = (Cert.Spec.rot0 ((V (Proc.devRef .tc main_v8) : S2097152x4.Idx → EReal) (ix2 b 2))
          (stOf (V (Proc.devRef .tc main_v135)) b)).at p q := by
  simp only [g5]
  after_results_simp
  exact rot_core _ _ _ b p q _ _
    (col_read (V (Proc.devRef .tc main_v8)) _ slices_S2097152x4_S2097152x1_0_2 shapeCasts_S2097152x1_S2097152 (2 : Fin 4) rfl rfl b)
    (row_read (V (Proc.devRef .tc main_v135)) _ slices_S2097152x2x2_S2097152x1x2_0_0_0 shapeCasts_S2097152x1x2_S2097152x2 0 rfl rfl rfl b 0)
    (row_read (V (Proc.devRef .tc main_v135)) _ slices_S2097152x2x2_S2097152x1x2_0_0_0 shapeCasts_S2097152x1x2_S2097152x2 0 rfl rfl rfl b 1)
    (row_read (V (Proc.devRef .tc main_v135)) _ slices_S2097152x2x2_S2097152x1x2_0_1_0 shapeCasts_S2097152x1x2_S2097152x2 1 rfl rfl rfl b 0)
    (row_read (V (Proc.devRef .tc main_v135)) _ slices_S2097152x2x2_S2097152x1x2_0_1_0 shapeCasts_S2097152x1x2_S2097152x2 1 rfl rfl rfl b 1)

end Cert.ReferenceIdeal.Win

end
-- ==== Proof.RefWinRot1.lean ====
/-
  The three windows of the reference that rotate qubit 1.

  Each window takes one column of an array of angles (one angle θ per row), forms c = cos(θ · ½) and s = sin(θ · ½),
  and, from the [rows, 2, 2] state S, the two columns S(·, ·, 0) and S(·, ·, 1) (qubit 1 at 0 and at 1); it writes
  c · S(·, ·, 0) − s · S(·, ·, 1) into column 0 and s · S(·, ·, 0) + c · S(·, ·, 1) into column 1 of the result.
  Read at the entry (b, p, q) this is the rotation of qubit 1 of row b's state by row b's angle.

  The layout operations (slice, shape cast, broadcast, concatenation) are read at an index, outermost first, each
  naming the operand's index by its coordinates; the arithmetic operations are the extended reals' at every index.
-/
import proofs.«430581_j65481071406452_3_alg».proof.Proof.RefWinDefs
import Idealize.ShloMosaic.Lib.Pipeline.Value

noncomputable section

namespace Cert.ReferenceIdeal.Win

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

namespace Rot1

/-! ## The pieces of a window, over variables -/

/-- The vector of half angles: every angle times the literal one half. -/
abbrev halfOf (θ : FVec Ideal S2097152 .f32) : FVec Ideal S2097152 .f32 :=
  mulf θ (broadcastInDim S2097152 ![] bcast_S_S2097152 (constant S_ .f32 0x3F000000#32))

/-- The cosines of the half angles, one per row, repeated along a new axis of extent 2. -/
abbrev cosB (θ : FVec Ideal S2097152 .f32) : FVec Ideal S2097152x2 .f32 :=
  broadcastInDim S2097152x2 ![0, 1] bcast_S2097152x1_S2097152x2_0_1
    (broadcastInDim S2097152x1 ![0] bcast_S2097152_S2097152x1_0 (Host.cos (halfOf θ)))

/-- The sines of the half angles, one per row, repeated along a new axis of extent 2. -/
abbrev sinB (θ : FVec Ideal S2097152 .f32) : FVec Ideal S2097152x2 .f32 :=
  broadcastInDim S2097152x2 ![0, 1] bcast_S2097152x1_S2097152x2_0_1
    (broadcastInDim S2097152x1 ![0] bcast_S2097152_S2097152x1_0 (Host.sin (halfOf θ)))

/-- Column 0 of the state (qubit 1 at 0), as a [rows, 2] array. -/
abbrev col0 (S : FVec Ideal S2097152x2x2 .f32) : FVec Ideal S2097152x2 .f32 :=
  shapeCast S2097152x2 (extractStridedSlice S2097152x2x1 ![0, 0, 0] S slices_S2097152x2x2_S2097152x2x1_0_0_0)
    shapeCasts_S2097152x2x1_S2097152x2

/-- Column 1 of the state (qubit 1 at 1), as a [rows, 2] array. -/
abbrev col1 (S : FVec Ideal S2097152x2x2 .f32) : FVec Ideal S2097152x2 .f32 :=
  shapeCast S2097152x2 (extractStridedSlice S2097152x2x1 ![0, 0, 1] S slices_S2097152x2x2_S2097152x2x1_0_0_1)
    shapeCasts_S2097152x2x1_S2097152x2

/-- The window's result as a function of the vector of angles and the state. -/
abbrev rotWin (θ : FVec Ideal S2097152 .f32) (S : FVec Ideal S2097152x2x2 .f32) : FVec Ideal S2097152x2x2 .f32 :=
  concatenate S2097152x2x2 2
    [⟨S2097152x2x1, broadcastInDim S2097152x2x1 ![0, 1] bcast_S2097152x2_S2097152x2x1_0_1
        (subf (mulf (cosB θ) (col0 S)) (mulf (sinB θ) (col1 S)))⟩,
     ⟨S2097152x2x1, broadcastInDim S2097152x2x1 ![0, 1] bcast_S2097152x2_S2097152x2x1_0_1
        (addf (mulf (sinB θ) (col0 S)) (mulf (cosB θ) (col1 S)))⟩]
    concatenates_S2097152x2x1_S2097152x2x1_S2097152x2x2_d2

/-- The half angle of row b is the row's angle times one half (a product at an index; a broadcast scalar reads its
    value everywhere; a splat constant reads the extended real of its word). -/
theorem halfOf_apply (θ : FVec Ideal S2097152 .f32) (b : Fin 2097152) :
    halfOf θ (ix1 b) = θ (ix1 b) * Cert.Spec.half := by
  show θ (ix1 b) * _ = _
  refine congrArg (θ (ix1 b) * ·) ?_
  exact broadcastInDim_apply _ _ _ (ix1 b) ix0 (fun a => a.elim0)

/-- A vector over the rows, given a unit second axis and repeated along it, reads at (b, p) the vector at b. -/
theorem bcastRows_apply (x : FVec Ideal S2097152 .f32) (b : Fin 2097152) (p : Fin 2) :
    broadcastInDim S2097152x2 ![0, 1] bcast_S2097152x1_S2097152x2_0_1
      (broadcastInDim S2097152x1 ![0] bcast_S2097152_S2097152x1_0 x) (ix2 b p) = x (ix1 b) := by
  refine (broadcastInDim_apply _ _ _ (ix2 b p) (ix2 b (0 : Fin 1))
    (fun a => match a with | ⟨0, _⟩ => rfl | ⟨1, _⟩ => rfl)).trans ?_
  exact broadcastInDim_apply _ _ _ (ix2 b (0 : Fin 1)) (ix1 b) (fun a => match a with | ⟨0, _⟩ => rfl)

/-- The cosine array at (b, p) is the cosine of row b's half angle. -/
theorem cosB_apply (θ : FVec Ideal S2097152 .f32) (b : Fin 2097152) (p : Fin 2) :
    cosB θ (ix2 b p) = Ideal.cos (θ (ix1 b) * Cert.Spec.half) := by
  refine (bcastRows_apply _ b p).trans ?_
  show Ideal.cos (halfOf θ (ix1 b)) = _
  rw [halfOf_apply]

/-- The sine array at (b, p) is the sine of row b's half angle. -/
theorem sinB_apply (θ : FVec Ideal S2097152 .f32) (b : Fin 2097152) (p : Fin 2) :
    sinB θ (ix2 b p) = Ideal.sin (θ (ix1 b) * Cert.Spec.half) := by
  refine (bcastRows_apply _ b p).trans ?_
  show Ideal.sin (halfOf θ (ix1 b)) = _
  rw [halfOf_apply]

/-- Column 0 of the state at (b, p) is the state's entry (b, p, 0): the shape cast keeps the row-major position, the
    slice has offset 0 on every axis. -/
theorem col0_apply (S : FVec Ideal S2097152x2x2 .f32) (b : Fin 2097152) (p : Fin 2) :
    col0 S (ix2 b p) = S (ix3 b p 0) := by
  refine (shapeCast_apply _ _ (ix2 b p) (ix3 b p (0 : Fin 1))
    (by rw [Shape.rowMajor_val_three, Shape.rowMajor_val_two]
        show (b.val * 2 + p.val) * 1 + 0 = b.val * 2 + p.val
        omega)).trans ?_
  exact extractStridedSlice_apply _ _ _ (ix3 b p (0 : Fin 1)) (ix3 b p (0 : Fin 2))
    (fun a => match a with
      | ⟨0, _⟩ => by show b.val = 0 + b.val; omega
      | ⟨1, _⟩ => by show p.val = 0 + p.val; omega
      | ⟨2, _⟩ => by show 0 = 0 + 0; omega)

/-- Column 1 of the state at (b, p) is the state's entry (b, p, 1): the slice has offset 1 on the last axis. -/
theorem col1_apply (S : FVec Ideal S2097152x2x2 .f32) (b : Fin 2097152) (p : Fin 2) :
    col1 S (ix2 b p) = S (ix3 b p 1) := by
  refine (shapeCast_apply _ _ (ix2 b p) (ix3 b p (0 : Fin 1))
    (by rw [Shape.rowMajor_val_three, Shape.rowMajor_val_two]
        show (b.val * 2 + p.val) * 1 + 0 = b.val * 2 + p.val
        omega)).trans ?_
  exact extractStridedSlice_apply _ _ _ (ix3 b p (0 : Fin 1)) (ix3 b p (1 : Fin 2))
    (fun a => match a with
      | ⟨0, _⟩ => by show b.val = 0 + b.val; omega
      | ⟨1, _⟩ => by show p.val = 0 + p.val; omega
      | ⟨2, _⟩ => by show 1 = 1 + 0; omega)

/-- The window's result at (b, p, 0): the first piece of the concatenation, c · S(b, p, 0) − s · S(b, p, 1). -/
theorem rotWin_q0 (θ : FVec Ideal S2097152 .f32) (S : FVec Ideal S2097152x2x2 .f32) (b : Fin 2097152) (p : Fin 2) :
    rotWin θ S (ix3 b p 0)
      = Ideal.cos (θ (ix1 b) * Cert.Spec.half) * S (ix3 b p 0) - Ideal.sin (θ (ix1 b) * Cert.Spec.half) * S (ix3 b p 1) := by
  refine (concatenate_pair_apply_left (t := S2097152x2x2) (s₁ := S2097152x2x1) (s₂ := S2097152x2x1) _ _ _ _
    (ix3 b p (0 : Fin 2)) rfl (ix3 b p (0 : Fin 1))
    (fun a => match a with | ⟨0, _⟩ => rfl | ⟨1, _⟩ => rfl | ⟨2, _⟩ => rfl)).trans ?_
  refine (broadcastInDim_apply _ _ _ (ix3 b p (0 : Fin 1)) (ix2 b p)
    (fun a => match a with | ⟨0, _⟩ => rfl | ⟨1, _⟩ => rfl)).trans ?_
  show cosB θ (ix2 b p) * col0 S (ix2 b p) - sinB θ (ix2 b p) * col1 S (ix2 b p) = _
  rw [cosB_apply, sinB_apply, col0_apply, col1_apply]

/-- The window's result at (b, p, 1): the second piece of the concatenation, s · S(b, p, 0) + c · S(b, p, 1). -/
theorem rotWin_q1 (θ : FVec Ideal S2097152 .f32) (S : FVec Ideal S2097152x2x2 .f32) (b : Fin 2097152) (p : Fin 2) :
    rotWin θ S (ix3 b p 1)
      = Ideal.sin (θ (ix1 b) * Cert.Spec.half) * S (ix3 b p 0) + Ideal.cos (θ (ix1 b) * Cert.Spec.half) * S (ix3 b p 1) := by
  refine (concatenate_pair_apply_right (t := S2097152x2x2) (s₁ := S2097152x2x1) (s₂ := S2097152x2x1) _ _ _ _
    (ix3 b p (1 : Fin 2)) rfl rfl (ix3 b p (0 : Fin 1))
    (fun a => match a with
      | ⟨0, _⟩ => fun _ => rfl
      | ⟨1, _⟩ => fun _ => rfl
      | ⟨2, _⟩ => fun h => absurd rfl h) rfl).trans ?_
  refine (broadcastInDim_apply _ _ _ (ix3 b p (0 : Fin 1)) (ix2 b p)
    (fun a => match a with | ⟨0, _⟩ => rfl | ⟨1, _⟩ => rfl)).trans ?_
  show sinB θ (ix2 b p) * col0 S (ix2 b p) + cosB θ (ix2 b p) * col1 S (ix2 b p) = _
  rw [cosB_apply, sinB_apply, col0_apply, col1_apply]

/-- THE WINDOW AT AN ENTRY: the rotation of qubit 1 of row b's state by row b's angle, at (p, q). -/
theorem rotWin_apply (θ : FVec Ideal S2097152 .f32) (S : FVec Ideal S2097152x2x2 .f32) (b : Fin 2097152) (p q : Fin 2) :
    rotWin θ S (ix3 b p q) = (Cert.Spec.rot1 (θ (ix1 b)) (stOf S b)).at p q := by
  match p, q with
  | ⟨0, _⟩, ⟨0, _⟩ => exact rotWin_q0 θ S b 0
  | ⟨0, _⟩, ⟨1, _⟩ => exact rotWin_q1 θ S b 0
  | ⟨1, _⟩, ⟨0, _⟩ => exact rotWin_q0 θ S b 1
  | ⟨1, _⟩, ⟨1, _⟩ => exact rotWin_q1 θ S b 1

/-! ## The column of angles a window reads -/

/-- Column 1 of a [rows, 2] array of angles, as a vector over the rows, at row b. -/
theorem angle2_1 (X : FVec Ideal S2097152x2 .f32) (b : Fin 2097152) :
    shapeCast S2097152 (extractStridedSlice S2097152x1 ![0, 1] X slices_S2097152x2_S2097152x1_0_1)
      shapeCasts_S2097152x1_S2097152 (ix1 b) = X (ix2 b 1) := by
  refine (shapeCast_apply _ _ (ix1 b) (ix2 b (0 : Fin 1))
    (by rw [Shape.rowMajor_val_two, Shape.rowMajor_val_one]
        show b.val * 1 + 0 = b.val
        omega)).trans ?_
  exact extractStridedSlice_apply _ _ _ (ix2 b (0 : Fin 1)) (ix2 b (1 : Fin 2))
    (fun a => match a with
      | ⟨0, _⟩ => by show b.val = 0 + b.val; omega
      | ⟨1, _⟩ => by show 1 = 1 + 0; omega)

/-- Column 1 of a [rows, 4] array of angles, as a vector over the rows, at row b. -/
theorem angle4_1 (X : FVec Ideal S2097152x4 .f32) (b : Fin 2097152) :
    shapeCast S2097152 (extractStridedSlice S2097152x1 ![0, 1] X slices_S2097152x4_S2097152x1_0_1)
      shapeCasts_S2097152x1_S2097152 (ix1 b) = X (ix2 b 1) := by
  refine (shapeCast_apply _ _ (ix1 b) (ix2 b (0 : Fin 1))
    (by rw [Shape.rowMajor_val_two, Shape.rowMajor_val_one]
        show b.val * 1 + 0 = b.val
        omega)).trans ?_
  exact extractStridedSlice_apply _ _ _ (ix2 b (0 : Fin 1)) (ix2 b (1 : Fin 4))
    (fun a => match a with
      | ⟨0, _⟩ => by show b.val = 0 + b.val; omega
      | ⟨1, _⟩ => by show 1 = 1 + 0; omega)

/-- Column 3 of a [rows, 4] array of angles, as a vector over the rows, at row b. -/
theorem angle4_3 (X : FVec Ideal S2097152x4 .f32) (b : Fin 2097152) :
    shapeCast S2097152 (extractStridedSlice S2097152x1 ![0, 3] X slices_S2097152x4_S2097152x1_0_3)
      shapeCasts_S2097152x1_S2097152 (ix1 b) = X (ix2 b 3) := by
  refine (shapeCast_apply _ _ (ix1 b) (ix2 b (0 : Fin 1))
    (by rw [Shape.rowMajor_val_two, Shape.rowMajor_val_one]
        show b.val * 1 + 0 = b.val
        omega)).trans ?_
  exact extractStridedSlice_apply _ _ _ (ix2 b (0 : Fin 1)) (ix2 b (3 : Fin 4))
    (fun a => match a with
      | ⟨0, _⟩ => by show b.val = 0 + b.val; omega
      | ⟨1, _⟩ => by show 3 = 3 + 0; omega)

end Rot1

open Rot1

/-! ## The three windows -/

/-- Window `g2` rotates qubit 1 of every row's state by the row's angle in column 1 of `main_arg0`. -/
theorem g2_apply (V : Vl) (b : Fin 2097152) (p q : Fin 2) :
    (after (g2 (F := Ideal)) V (Proc.devRef .tc main_v67) : S2097152x2x2.Idx → EReal) (ix3 b p q)
      = (Cert.Spec.rot1 ((V (Proc.devRef .tc main_arg0) : S2097152x2.Idx → EReal) (ix2 b 1))
          (stOf (V (Proc.devRef .tc main_v40)) b)).at p q := by
  simp only [g2]
  after_results_simp
  refine (rotWin_apply _ _ b p q).trans ?_
  exact congrArg (fun t => (Cert.Spec.rot1 t (stOf (V (Proc.devRef .tc main_v40)) b)).at p q)
    (angle2_1 (V (Proc.devRef .tc main_arg0)) b)

/-- Window `g4` rotates qubit 1 of every row's state by the row's angle in column 1 of `main_v8`. -/
theorem g4_apply (V : Vl) (b : Fin 2097152) (p q : Fin 2) :
    (after (g4 (F := Ideal)) V (Proc.devRef .tc main_v128) : S2097152x2x2.Idx → EReal) (ix3 b p q)
      = (Cert.Spec.rot1 ((V (Proc.devRef .tc main_v8) : S2097152x4.Idx → EReal) (ix2 b 1))
          (stOf (V (Proc.devRef .tc main_v101)) b)).at p q := by
  simp only [g4]
  after_results_simp
  refine (rotWin_apply _ _ b p q).trans ?_
  exact congrArg (fun t => (Cert.Spec.rot1 t (stOf (V (Proc.devRef .tc main_v101)) b)).at p q)
    (angle4_1 (V (Proc.devRef .tc main_v8)) b)

/-- Window `g6` rotates qubit 1 of every row's state by the row's angle in column 3 of `main_v8`. -/
theorem g6_apply (V : Vl) (b : Fin 2097152) (p q : Fin 2) :
    (after (g6 (F := Ideal)) V (Proc.devRef .tc main_v189) : S2097152x2x2.Idx → EReal) (ix3 b p q)
      = (Cert.Spec.rot1 ((V (Proc.devRef .tc main_v8) : S2097152x4.Idx → EReal) (ix2 b 3))
          (stOf (V (Proc.devRef .tc main_v162)) b)).at p q := by
  simp only [g6]
  after_results_simp
  refine (rotWin_apply _ _ b p q).trans ?_
  exact congrArg (fun t => (Cert.Spec.rot1 t (stOf (V (Proc.devRef .tc main_v162)) b)).at p q)
    (angle4_3 (V (Proc.devRef .tc main_v8)) b)

end Cert.ReferenceIdeal.Win

end
-- ==== Proof.RefWinPerm.lean ====
/-
  The windows of the reference that build the initial state and apply the two controlled-nots.

  The initial state: a [rows, 4] array of zeros receives the constant one in column 0 of every row (a scatter whose
  one start index is the constant 0, so update r lands on entry (r, 0)), and is then read as [rows, 2, 2]: row b
  holds (1, 0, 0, 0), the state |00>.

  A controlled-not: the [rows, 2, 2] array of states is read as [rows, 4], its columns are taken by the table
  [0, 1, 3, 2] (no entry of the table is negative, so the table itself is the list of start indices; each is inside
  the four columns, so the clamp leaves it), and the result is read as [rows, 2, 2] again: columns 2 and 3, the
  amplitudes of |10> and |11>, are exchanged.
-/
import proofs.«430581_j65481071406452_3_alg».proof.Proof.RefWinDefs
import Idealize.ShloMosaic.Lib.Pipeline.Value

noncomputable section

namespace Cert.ReferenceIdeal.Win

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

namespace Perm

/-! ## A left fold of writes of one constant -/

/-- Writes of one constant, folded from the left over a list of positions: an entry some write lands on holds the
    constant (whichever write came last, they all write the same), any other entry keeps the start's. By induction
    over the list. -/
theorem foldl_write {ι κ α : Type} [DecidableEq ι] (tgt : κ → ι) (v : κ → α) (c : α) (hv : ∀ k, v k = c)
    (l : List κ) : ∀ (r : ι → α) (i' : ι),
    ((∃ n ∈ l, tgt n = i') → (l.foldl (fun r n => fun i'' => if i'' = tgt n then v n else r i'') r) i' = c) ∧
    ((∀ n ∈ l, tgt n ≠ i') → (l.foldl (fun r n => fun i'' => if i'' = tgt n then v n else r i'') r) i' = r i') := by
  induction l with
  | nil =>
    intro r i'
    exact ⟨fun ⟨n, hn, _⟩ => absurd hn List.not_mem_nil, fun _ => rfl⟩
  | cons n l ih =>
    intro r i'
    have hmiss : (∀ m ∈ n :: l, tgt m ≠ i') →
        ((n :: l).foldl (fun r n => fun i'' => if i'' = tgt n then v n else r i'') r) i' = r i' := by
      intro h
      rw [List.foldl_cons, (ih _ i').2 fun m hm => h m (List.mem_cons_of_mem n hm)]
      exact if_neg fun e => h n List.mem_cons_self e.symm
    refine ⟨fun hex => ?_, hmiss⟩
    by_cases hl : ∃ m ∈ l, tgt m = i'
    · rw [List.foldl_cons]; exact (ih _ i').1 hl
    · have hn : tgt n = i' := by
        obtain ⟨m, hm, e⟩ := hex
        rcases List.mem_cons.1 hm with rfl | hm'
        · exact e
        · exact absurd ⟨m, hm', e⟩ hl
      rw [List.foldl_cons, (ih _ i').2 fun m hm e => hl ⟨m, hm, e⟩]
      exact (if_pos hn.symm).trans (hv n)

/-- Two folds with pointwise equal steps are equal. -/
theorem foldl_congr' {α β : Type} (f g : α → β → α) (h : ∀ a b, f a b = g a b) (l : List β) (a : α) :
    l.foldl f a = l.foldl g a := by
  rw [show f = g from funext fun a => funext (h a)]

/-! ## The scatter into column 0 -/

/-- The scatter's dimension numbers: the update's one axis is the window along the rows, the column axis is inserted
    and is the one the start index names. -/
abbrev scat := scatter_S2097152x4_S1_S2097152_0_1_1_0

/-- The rows are not indexed: the window starts at row 0. -/
theorem scat_start0 (r : Fin 2097152) (idx : IVec S1 32) : scat.start (ix1 r) idx ⟨0, by decide⟩ = 0 := by
  unfold ScatterDims.start
  exact dif_neg (by decide)

/-- The column start is the one start index, here 0. -/
theorem scat_start1 (r : Fin 2097152) (idx : IVec S1 32) (hidx : ∀ k, idx k = 0#32) :
    scat.start (ix1 r) idx ⟨1, by decide⟩ = 0 := by
  unfold ScatterDims.start
  rw [dif_pos (by decide), hidx]
  rfl

/-- Update r's window coordinate along the rows is r. -/
theorem scat_window0 (r : Fin 2097152) : scat.window (ix1 r) ⟨0, by decide⟩ = r.val := by
  unfold ScatterDims.window
  rw [dif_pos (by decide)]
  have e : ∀ X : Fin 1, ((ix1 r : S2097152.Idx) X).val = r.val := fun X => by
    obtain rfl : X = 0 := Subsingleton.elim _ _
    rfl
  exact e _

/-- The column axis is inserted: no window coordinate there. -/
theorem scat_window1 (r : Fin 2097152) : scat.window (ix1 r) ⟨1, by decide⟩ = 0 := by
  unfold ScatterDims.window
  exact dif_neg (by decide)

/-- With the start index 0, update r lands on entry (r, 0), which is inside the array. -/
theorem scat_result (r : Fin 2097152) (idx : IVec S1 32) (hidx : ∀ k, idx k = 0#32) :
    scat.resultIdx? (ix1 r) idx = some (ix2 r (0 : Fin 4)) := by
  have h0 : scat.start (ix1 r) idx ⟨0, by decide⟩ + scat.window (ix1 r) ⟨0, by decide⟩ = (r.val : Int) := by
    rw [scat_start0, scat_window0]; simp
  have h1 : scat.start (ix1 r) idx ⟨1, by decide⟩ + scat.window (ix1 r) ⟨1, by decide⟩ = (0 : Int) := by
    rw [scat_start1 r idx hidx, scat_window1]; simp
  unfold ScatterDims.resultIdx?
  have hall : ∀ a, 0 ≤ scat.start (ix1 r) idx a + scat.window (ix1 r) a ∧
      scat.start (ix1 r) idx a + scat.window (ix1 r) a < S2097152x4.size a := by
    intro a
    match a with
    | ⟨0, _⟩ => rw [h0]; have := r.isLt; exact ⟨by omega, by show (r.val : Int) < 2097152; omega⟩
    | ⟨1, _⟩ => rw [h1]; exact ⟨by omega, by show (0 : Int) < 4; omega⟩
  rw [dif_pos hall]
  congr 1
  funext a
  match a with
  | ⟨0, h⟩ =>
    refine Fin.ext ?_
    show (scat.start (ix1 r) idx ⟨0, h⟩ + scat.window (ix1 r) ⟨0, h⟩).toNat = r.val
    rw [h0]; rfl
  | ⟨1, h⟩ =>
    refine Fin.ext ?_
    show (scat.start (ix1 r) idx ⟨1, h⟩ + scat.window (ix1 r) ⟨1, h⟩).toNat = 0
    rw [h1]; rfl

/-- The scatter of one constant at the start index 0: column 0 of every row holds the constant (update b lands on
    (b, 0)), the other columns keep the operand's entries (every update lands in column 0). -/
theorem scatter_col0 (x : S2097152x4.Idx → EReal) (idx : IVec S1 32) (hidx : ∀ k, idx k = 0#32)
    (upd : S2097152.Idx → EReal) (c : EReal) (hupd : ∀ k, upd k = c) (b : Fin 2097152) (col : Fin 4) :
    Host.scatter scat (fun _ b => b) x idx upd (ix2 b col) = if col.val = 0 then c else x (ix2 b col) := by
  unfold Host.scatter
  refine (congrFun (foldl_congr' _
    (fun r n i'' => if i'' = ix2 (n0 := 2097152) (n1 := 4) (S2097152.rowMajor.symm n 0) 0
      then upd (S2097152.rowMajor.symm n) else r i'')
    ?_ _ _) _).trans ?_
  · intro r n
    have e : scat.resultIdx? (S2097152.rowMajor.symm n) idx
        = some (ix2 (n0 := 2097152) (n1 := 4) (S2097152.rowMajor.symm n 0) 0) :=
      (congrArg (fun j => scat.resultIdx? j idx) (eq_ix1 (S2097152.rowMajor.symm n))).trans (scat_result _ idx hidx)
    rw [e]
  · have hw := foldl_write (fun n : Fin S2097152.numel => ix2 (n0 := 2097152) (n1 := 4) (S2097152.rowMajor.symm n 0) 0)
      (fun n => upd (S2097152.rowMajor.symm n)) c (fun n => hupd _) (List.finRange S2097152.numel) x (ix2 b col)
    by_cases hcol : col.val = 0
    · rw [if_pos hcol]
      refine hw.1 ⟨S2097152.rowMajor (ix1 b), List.mem_finRange _, ?_⟩
      rw [Equiv.symm_apply_apply]
      obtain rfl : col = 0 := Fin.ext hcol
      rfl
    · rw [if_neg hcol]
      refine hw.2 fun n _ e => hcol ?_
      have := congrArg (fun i : S2097152x4.Idx => (i 1).val) e
      exact this.symm

/-! ## The two readings of a row's four entries -/

/-- A [rows, 4] array read as [rows, 2, 2]: entry (b, p, q) is entry (b, 2 p + q). -/
theorem cast_4_22 {α : Type} (x : S2097152x4.Idx → α) (h : S2097152x4.ShapeCasts S2097152x2x2) (b : Fin 2097152)
    (p q : Fin 2) : shapeCast S2097152x2x2 x h (ix3 b p q) = x (ix2 b ⟨2 * p.val + q.val, by omega⟩) :=
  shapeCast_apply x h _ _ (by
    rw [Shape.rowMajor_val_two, Shape.rowMajor_val_three]
    show b.val * 4 + (2 * p.val + q.val) = (b.val * 2 + p.val) * 2 + q.val
    omega)

/-- A [rows, 2, 2] array read as [rows, 4]: entry (b, c) is entry (b, c / 2, c % 2). -/
theorem cast_22_4 {α : Type} (x : S2097152x2x2.Idx → α) (h : S2097152x2x2.ShapeCasts S2097152x4) (b : Fin 2097152)
    (c : Fin 4) : shapeCast S2097152x4 x h (ix2 b c) = x (ix3 b ⟨c.val / 2, by omega⟩ ⟨c.val % 2, by omega⟩) :=
  shapeCast_apply x h _ _ (by
    rw [Shape.rowMajor_val_two, Shape.rowMajor_val_three]
    show (b.val * 2 + c.val / 2) * 2 + c.val % 2 = b.val * 4 + c.val
    omega)

/-! ## The take of the columns -/

/-- The gather's dimension numbers: whole columns are taken (the row axis is the offset axis, the column axis is
    collapsed and is the one the start indices name), one column per start index. -/
abbrev gath := gather_S2097152x4_S4x1_S2097152x4_0_1_n_n_1_1_20971521

/-- Entry (b, c) of the result is the operand's entry (b, t c), t c the c-th start index read signed and clamped
    into the four columns. -/
theorem gather_cols {α : Type} (x : S2097152x4.Idx → α) (idx : IVec S4x1 32) (b : Fin 2097152) (c : Fin 4) :
    Host.gather gath x idx (ix2 b c) = x (ix2 b ⟨min (idx (ix2 c (0 : Fin 1))).toInt.toNat 3, by omega⟩) := by
  unfold Host.gather
  congr 1
  funext a
  refine Fin.ext ?_
  match a with
  | ⟨0, h⟩ =>
    show gath.start (ix2 b c) idx ⟨0, h⟩ + gath.batchCoord (ix2 b c) ⟨0, h⟩ + gath.offCoord (ix2 b c) ⟨0, h⟩ = b.val
    rw [GatherDims.batchCoord_eq_zero _ _ _ List.not_mem_nil]
    unfold GatherDims.start GatherDims.offCoord
    rw [dif_neg (show (⟨0, by decide⟩ : Fin S2097152x4.rank) ∉ gath.startIndexMap by decide),
      dif_pos (show (⟨0, by decide⟩ : Fin S2097152x4.rank) ∈ gath.sKept by decide)]
    simp only [Nat.zero_add]
    rfl
  | ⟨1, h⟩ =>
    show gath.start (ix2 b c) idx ⟨1, h⟩ + gath.batchCoord (ix2 b c) ⟨1, h⟩ + gath.offCoord (ix2 b c) ⟨1, h⟩
      = min (idx (ix2 c (0 : Fin 1))).toInt.toNat 3
    rw [GatherDims.batchCoord_eq_zero _ _ _ List.not_mem_nil,
      GatherDims.offCoord_eq_zero _ _ _ (show (⟨1, by decide⟩ : Fin S2097152x4.rank) ∉ gath.sKept by decide)]
    unfold GatherDims.start
    have hm1 : (⟨1, h⟩ : Fin S2097152x4.rank) ∈ gath.startIndexMap :=
      show (⟨1, by decide⟩ : Fin S2097152x4.rank) ∈ gath.startIndexMap by decide
    rw [dif_pos hm1]
    have hsi : gath.siIdx (ix2 b c) ⟨List.idxOf (⟨1, h⟩ : Fin S2097152x4.rank) gath.startIndexMap,
        List.idxOf_lt_length_iff.2 hm1⟩ = ix2 c (0 : Fin 1) := by
      funext k; refine Fin.ext ?_
      match k with
      | ⟨0, _⟩ => rfl
      | ⟨1, _⟩ => rfl
    rw [hsi]
    rfl

/-- The same, with the clamped start index named. -/
theorem gather_perm {α : Type} (x : S2097152x4.Idx → α) (idx : IVec S4x1 32) (b : Fin 2097152) (c c' : Fin 4)
    (h : min (idx (ix2 c (0 : Fin 1))).toInt.toNat 3 = c'.val) : Host.gather gath x idx (ix2 b c) = x (ix2 b c') :=
  (gather_cols x idx b c).trans (congrArg (fun k : Fin 4 => x (ix2 b k)) (Fin.ext h))

/-- The start indices of the take: the table itself (the mask of negative entries is all false, so the copy shifted
    by 4 is never chosen), laid as a column. -/
theorem perm_idx (cc : S4.Idx → BitVec 32) (m : S4.Idx → BitVec 1) (hc : cc = fun i => lit0 (S4.rowMajor i))
    (hm : m = constantI S4 1 0#1) (c : Fin 4) :
    (broadcastInDim S4x1 ![0] bcast_S4_S4x1_0
      (select m (addi cc (broadcastInDim S4 ![] bcast_S_S4 (constantI S_ 32 4#32))) cc)) (ix2 c (0 : Fin 1))
      = lit0 c := by
  refine (broadcastInDim_apply _ _ _ _ (ix1 c) (fun a => match a with | ⟨0, _⟩ => rfl)).trans ?_
  rw [select_apply, hm, hc]
  show Scalar.select 0#1 _ (lit0 (S4.rowMajor (ix1 c))) = lit0 c
  rw [select_zero]
  congr 1
  exact Fin.ext (Shape.rowMajor_val_one _)

/-- The controlled-not on a [rows, 2, 2] array of states: entry (b, p, q) of the result is entry (b, 2 p + q) of the
    take, which is column t (2 p + q) of the flattened state, t = [0, 1, 3, 2]: the amplitudes of |10> and |11> change
    places. -/
theorem x_apply (S : S2097152x2x2.Idx → EReal) (cc : S4.Idx → BitVec 32) (m : S4.Idx → BitVec 1)
    (hc : cc = fun i => lit0 (S4.rowMajor i)) (hm : m = constantI S4 1 0#1) (b : Fin 2097152) (p q : Fin 2) :
    shapeCast S2097152x2x2
      (Host.gather gath (fun i => shapeCast S2097152x4 S shapeCasts_S2097152x2x2_S2097152x4 i)
        (broadcastInDim S4x1 ![0] bcast_S4_S4x1_0
          (select m (addi cc (broadcastInDim S4 ![] bcast_S_S4 (constantI S_ 32 4#32))) cc)))
      shapeCasts_S2097152x4_S2097152x2x2 (ix3 b p q) = (Cert.Spec.cx (stOf S b)).at p q := by
  refine (cast_4_22 _ _ b p q).trans ?_
  match p, q with
  | ⟨0, _⟩, ⟨0, _⟩ =>
    exact (gather_perm _ _ b _ ⟨0, by decide⟩ (by rw [perm_idx cc m hc hm]; rfl)).trans (cast_22_4 S _ b _)
  | ⟨0, _⟩, ⟨1, _⟩ =>
    exact (gather_perm _ _ b _ ⟨1, by decide⟩ (by rw [perm_idx cc m hc hm]; rfl)).trans (cast_22_4 S _ b _)
  | ⟨1, _⟩, ⟨0, _⟩ =>
    exact (gather_perm _ _ b _ ⟨3, by decide⟩ (by rw [perm_idx cc m hc hm]; rfl)).trans (cast_22_4 S _ b _)
  | ⟨1, _⟩, ⟨1, _⟩ =>
    exact (gather_perm _ _ b _ ⟨2, by decide⟩ (by rw [perm_idx cc m hc hm]; rfl)).trans (cast_22_4 S _ b _)

end Perm

open Perm

/-- Window `w1` builds the state |00> in every row: a scatter of ones into column 0 of a zero array, reshaped. -/
theorem w1_apply (V : Vl) (b : Fin 2097152) (p q : Fin 2) :
    (after (w1 (F := Ideal)) V (Proc.devRef .tc main_v13) : S2097152x2x2.Idx → EReal) (ix3 b p q) = Cert.Spec.init.at p q := by
  simp only [w1]
  after_results_simp
  refine (cast_4_22 _ _ b p q).trans ?_
  refine (scatter_col0 _ _ (fun _ => rfl) _ Cert.Spec.one (fun _ => rfl) b _).trans ?_
  match p, q with
  | ⟨0, _⟩, ⟨0, _⟩ => rfl
  | ⟨0, _⟩, ⟨1, _⟩ => rfl
  | ⟨1, _⟩, ⟨0, _⟩ => rfl
  | ⟨1, _⟩, ⟨1, _⟩ => rfl

/-- Window `x1` applies the controlled-not to every row's state: a gather of the flattened state's columns by the
    table [0, 1, 3, 2] (held in `main_c`; the mask `main_c_0` of negative entries is all false). -/
theorem x1_apply (V : Vl) (hc : (V (Proc.devRef .tc main_c) : S4.Idx → BitVec 32) = fun i => lit0 (S4.rowMajor i))
    (hc0 : (V (Proc.devRef .tc main_c_0) : S4.Idx → BitVec 1) = constantI S4 1 0#1) (b : Fin 2097152) (p q : Fin 2) :
    (after (x1 (F := Ideal)) V (Proc.devRef .tc main_v74) : S2097152x2x2.Idx → EReal) (ix3 b p q)
      = (Cert.Spec.cx (stOf (V (Proc.devRef .tc main_v67)) b)).at p q := by
  simp only [x1]
  after_results_simp
  exact x_apply _ _ _ hc hc0 b p q

/-- Window `x2`: the second controlled-not, the same gather (mask `main_c_1`). -/
theorem x2_apply (V : Vl) (hc : (V (Proc.devRef .tc main_c) : S4.Idx → BitVec 32) = fun i => lit0 (S4.rowMajor i))
    (hc1 : (V (Proc.devRef .tc main_c_1) : S4.Idx → BitVec 1) = constantI S4 1 0#1) (b : Fin 2097152) (p q : Fin 2) :
    (after (x2 (F := Ideal)) V (Proc.devRef .tc main_v135) : S2097152x2x2.Idx → EReal) (ix3 b p q)
      = (Cert.Spec.cx (stOf (V (Proc.devRef .tc main_v128)) b)).at p q := by
  simp only [x2]
  after_results_simp
  exact x_apply _ _ _ hc hc1 b p q

end Cert.ReferenceIdeal.Win

end
-- ==== Proof.RefWinNet.lean ====
/-
  The first window of the reference (the network that computes the learned angles, and three constants) and its
  last (the probabilities and their softmax).

  The network at row b and angle l: the first product is read at an index as the sum over the two inputs, the bias
  broadcasts read their vector, tanh is pointwise, the second product is the sum over the eight hidden units.

  The last window at row b: the state is read flat (column 2p + q holds the amplitude of |p q>), squared, columns
  0 and 2 and columns 1 and 3 are added, the two sums are put side by side; the maximum over the pair from -inf is
  the maximum of the two, the sum over the pair from zero is the sum of the two, and the quotient is the softmax.
-/
import proofs.«430581_j65481071406452_3_alg».proof.Proof.RefWinDefs
import Idealize.ShloMosaic.PureOps.Ideal.Laws
import Idealize.ShloMosaic.Lib.Pipeline.Value

noncomputable section

namespace Cert.ReferenceIdeal.Win

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

namespace Net

/-- The host's pointwise quotient, exponential and hyperbolic tangent, read at an index. -/
theorem hostDivf_apply {s : Shape} {φ : FTy} (x y : FVec Ideal s φ) (i : s.Idx) : Host.divf x y i = Ideal.div (x i) (y i) := rfl
theorem hostExp_apply {s : Shape} {φ : FTy} (x : FVec Ideal s φ) (i : s.Idx) : Host.exp x i = Ideal.exp (x i) := rfl
theorem hostTanh_apply {s : Shape} {φ : FTy} (x : FVec Ideal s φ) (i : s.Idx) : Host.tanh x i = Ideal.tanh (x i) := rfl

/-- First product: the contraction shape has one axis of extent 2. -/
theorem d1_lhs0 (j : S2097152x8.Idx) (k : dot_S2097152x2_S2x8_S2097152x8_1_0_0_1_n_n.contr.Idx) :
    (dot_S2097152x2_S2x8_S2097152x8_1_0_0_1_n_n.lhsIdx j k 0).val = (j 0).val := rfl
theorem d1_rhs1 (j : S2097152x8.Idx) (k : dot_S2097152x2_S2x8_S2097152x8_1_0_0_1_n_n.contr.Idx) :
    (dot_S2097152x2_S2x8_S2097152x8_1_0_0_1_n_n.rhsIdx j k 1).val = (j 1).val := rfl
theorem d1_lhs1 (j : S2097152x8.Idx) (k : dot_S2097152x2_S2x8_S2097152x8_1_0_0_1_n_n.contr.Idx) :
    (dot_S2097152x2_S2x8_S2097152x8_1_0_0_1_n_n.lhsIdx j k 1).val = (k ⟨0, by decide⟩).val :=
  dot_S2097152x2_S2x8_S2097152x8_1_0_0_1_n_n.lhsIdx_val_of_single rfl j k
theorem d1_rhs0 (j : S2097152x8.Idx) (k : dot_S2097152x2_S2x8_S2097152x8_1_0_0_1_n_n.contr.Idx) :
    (dot_S2097152x2_S2x8_S2097152x8_1_0_0_1_n_n.rhsIdx j k 0).val = (k ⟨0, by decide⟩).val :=
  dot_S2097152x2_S2x8_S2097152x8_1_0_0_1_n_n.rhsIdx_val_of_single rfl j k

theorem dot1_apply (x : FVec Ideal S2097152x2 .f32) (W : FVec Ideal S2x8 .f32) (b : Fin 2097152) (j : Fin 8) :
    (Host.dotGeneral (F := Ideal) dot_S2097152x2_S2x8_S2097152x8_1_0_0_1_n_n none x W : S2097152x8.Idx → EReal) (ix2 b j)
      = ∑ k : Fin 2, x (ix2 b k) * W (ix2 k j) := by
  refine (Ideal.dotGeneral_apply _ none .single x W (ix2 b j)).trans ?_
  rw [← Equiv.sum_comp (contrEquiv1 dot_S2097152x2_S2x8_S2097152x8_1_0_0_1_n_n 2 rfl rfl).symm]
  refine Finset.sum_congr rfl fun k _ => ?_
  have hk := contrEquiv1_symm_val dot_S2097152x2_S2x8_S2097152x8_1_0_0_1_n_n 2 rfl rfl k
  have hl : dot_S2097152x2_S2x8_S2097152x8_1_0_0_1_n_n.lhsIdx (ix2 b j) ((contrEquiv1 dot_S2097152x2_S2x8_S2097152x8_1_0_0_1_n_n 2 rfl rfl).symm k) = ix2 b k := by
    funext a; apply Fin.ext
    match a with
    | ⟨0, _⟩ => exact d1_lhs0 _ _
    | ⟨1, _⟩ => exact (d1_lhs1 _ _).trans hk
  have hr : dot_S2097152x2_S2x8_S2097152x8_1_0_0_1_n_n.rhsIdx (ix2 b j) ((contrEquiv1 dot_S2097152x2_S2x8_S2097152x8_1_0_0_1_n_n 2 rfl rfl).symm k) = ix2 k j := by
    funext a; apply Fin.ext
    match a with
    | ⟨0, _⟩ => exact (d1_rhs0 _ _).trans hk
    | ⟨1, _⟩ => exact d1_rhs1 _ _
  rw [hl, hr]

/-- Second product: the contraction shape has one axis of extent 8. -/
theorem d2_lhs0 (j : S2097152x4.Idx) (k : dot_S2097152x8_S8x4_S2097152x4_1_0_0_1_n_n.contr.Idx) :
    (dot_S2097152x8_S8x4_S2097152x4_1_0_0_1_n_n.lhsIdx j k 0).val = (j 0).val := rfl
theorem d2_rhs1 (j : S2097152x4.Idx) (k : dot_S2097152x8_S8x4_S2097152x4_1_0_0_1_n_n.contr.Idx) :
    (dot_S2097152x8_S8x4_S2097152x4_1_0_0_1_n_n.rhsIdx j k 1).val = (j 1).val := rfl
theorem d2_lhs1 (j : S2097152x4.Idx) (k : dot_S2097152x8_S8x4_S2097152x4_1_0_0_1_n_n.contr.Idx) :
    (dot_S2097152x8_S8x4_S2097152x4_1_0_0_1_n_n.lhsIdx j k 1).val = (k ⟨0, by decide⟩).val :=
  dot_S2097152x8_S8x4_S2097152x4_1_0_0_1_n_n.lhsIdx_val_of_single rfl j k
theorem d2_rhs0 (j : S2097152x4.Idx) (k : dot_S2097152x8_S8x4_S2097152x4_1_0_0_1_n_n.contr.Idx) :
    (dot_S2097152x8_S8x4_S2097152x4_1_0_0_1_n_n.rhsIdx j k 0).val = (k ⟨0, by decide⟩).val :=
  dot_S2097152x8_S8x4_S2097152x4_1_0_0_1_n_n.rhsIdx_val_of_single rfl j k

theorem dot2_apply (x : FVec Ideal S2097152x8 .f32) (W : FVec Ideal S8x4 .f32) (b : Fin 2097152) (j : Fin 4) :
    (Host.dotGeneral (F := Ideal) dot_S2097152x8_S8x4_S2097152x4_1_0_0_1_n_n none x W : S2097152x4.Idx → EReal) (ix2 b j)
      = ∑ k : Fin 8, x (ix2 b k) * W (ix2 k j) := by
  refine (Ideal.dotGeneral_apply _ none .single x W (ix2 b j)).trans ?_
  rw [← Equiv.sum_comp (contrEquiv1 dot_S2097152x8_S8x4_S2097152x4_1_0_0_1_n_n 8 rfl rfl).symm]
  refine Finset.sum_congr rfl fun k _ => ?_
  have hk := contrEquiv1_symm_val dot_S2097152x8_S8x4_S2097152x4_1_0_0_1_n_n 8 rfl rfl k
  have hl : dot_S2097152x8_S8x4_S2097152x4_1_0_0_1_n_n.lhsIdx (ix2 b j) ((contrEquiv1 dot_S2097152x8_S8x4_S2097152x4_1_0_0_1_n_n 8 rfl rfl).symm k) = ix2 b k := by
    funext a; apply Fin.ext
    match a with
    | ⟨0, _⟩ => exact d2_lhs0 _ _
    | ⟨1, _⟩ => exact (d2_lhs1 _ _).trans hk
  have hr : dot_S2097152x8_S8x4_S2097152x4_1_0_0_1_n_n.rhsIdx (ix2 b j) ((contrEquiv1 dot_S2097152x8_S8x4_S2097152x4_1_0_0_1_n_n 8 rfl rfl).symm k) = ix2 k j := by
    funext a; apply Fin.ext
    match a with
    | ⟨0, _⟩ => exact (d2_rhs0 _ _).trans hk
    | ⟨1, _⟩ => exact d2_rhs1 _ _
  rw [hl, hr]

/-- The bias of the hidden layer, broadcast to every row, read at (b, j). -/
theorem bias1_apply (v : S8.Idx → EReal) (b : Fin 2097152) (j : Fin 8) :
    (broadcastInDim S2097152x8 ![0, 1] bcast_S1x8_S2097152x8_0_1 (broadcastInDim S1x8 ![1] bcast_S8_S1x8_1 v) : S2097152x8.Idx → EReal) (ix2 b j)
      = v (ix1 j) := by
  refine (broadcastInDim_apply _ _ _ (ix2 b j) (ix2 (0 : Fin 1) j) (fun a => by match a with | ⟨0, _⟩ => rfl | ⟨1, _⟩ => rfl)).trans ?_
  exact broadcastInDim_apply _ _ _ (ix2 (0 : Fin 1) j) (ix1 j) (fun a => by match a with | ⟨0, _⟩ => rfl)

/-- The bias of the output layer, broadcast to every row, read at (b, l). -/
theorem bias2_apply (v : S4.Idx → EReal) (b : Fin 2097152) (l : Fin 4) :
    (broadcastInDim S2097152x4 ![0, 1] bcast_S1x4_S2097152x4_0_1 (broadcastInDim S1x4 ![1] bcast_S4_S1x4_1 v) : S2097152x4.Idx → EReal) (ix2 b l)
      = v (ix1 l) := by
  refine (broadcastInDim_apply _ _ _ (ix2 b l) (ix2 (0 : Fin 1) l) (fun a => by match a with | ⟨0, _⟩ => rfl | ⟨1, _⟩ => rfl)).trans ?_
  exact broadcastInDim_apply _ _ _ (ix2 (0 : Fin 1) l) (ix1 l) (fun a => by match a with | ⟨0, _⟩ => rfl)

/-- The network at (b, l): the second product over the hidden units of tanh of the first product plus its bias,
    plus the output bias. -/
theorem net_apply (X : FVec Ideal S2097152x2 .f32) (W1 : FVec Ideal S2x8 .f32) (B1 : FVec Ideal S8 .f32)
    (W2 : FVec Ideal S8x4 .f32) (B2 : FVec Ideal S4 .f32) (b : Fin 2097152) (l : Fin 4) :
    (addf
      (Host.dotGeneral (F := Ideal) dot_S2097152x8_S8x4_S2097152x4_1_0_0_1_n_n none
        (Host.tanh
          (addf
            (Host.dotGeneral (F := Ideal) dot_S2097152x2_S2x8_S2097152x8_1_0_0_1_n_n none X W1)
            (broadcastInDim S2097152x8 ![0, 1] bcast_S1x8_S2097152x8_0_1
              (broadcastInDim S1x8 ![1] bcast_S8_S1x8_1 B1))))
        W2)
      (broadcastInDim S2097152x4 ![0, 1] bcast_S1x4_S2097152x4_0_1
        (broadcastInDim S1x4 ![1] bcast_S4_S1x4_1 B2)) : S2097152x4.Idx → EReal)
      (ix2 b l)
    = Cert.Spec.ang (Cert.Spec.row X b) (Cert.Spec.mat W1) (Cert.Spec.vec B1) (Cert.Spec.mat W2) (Cert.Spec.vec B2) l := by
  rw [addf_apply, dot2_apply, bias2_apply]
  unfold Cert.Spec.ang Cert.Spec.hid Cert.Spec.row Cert.Spec.mat Cert.Spec.vec
  refine congrArg (· + B2 (ix1 l)) (Finset.sum_congr rfl fun j _ => ?_)
  refine congrArg (· * W2 (ix2 j l)) ?_
  rw [hostTanh_apply, addf_apply, dot1_apply, bias1_apply]

variable {F : FTy → Type} [FloatOps F]

/-- The last window in three consecutive parts: the two probabilities of every row (twelve operations) … -/
abbrev finA : List (HloOp τ sig (Elt F)) :=
  [ reshape main_v189 main_v190 rfl shapeCasts_S2097152x2x2_S2097152x4,
    binary main_v190 main_v190 main_v191 (mulf : (⟨S2097152x4, .f32⟩ : BufTy).Contents (Elt F) → (⟨S2097152x4, .f32⟩ : BufTy).Contents (Elt F) → (⟨S2097152x4, .f32⟩ : BufTy).Contents (Elt F)),
    unary main_v191 main_v192 ((extractStridedSlice S2097152x1 ![0, 0] · slices_S2097152x4_S2097152x1_0_0) : (⟨S2097152x4, .f32⟩ : BufTy).Contents (Elt F) → (⟨S2097152x1, .f32⟩ : BufTy).Contents (Elt F)),
    reshape main_v192 main_v193 rfl shapeCasts_S2097152x1_S2097152,
    unary main_v191 main_v194 ((extractStridedSlice S2097152x1 ![0, 2] · slices_S2097152x4_S2097152x1_0_2) : (⟨S2097152x4, .f32⟩ : BufTy).Contents (Elt F) → (⟨S2097152x1, .f32⟩ : BufTy).Contents (Elt F)),
    reshape main_v194 main_v195 rfl shapeCasts_S2097152x1_S2097152,
    binary main_v193 main_v195 main_v196 (addf : (⟨S2097152, .f32⟩ : BufTy).Contents (Elt F) → (⟨S2097152, .f32⟩ : BufTy).Contents (Elt F) → (⟨S2097152, .f32⟩ : BufTy).Contents (Elt F)),
    unary main_v191 main_v197 ((extractStridedSlice S2097152x1 ![0, 1] · slices_S2097152x4_S2097152x1_0_1) : (⟨S2097152x4, .f32⟩ : BufTy).Contents (Elt F) → (⟨S2097152x1, .f32⟩ : BufTy).Contents (Elt F)),
    reshape main_v197 main_v198 rfl shapeCasts_S2097152x1_S2097152,
    unary main_v191 main_v199 ((extractStridedSlice S2097152x1 ![0, 3] · slices_S2097152x4_S2097152x1_0_3) : (⟨S2097152x4, .f32⟩ : BufTy).Contents (Elt F) → (⟨S2097152x1, .f32⟩ : BufTy).Contents (Elt F)),
    reshape main_v199 main_v200 rfl shapeCasts_S2097152x1_S2097152,
    binary main_v198 main_v200 main_v201 (addf : (⟨S2097152, .f32⟩ : BufTy).Contents (Elt F) → (⟨S2097152, .f32⟩ : BufTy).Contents (Elt F) → (⟨S2097152, .f32⟩ : BufTy).Contents (Elt F)) ]
/-- … the two side by side (three operations) … -/
abbrev finB : List (HloOp τ sig (Elt F)) :=
  [ unary main_v196 main_v202 (broadcastInDim S2097152x1 ![0] bcast_S2097152_S2097152x1_0 : (⟨S2097152, .f32⟩ : BufTy).Contents (Elt F) → (⟨S2097152x1, .f32⟩ : BufTy).Contents (Elt F)),
    unary main_v201 main_v203 (broadcastInDim S2097152x1 ![0] bcast_S2097152_S2097152x1_0 : (⟨S2097152, .f32⟩ : BufTy).Contents (Elt F) → (⟨S2097152x1, .f32⟩ : BufTy).Contents (Elt F)),
    binary main_v202 main_v203 main_v204 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)) ]
/-- … and their softmax (fourteen operations). -/
abbrev finC : List (HloOp τ sig (Elt F)) :=
  [ nullary main_cst_18 (constant S_ .f32 0xFF800000#32),
    binary main_v204 main_cst_18 main_v205 ((fun x v => Host.reduce FloatOps.maximumf x v reducesTo_S2097152x2_S2097152_d1 h_S_) : (⟨S2097152x2, .f32⟩ : BufTy).Contents (Elt F) → (⟨S_, .f32⟩ : BufTy).Contents (Elt F) → (⟨S2097152, .f32⟩ : BufTy).Contents (Elt F)),
    nullary main_cst_19 (constant S_ .f32 0xFF800000#32),
    unary main_cst_19 main_v206 (broadcastInDim S2097152 ![] bcast_S_S2097152 : (⟨S_, .f32⟩ : BufTy).Contents (Elt F) → (⟨S2097152, .f32⟩ : BufTy).Contents (Elt F)),
    binary main_v206 main_v205 main_v207 (maximumf : (⟨S2097152, .f32⟩ : BufTy).Contents (Elt F) → (⟨S2097152, .f32⟩ : BufTy).Contents (Elt F) → (⟨S2097152, .f32⟩ : BufTy).Contents (Elt F)),
    unary main_v207 main_v208 (broadcastInDim S2097152x1 ![0] bcast_S2097152_S2097152x1_0 : (⟨S2097152, .f32⟩ : BufTy).Contents (Elt F) → (⟨S2097152x1, .f32⟩ : BufTy).Contents (Elt F)),
    unary main_v208 main_v209 (broadcastInDim S2097152x2 ![0, 1] bcast_S2097152x1_S2097152x2_0_1 : (⟨S2097152x1, .f32⟩ : BufTy).Contents (Elt F) → (⟨S2097152x2, .f32⟩ : BufTy).Contents (Elt F)),
    binary main_v204 main_v209 main_v210 (subf : (⟨S2097152x2, .f32⟩ : BufTy).Contents (Elt F) → (⟨S2097152x2, .f32⟩ : BufTy).Contents (Elt F) → (⟨S2097152x2, .f32⟩ : BufTy).Contents (Elt F)),
    unary main_v210 main_v211 (Host.exp : (⟨S2097152x2, .f32⟩ : BufTy).Contents (Elt F) → (⟨S2097152x2, .f32⟩ : BufTy).Contents (Elt F)),
    nullary main_cst_20 (constant S_ .f32 0x00000000#32),
    binary main_v211 main_cst_20 main_v212 ((fun x v => Host.reduceAdd x v reducesTo_S2097152x2_S2097152_d1 h_S_) : (⟨S2097152x2, .f32⟩ : BufTy).Contents (Elt F) → (⟨S_, .f32⟩ : BufTy).Contents (Elt F) → (⟨S2097152, .f32⟩ : BufTy).Contents (Elt F)),
    unary main_v212 main_v213 (broadcastInDim S2097152x1 ![0] bcast_S2097152_S2097152x1_0 : (⟨S2097152, .f32⟩ : BufTy).Contents (Elt F) → (⟨S2097152x1, .f32⟩ : BufTy).Contents (Elt F)),
    unary main_v213 main_v214 (broadcastInDim S2097152x2 ![0, 1] bcast_S2097152x1_S2097152x2_0_1 : (⟨S2097152x1, .f32⟩ : BufTy).Contents (Elt F) → (⟨S2097152x2, .f32⟩ : BufTy).Contents (Elt F)),
    binary main_v211 main_v214 main_v215 (Host.divf : (⟨S2097152x2, .f32⟩ : BufTy).Contents (Elt F) → (⟨S2097152x2, .f32⟩ : BufTy).Contents (Elt F) → (⟨S2097152x2, .f32⟩ : BufTy).Contents (Elt F)) ]

/-- The window is its three parts in order. -/
theorem fin_parts : (fin (F := F)) = finA ++ (finB ++ finC) := rfl

/-- Operations run one list after the other. -/
theorem after_app (l₁ l₂ : List (HloOp τ sig (Elt Ideal))) (V : Vl) : after (l₁ ++ l₂) V = after l₂ (after l₁ V) := by
  induction l₁ generalizing V with
  | nil => rfl
  | cons op l ih => exact ih _
theorem ofBits_neginf : Ideal.ofBits .f32 0xFF800000#32 = (⊥ : EReal) := by simp [Ideal.ofBits, Ideal.ieee]

/-- Dropping the column of an n × 2 array leaves its rows. -/
theorem red : S2097152x2.Reduces [1] S2097152 := by decide

/-- Row b with column k put back is (b, k). -/
theorem lift_pair (b : Fin 2097152) (k : Fin (S2097152x2.size 1)) : red.lift (ix1 b) k = ix2 b (⟨k.val, k.isLt⟩ : Fin 2) := by
  funext c; apply Fin.ext
  match c with
  | ⟨0, _⟩ => rfl
  | ⟨1, _⟩ => rfl

/-- The maximum over a pair, from the bottom element, is the maximum of the two. -/
theorem fold_max_pair (f : Fin 2 → EReal) : (Finset.univ : Finset (Fin 2)).fold max ⊥ f = max (f 0) (f 1) := by
  simp only [Fin.univ_succ, Finset.fold_cons, Finset.fold_map, Finset.univ_unique, Finset.fold_singleton]
  show max (f 0) (max (f 1) ⊥) = _
  rw [max_bot_right]

/-- A column of row values broadcast along the pair reads the row's value. -/
theorem pairB_apply (u : FVec Ideal S2097152 .f32) (b : Fin 2097152) (c : Fin 2) :
    (broadcastInDim S2097152x2 ![0, 1] bcast_S2097152x1_S2097152x2_0_1 (broadcastInDim S2097152x1 ![0] bcast_S2097152_S2097152x1_0 u) : S2097152x2.Idx → EReal) (ix2 b c)
      = u (ix1 b) := by
  refine (broadcastInDim_apply _ _ _ (ix2 b c) (ix2 b (0 : Fin 1)) (fun a => by match a with | ⟨0, _⟩ => rfl | ⟨1, _⟩ => rfl)).trans ?_
  exact broadcastInDim_apply _ _ _ (ix2 b (0 : Fin 1)) (ix1 b) (fun a => by match a with | ⟨0, _⟩ => rfl)

/-- The row maximum: the reduction over the pair from −∞, joined once more with −∞, is the maximum of the two. -/
theorem rowmax_apply (P : FVec Ideal S2097152x2 .f32) (b : Fin 2097152) :
    (maximumf (broadcastInDim S2097152 ![] bcast_S_S2097152 (constant (F := Ideal) S_ .f32 0xFF800000#32))
      (Host.reduce FloatOps.maximumf P (constant (F := Ideal) S_ .f32 0xFF800000#32) reducesTo_S2097152x2_S2097152_d1 h_S_) : S2097152.Idx → EReal) (ix1 b)
      = max (P (ix2 b 0)) (P (ix2 b 1)) := by
  have hred := Host.reduce_eq_fold_single FloatOps.maximumf P (constant (F := Ideal) S_ .f32 0xFF800000#32)
    reducesTo_S2097152x2_S2097152_d1 red h_S_ (ix1 b)
  generalize Host.reduce FloatOps.maximumf P (constant (F := Ideal) S_ .f32 0xFF800000#32)
    reducesTo_S2097152x2_S2097152_d1 h_S_ = R at hred ⊢
  have hb : (broadcastInDim S2097152 ![] bcast_S_S2097152 (constant (F := Ideal) S_ .f32 0xFF800000#32) : S2097152.Idx → EReal) (ix1 b) = ⊥ :=
    (broadcastInDim_apply _ _ _ (ix1 b) ix0 (fun a => a.elim0)).trans ofBits_neginf
  have hf : (P ∘ red.lift (ix1 b)) = fun k : Fin 2 => P (ix2 b k) := funext fun k => congrArg P (lift_pair b k)
  rw [maximumf_apply, hb, hred, max_bot_left, hf]
  refine Eq.trans ?_ (fold_max_pair fun k => P (ix2 b k))
  rw [← ofBits_neginf]
  rfl

/-- The row sum: the reduction over the pair from zero is the sum of the two. -/
theorem rowsum_apply (E : FVec Ideal S2097152x2 .f32) (b : Fin 2097152) :
    (Host.reduceAdd E (constant (F := Ideal) S_ .f32 0x00000000#32) reducesTo_S2097152x2_S2097152_d1 h_S_ : S2097152.Idx → EReal) (ix1 b)
      = E (ix2 b 0) + E (ix2 b 1) := by
  show Ideal.hostReduceAdd reducesTo_S2097152x2_S2097152_d1 E (Ideal.ofBits .f32 0x00000000#32) (ix1 b) = _
  rw [Ideal.hostReduceAdd_single reducesTo_S2097152x2_S2097152_d1 red, Ideal.ofBits_zero_f32, zero_add]
  refine (Fin.sum_univ_two (fun k : Fin 2 => E (red.lift (ix1 b) k))).trans ?_
  exact congrArg₂ (· + ·) (congrArg E (lift_pair b (0 : Fin 2))) (congrArg E (lift_pair b (1 : Fin 2)))

/-- The exponential of a pair shifted by a row value, at (b, c). -/
theorem expsub_apply (P : FVec Ideal S2097152x2 .f32) (M : FVec Ideal S2097152 .f32) (b : Fin 2097152) (c : Fin 2) :
    (Host.exp (subf P (broadcastInDim S2097152x2 ![0, 1] bcast_S2097152x1_S2097152x2_0_1
      (broadcastInDim S2097152x1 ![0] bcast_S2097152_S2097152x1_0 M))) : S2097152x2.Idx → EReal) (ix2 b c)
      = Ideal.exp (P (ix2 b c) - M (ix1 b)) := by
  rw [hostExp_apply, subf_apply, pairB_apply]

/-- A pair divided by its row sum, at (b, c). -/
theorem softdiv_apply (E : FVec Ideal S2097152x2 .f32) (b : Fin 2097152) (c : Fin 2) :
    (Host.divf E (broadcastInDim S2097152x2 ![0, 1] bcast_S2097152x1_S2097152x2_0_1
      (broadcastInDim S2097152x1 ![0] bcast_S2097152_S2097152x1_0
        (Host.reduceAdd E (constant (F := Ideal) S_ .f32 0x00000000#32) reducesTo_S2097152x2_S2097152_d1 h_S_))) : S2097152x2.Idx → EReal) (ix2 b c)
      = Ideal.div (E (ix2 b c)) (E (ix2 b 0) + E (ix2 b 1)) := by
  rw [hostDivf_apply, pairB_apply, rowsum_apply]

/-- The two-way softmax of a pair shifted by its maximum, component c of row b. -/
def softAt (P : S2097152x2.Idx → EReal) (b : Fin 2097152) (c : Fin 2) : EReal :=
  Ideal.div (Ideal.exp (P (ix2 b c) - max (P (ix2 b 0)) (P (ix2 b 1))))
    (Ideal.exp (P (ix2 b 0) - max (P (ix2 b 0)) (P (ix2 b 1))) + Ideal.exp (P (ix2 b 1) - max (P (ix2 b 0)) (P (ix2 b 1))))

/-- The third part leaves the softmax of what the second part left. -/
theorem finC_apply (W : Vl) (b : Fin 2097152) (c : Fin 2) :
    (after (finC (F := Ideal)) W (Proc.devRef .tc main_v215) : S2097152x2.Idx → EReal) (ix2 b c)
      = softAt (W (Proc.devRef .tc main_v204)) b c := by
  unfold softAt
  simp only [finC]
  after_results_simp
  generalize (W (Proc.devRef .tc main_v204) : S2097152x2.Idx → EReal) = P
  have hm := rowmax_apply P b
  generalize (maximumf (broadcastInDim S2097152 ![] bcast_S_S2097152 (constant (F := Ideal) S_ .f32 0xFF800000#32))
      (Host.reduce FloatOps.maximumf P (constant (F := Ideal) S_ .f32 0xFF800000#32) reducesTo_S2097152x2_S2097152_d1 h_S_)) = M at hm ⊢
  have hE := fun c : Fin 2 => expsub_apply P M b c
  generalize (Host.exp (subf P (broadcastInDim S2097152x2 ![0, 1] bcast_S2097152x1_S2097152x2_0_1
      (broadcastInDim S2097152x1 ![0] bcast_S2097152_S2097152x1_0 M)))) = E at hE ⊢
  rw [softdiv_apply E b c, hE, hE, hE, hm]

/-- Column c = 2p + q of the squared flat state, at row b, is the square of the amplitude of |p q>. -/
theorem sqcol_apply (S : FVec Ideal S2097152x2x2 .f32) (c : Nat) (hs : S2097152x4.Slices ![0, c] S2097152x1) (b : Fin 2097152)
    (p q : Fin 2) (hc : c = 2 * p.val + q.val) :
    (shapeCast S2097152
      (extractStridedSlice S2097152x1 ![0, c]
        (mulf (fun i => shapeCast S2097152x4 S shapeCasts_S2097152x2x2_S2097152x4 i)
          (fun i => shapeCast S2097152x4 S shapeCasts_S2097152x2x2_S2097152x4 i)) hs)
      shapeCasts_S2097152x1_S2097152 : S2097152.Idx → EReal) (ix1 b)
      = S (ix3 b p q) * S (ix3 b p q) := by
  have hc4 : c < 4 := by have := p.isLt; have := q.isLt; omega
  refine (shapeCast_apply _ shapeCasts_S2097152x1_S2097152 (ix1 b) (ix2 b (0 : Fin 1)) ?_).trans ?_
  · rw [Shape.rowMajor_val_two, Shape.rowMajor_val_one]
    show b.val * 1 + 0 = b.val
    omega
  refine (extractStridedSlice_apply _ _ hs (ix2 b (0 : Fin 1)) (ix2 b (⟨c, hc4⟩ : Fin 4)) (fun a => by
    match a with
    | ⟨0, _⟩ => show b.val = 0 + b.val; omega
    | ⟨1, _⟩ => show c = c + 0; omega)).trans ?_
  have hflat : shapeCast S2097152x4 S shapeCasts_S2097152x2x2_S2097152x4 (ix2 b (⟨c, hc4⟩ : Fin 4)) = S (ix3 b p q) :=
    shapeCast_apply S shapeCasts_S2097152x2x2_S2097152x4 _ _ (by
      rw [Shape.rowMajor_val_three, Shape.rowMajor_val_two]
      show (b.val * 2 + p.val) * 2 + q.val = b.val * 4 + c
      omega)
  show shapeCast S2097152x4 S shapeCasts_S2097152x2x2_S2097152x4 (ix2 b (⟨c, hc4⟩ : Fin 4))
      * shapeCast S2097152x4 S shapeCasts_S2097152x2x2_S2097152x4 (ix2 b (⟨c, hc4⟩ : Fin 4)) = _
  rw [hflat]

/-- The first part leaves the two probabilities of row b. -/
theorem finA_pA (V : Vl) (b : Fin 2097152) :
    (after (finA (F := Ideal)) V (Proc.devRef .tc main_v196) : S2097152.Idx → EReal) (ix1 b)
      = Cert.Spec.pA (stOf (V (Proc.devRef .tc main_v189)) b) := by
  simp only [finA]
  after_results_simp
  generalize (V (Proc.devRef .tc main_v189) : S2097152x2x2.Idx → EReal) = S
  exact congrArg₂ (· + ·) (sqcol_apply S 0 slices_S2097152x4_S2097152x1_0_0 b 0 0 rfl) (sqcol_apply S 2 slices_S2097152x4_S2097152x1_0_2 b 1 0 rfl)
theorem finA_pB (V : Vl) (b : Fin 2097152) :
    (after (finA (F := Ideal)) V (Proc.devRef .tc main_v201) : S2097152.Idx → EReal) (ix1 b)
      = Cert.Spec.pB (stOf (V (Proc.devRef .tc main_v189)) b) := by
  simp only [finA]
  after_results_simp
  generalize (V (Proc.devRef .tc main_v189) : S2097152x2x2.Idx → EReal) = S
  exact congrArg₂ (· + ·) (sqcol_apply S 1 slices_S2097152x4_S2097152x1_0_1 b 0 1 rfl) (sqcol_apply S 3 slices_S2097152x4_S2097152x1_0_3 b 1 1 rfl)

/-- Two columns of row values put side by side: entry (b, 0) is the first column's row b, entry (b, 1) the second's. -/
theorem pair_apply0 (u v : FVec Ideal S2097152 .f32) (b : Fin 2097152) :
    (concatenate S2097152x2 1
      [⟨S2097152x1, broadcastInDim S2097152x1 ![0] bcast_S2097152_S2097152x1_0 u⟩,
        ⟨S2097152x1, broadcastInDim S2097152x1 ![0] bcast_S2097152_S2097152x1_0 v⟩]
      concatenates_S2097152x1_S2097152x1_S2097152x2_d1 : S2097152x2.Idx → EReal) (ix2 b 0) = u (ix1 b) := by
  refine (concatenate_pair_apply_left 1 _ _ concatenates_S2097152x1_S2097152x1_S2097152x2_d1 (ix2 b 0) rfl (ix2 b (0 : Fin 1))
    (fun a => by match a with | ⟨0, _⟩ => rfl | ⟨1, _⟩ => rfl)).trans ?_
  exact broadcastInDim_apply _ _ _ (ix2 b (0 : Fin 1)) (ix1 b) (fun a => by match a with | ⟨0, _⟩ => rfl)
theorem pair_apply1 (u v : FVec Ideal S2097152 .f32) (b : Fin 2097152) :
    (concatenate S2097152x2 1
      [⟨S2097152x1, broadcastInDim S2097152x1 ![0] bcast_S2097152_S2097152x1_0 u⟩,
        ⟨S2097152x1, broadcastInDim S2097152x1 ![0] bcast_S2097152_S2097152x1_0 v⟩]
      concatenates_S2097152x1_S2097152x1_S2097152x2_d1 : S2097152x2.Idx → EReal) (ix2 b 1) = v (ix1 b) := by
  refine (concatenate_pair_apply_right 1 _ _ concatenates_S2097152x1_S2097152x1_S2097152x2_d1 (ix2 b 1) rfl rfl (ix2 b (0 : Fin 1))
    (fun a => by
      match a with
      | ⟨0, _⟩ => exact fun _ => rfl
      | ⟨1, _⟩ => exact fun h => absurd rfl h)
    rfl).trans ?_
  exact broadcastInDim_apply _ _ _ (ix2 b (0 : Fin 1)) (ix1 b) (fun a => by match a with | ⟨0, _⟩ => rfl)

/-- The second part puts side by side what the first part left. -/
theorem finB_apply0 (W : Vl) (b : Fin 2097152) :
    (after (finB (F := Ideal)) W (Proc.devRef .tc main_v204) : S2097152x2.Idx → EReal) (ix2 b 0)
      = (W (Proc.devRef .tc main_v196) : S2097152.Idx → EReal) (ix1 b) := by
  simp only [finB]
  after_results
  exact pair_apply0 _ _ b
theorem finB_apply1 (W : Vl) (b : Fin 2097152) :
    (after (finB (F := Ideal)) W (Proc.devRef .tc main_v204) : S2097152x2.Idx → EReal) (ix2 b 1)
      = (W (Proc.devRef .tc main_v201) : S2097152.Idx → EReal) (ix1 b) := by
  simp only [finB]
  after_results
  exact pair_apply1 _ _ b

end Net

/-- Window `w0` leaves in `main_v8` the four learned angles of every row. -/
theorem w0_ang (V : Vl) (b : Fin 2097152) (l : Fin 4) :
    (after (w0 (F := Ideal)) V (Proc.devRef .tc main_v8) : S2097152x4.Idx → EReal) (ix2 b l)
      = Cert.Spec.ang (Cert.Spec.row (V (Proc.devRef .tc main_arg0) : S2097152x2.Idx → EReal) b)
          (Cert.Spec.mat (V (Proc.devRef .tc main_arg1) : S2x8.Idx → EReal)) (Cert.Spec.vec (V (Proc.devRef .tc main_arg2) : S8.Idx → EReal))
          (Cert.Spec.mat (V (Proc.devRef .tc main_arg3) : S8x4.Idx → EReal)) (Cert.Spec.vec (V (Proc.devRef .tc main_arg4) : S4.Idx → EReal)) l := by
  simp only [w0]
  after_results_simp
  generalize (V (Proc.devRef .tc main_arg0) : S2097152x2.Idx → EReal) = X
  generalize (V (Proc.devRef .tc main_arg1) : S2x8.Idx → EReal) = W1
  generalize (V (Proc.devRef .tc main_arg2) : S8.Idx → EReal) = B1
  generalize (V (Proc.devRef .tc main_arg3) : S8x4.Idx → EReal) = W2
  generalize (V (Proc.devRef .tc main_arg4) : S4.Idx → EReal) = B2
  exact Net.net_apply X W1 B1 W2 B2 b l

/-- Window `w0` also writes the controlled-not's column table and two all-false masks. -/
theorem w0_c (V : Vl) : (after (w0 (F := Ideal)) V (Proc.devRef .tc main_c) : S4.Idx → BitVec 32) = fun i => lit0 (S4.rowMajor i) := by
  simp only [w0]
  after_results_simp
  rfl
theorem w0_c0 (V : Vl) : (after (w0 (F := Ideal)) V (Proc.devRef .tc main_c_0) : S4.Idx → BitVec 1) = constantI S4 1 0#1 := by
  simp only [w0]
  after_results_simp
theorem w0_c1 (V : Vl) : (after (w0 (F := Ideal)) V (Proc.devRef .tc main_c_1) : S4.Idx → BitVec 1) = constantI S4 1 0#1 := by
  simp only [w0]
  after_results_simp

/-- Window `fin` squares the amplitudes of every row's state, groups them, and takes the two-way softmax. -/
theorem fin_apply0 (V : Vl) (b : Fin 2097152) :
    (after (fin (F := Ideal)) V (Proc.devRef .tc main_v215) : S2097152x2.Idx → EReal) (ix2 b 0)
      = Cert.Spec.soft0 (Cert.Spec.pA (stOf (V (Proc.devRef .tc main_v189)) b)) (Cert.Spec.pB (stOf (V (Proc.devRef .tc main_v189)) b)) := by
  rw [Net.fin_parts, Net.after_app, Net.after_app, Net.finC_apply]
  unfold Net.softAt
  rw [Net.finB_apply0, Net.finB_apply1, Net.finA_pA, Net.finA_pB]
  rfl
theorem fin_apply1 (V : Vl) (b : Fin 2097152) :
    (after (fin (F := Ideal)) V (Proc.devRef .tc main_v215) : S2097152x2.Idx → EReal) (ix2 b 1)
      = Cert.Spec.soft1 (Cert.Spec.pA (stOf (V (Proc.devRef .tc main_v189)) b)) (Cert.Spec.pB (stOf (V (Proc.devRef .tc main_v189)) b)) := by
  rw [Net.fin_parts, Net.after_app, Net.after_app, Net.finC_apply]
  unfold Net.softAt
  rw [Net.finB_apply0, Net.finB_apply1, Net.finA_pA, Net.finA_pB]
  rfl

end Cert.ReferenceIdeal.Win

end
-- ==== Proof.RefValue.lean ====
/-
  The reference program's result, window by window.

  The program's operations are eleven windows run in order. Writing U k for the buffers' contents after the first
  k windows, the state of row b after each window is the previous one rotated, or with its last two amplitudes
  exchanged; the angles of the last four rotations are written by the first window and no later window overwrites
  them, and no window overwrites an argument. So the last window's result at row b is the softmax of the grouped
  squares of the fully rotated state: the result array G of the arguments.
-/
import proofs.«430581_j65481071406452_3_alg».proof.Proof.RefRun
import proofs.«430581_j65481071406452_3_alg».proof.Proof.RefWinRot0
import proofs.«430581_j65481071406452_3_alg».proof.Proof.RefWinRot1
import proofs.«430581_j65481071406452_3_alg».proof.Proof.RefWinPerm
import proofs.«430581_j65481071406452_3_alg».proof.Proof.RefWinNet
import Idealize.ShloMosaic.Lib.Pipeline.Frame

noncomputable section

namespace Cert.ReferenceIdeal.Win

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

/-! ## What a window leaves alone -/

/-- A single buffer among a list of buffers, as sets of device buffers. -/
theorem single_sub {W : List (Ref sig .tc)} {y : Ref sig .tc} (h : y ∈ W) :
    ({(Proc.devRef .tc y : DevRef τ sig)} : Finset (DevRef τ sig)) ⊆ (W.map (Proc.devRef (τ := τ) .tc)).toFinset := by
  rw [Finset.singleton_subset_iff, List.mem_toFinset]
  exact List.mem_map_of_mem h

theorem w0_writes : (w0 (F := Ideal)).Forall fun op => op.writes ⊆ (w0_W.map (Proc.devRef (τ := τ) .tc)).toFinset := by
  simp only [w0, List.Forall, nullary_writes, unary_writes, binary_writes, ternary_writes, reshape_writes]
  repeat' apply And.intro
  all_goals exact single_sub (by decide)
/-- A buffer window `w0` does not write keeps its contents through it. -/
theorem keep_w0 (V : Vl) (r : Ref sig .tc) (h : r ∉ w0_W) :
    after (w0 (F := Ideal)) V (Proc.devRef .tc r) = V (Proc.devRef .tc r) :=
  after_of_writes_sub w0 V w0_writes h

theorem w1_writes : (w1 (F := Ideal)).Forall fun op => op.writes ⊆ (w1_W.map (Proc.devRef (τ := τ) .tc)).toFinset := by
  simp only [w1, List.Forall, nullary_writes, unary_writes, binary_writes, ternary_writes, reshape_writes]
  repeat' apply And.intro
  all_goals exact single_sub (by decide)
/-- A buffer window `w1` does not write keeps its contents through it. -/
theorem keep_w1 (V : Vl) (r : Ref sig .tc) (h : r ∉ w1_W) :
    after (w1 (F := Ideal)) V (Proc.devRef .tc r) = V (Proc.devRef .tc r) :=
  after_of_writes_sub w1 V w1_writes h

theorem g1_writes : (g1 (F := Ideal)).Forall fun op => op.writes ⊆ (g1_W.map (Proc.devRef (τ := τ) .tc)).toFinset := by
  simp only [g1, List.Forall, nullary_writes, unary_writes, binary_writes, ternary_writes, reshape_writes]
  repeat' apply And.intro
  all_goals exact single_sub (by decide)
/-- A buffer window `g1` does not write keeps its contents through it. -/
theorem keep_g1 (V : Vl) (r : Ref sig .tc) (h : r ∉ g1_W) :
    after (g1 (F := Ideal)) V (Proc.devRef .tc r) = V (Proc.devRef .tc r) :=
  after_of_writes_sub g1 V g1_writes h

theorem g2_writes : (g2 (F := Ideal)).Forall fun op => op.writes ⊆ (g2_W.map (Proc.devRef (τ := τ) .tc)).toFinset := by
  simp only [g2, List.Forall, nullary_writes, unary_writes, binary_writes, ternary_writes, reshape_writes]
  repeat' apply And.intro
  all_goals exact single_sub (by decide)
/-- A buffer window `g2` does not write keeps its contents through it. -/
theorem keep_g2 (V : Vl) (r : Ref sig .tc) (h : r ∉ g2_W) :
    after (g2 (F := Ideal)) V (Proc.devRef .tc r) = V (Proc.devRef .tc r) :=
  after_of_writes_sub g2 V g2_writes h

theorem x1_writes : (x1 (F := Ideal)).Forall fun op => op.writes ⊆ (x1_W.map (Proc.devRef (τ := τ) .tc)).toFinset := by
  simp only [x1, List.Forall, nullary_writes, unary_writes, binary_writes, ternary_writes, reshape_writes]
  repeat' apply And.intro
  all_goals exact single_sub (by decide)
/-- A buffer window `x1` does not write keeps its contents through it. -/
theorem keep_x1 (V : Vl) (r : Ref sig .tc) (h : r ∉ x1_W) :
    after (x1 (F := Ideal)) V (Proc.devRef .tc r) = V (Proc.devRef .tc r) :=
  after_of_writes_sub x1 V x1_writes h

theorem g3_writes : (g3 (F := Ideal)).Forall fun op => op.writes ⊆ (g3_W.map (Proc.devRef (τ := τ) .tc)).toFinset := by
  simp only [g3, List.Forall, nullary_writes, unary_writes, binary_writes, ternary_writes, reshape_writes]
  repeat' apply And.intro
  all_goals exact single_sub (by decide)
/-- A buffer window `g3` does not write keeps its contents through it. -/
theorem keep_g3 (V : Vl) (r : Ref sig .tc) (h : r ∉ g3_W) :
    after (g3 (F := Ideal)) V (Proc.devRef .tc r) = V (Proc.devRef .tc r) :=
  after_of_writes_sub g3 V g3_writes h

theorem g4_writes : (g4 (F := Ideal)).Forall fun op => op.writes ⊆ (g4_W.map (Proc.devRef (τ := τ) .tc)).toFinset := by
  simp only [g4, List.Forall, nullary_writes, unary_writes, binary_writes, ternary_writes, reshape_writes]
  repeat' apply And.intro
  all_goals exact single_sub (by decide)
/-- A buffer window `g4` does not write keeps its contents through it. -/
theorem keep_g4 (V : Vl) (r : Ref sig .tc) (h : r ∉ g4_W) :
    after (g4 (F := Ideal)) V (Proc.devRef .tc r) = V (Proc.devRef .tc r) :=
  after_of_writes_sub g4 V g4_writes h

theorem x2_writes : (x2 (F := Ideal)).Forall fun op => op.writes ⊆ (x2_W.map (Proc.devRef (τ := τ) .tc)).toFinset := by
  simp only [x2, List.Forall, nullary_writes, unary_writes, binary_writes, ternary_writes, reshape_writes]
  repeat' apply And.intro
  all_goals exact single_sub (by decide)
/-- A buffer window `x2` does not write keeps its contents through it. -/
theorem keep_x2 (V : Vl) (r : Ref sig .tc) (h : r ∉ x2_W) :
    after (x2 (F := Ideal)) V (Proc.devRef .tc r) = V (Proc.devRef .tc r) :=
  after_of_writes_sub x2 V x2_writes h

theorem g5_writes : (g5 (F := Ideal)).Forall fun op => op.writes ⊆ (g5_W.map (Proc.devRef (τ := τ) .tc)).toFinset := by
  simp only [g5, List.Forall, nullary_writes, unary_writes, binary_writes, ternary_writes, reshape_writes]
  repeat' apply And.intro
  all_goals exact single_sub (by decide)
/-- A buffer window `g5` does not write keeps its contents through it. -/
theorem keep_g5 (V : Vl) (r : Ref sig .tc) (h : r ∉ g5_W) :
    after (g5 (F := Ideal)) V (Proc.devRef .tc r) = V (Proc.devRef .tc r) :=
  after_of_writes_sub g5 V g5_writes h

theorem g6_writes : (g6 (F := Ideal)).Forall fun op => op.writes ⊆ (g6_W.map (Proc.devRef (τ := τ) .tc)).toFinset := by
  simp only [g6, List.Forall, nullary_writes, unary_writes, binary_writes, ternary_writes, reshape_writes]
  repeat' apply And.intro
  all_goals exact single_sub (by decide)
/-- A buffer window `g6` does not write keeps its contents through it. -/
theorem keep_g6 (V : Vl) (r : Ref sig .tc) (h : r ∉ g6_W) :
    after (g6 (F := Ideal)) V (Proc.devRef .tc r) = V (Proc.devRef .tc r) :=
  after_of_writes_sub g6 V g6_writes h

theorem fin_writes : (fin (F := Ideal)).Forall fun op => op.writes ⊆ (fin_W.map (Proc.devRef (τ := τ) .tc)).toFinset := by
  simp only [fin, List.Forall, nullary_writes, unary_writes, binary_writes, ternary_writes, reshape_writes]
  repeat' apply And.intro
  all_goals exact single_sub (by decide)
/-- A buffer window `fin` does not write keeps its contents through it. -/
theorem keep_fin (V : Vl) (r : Ref sig .tc) (h : r ∉ fin_W) :
    after (fin (F := Ideal)) V (Proc.devRef .tc r) = V (Proc.devRef .tc r) :=
  after_of_writes_sub fin V fin_writes h

/-! ## The contents after the first k windows -/

def U1 (V : Vl) : Vl := after (w0 (F := Ideal)) V
def U2 (V : Vl) : Vl := after (w1 (F := Ideal)) (U1 V)
def U3 (V : Vl) : Vl := after (g1 (F := Ideal)) (U2 V)
def U4 (V : Vl) : Vl := after (g2 (F := Ideal)) (U3 V)
def U5 (V : Vl) : Vl := after (x1 (F := Ideal)) (U4 V)
def U6 (V : Vl) : Vl := after (g3 (F := Ideal)) (U5 V)
def U7 (V : Vl) : Vl := after (g4 (F := Ideal)) (U6 V)
def U8 (V : Vl) : Vl := after (x2 (F := Ideal)) (U7 V)
def U9 (V : Vl) : Vl := after (g5 (F := Ideal)) (U8 V)
def U10 (V : Vl) : Vl := after (g6 (F := Ideal)) (U9 V)
def U11 (V : Vl) : Vl := after (fin (F := Ideal)) (U10 V)

/-- All the operations, from any contents, are the eleven windows one after the other. -/
theorem after_all (V : Vl) : after (all (F := Ideal)) V = U11 V := by
  simp only [all, StableHlo.after_append]
  rfl

/-- The state of a row is determined by its four amplitudes. -/
theorem stOf_eq (S : S2097152x2x2.Idx → EReal) (b : Fin 2097152) (s : Cert.Spec.Amp) (h : ∀ p q, S (ix3 b p q) = s.at p q) :
    stOf S b = s := by
  unfold stOf
  rw [show (fun p q => S (ix3 b p q)) = s.at from funext fun p => funext fun q => h p q]
  exact Cert.Spec.Amp.of_at s

/-! ## The arguments and the first window's results through the later windows -/

section Kept
variable (V : Vl)

theorem arg0_U2 : U2 V (Proc.devRef .tc main_arg0) = V (Proc.devRef .tc main_arg0) := by
  unfold U2 U1; rw [keep_w1 _ _ (by decide), keep_w0 _ _ (by decide)]
theorem arg0_U3 : U3 V (Proc.devRef .tc main_arg0) = V (Proc.devRef .tc main_arg0) := by
  unfold U3; rw [keep_g1 _ _ (by decide), arg0_U2]

theorem v8_U5 : U5 V (Proc.devRef .tc main_v8) = U1 V (Proc.devRef .tc main_v8) := by
  unfold U5 U4 U3 U2; rw [keep_x1 _ _ (by decide), keep_g2 _ _ (by decide), keep_g1 _ _ (by decide), keep_w1 _ _ (by decide)]
theorem v8_U6 : U6 V (Proc.devRef .tc main_v8) = U1 V (Proc.devRef .tc main_v8) := by
  unfold U6; rw [keep_g3 _ _ (by decide), v8_U5]
theorem v8_U8 : U8 V (Proc.devRef .tc main_v8) = U1 V (Proc.devRef .tc main_v8) := by
  unfold U8 U7; rw [keep_x2 _ _ (by decide), keep_g4 _ _ (by decide), v8_U6]
theorem v8_U9 : U9 V (Proc.devRef .tc main_v8) = U1 V (Proc.devRef .tc main_v8) := by
  unfold U9; rw [keep_g5 _ _ (by decide), v8_U8]

theorem c_U4 : U4 V (Proc.devRef .tc main_c) = U1 V (Proc.devRef .tc main_c) := by
  unfold U4 U3 U2; rw [keep_g2 _ _ (by decide), keep_g1 _ _ (by decide), keep_w1 _ _ (by decide)]
theorem c0_U4 : U4 V (Proc.devRef .tc main_c_0) = U1 V (Proc.devRef .tc main_c_0) := by
  unfold U4 U3 U2; rw [keep_g2 _ _ (by decide), keep_g1 _ _ (by decide), keep_w1 _ _ (by decide)]
theorem c_U7 : U7 V (Proc.devRef .tc main_c) = U1 V (Proc.devRef .tc main_c) := by
  unfold U7 U6 U5; rw [keep_g4 _ _ (by decide), keep_g3 _ _ (by decide), keep_x1 _ _ (by decide), c_U4]
theorem c1_U7 : U7 V (Proc.devRef .tc main_c_1) = U1 V (Proc.devRef .tc main_c_1) := by
  unfold U7 U6 U5 U4 U3 U2
  rw [keep_g4 _ _ (by decide), keep_g3 _ _ (by decide), keep_x1 _ _ (by decide), keep_g2 _ _ (by decide), keep_g1 _ _ (by decide),
    keep_w1 _ _ (by decide)]

/-- No window writes an argument. -/
theorem arg_U11 (r : Ref sig .tc) (h0 : r ∉ w0_W) (h1 : r ∉ w1_W) (h2 : r ∉ g1_W) (h3 : r ∉ g2_W) (h4 : r ∉ x1_W) (h5 : r ∉ g3_W)
    (h6 : r ∉ g4_W) (h7 : r ∉ x2_W) (h8 : r ∉ g5_W) (h9 : r ∉ g6_W) (h10 : r ∉ fin_W) :
    U11 V (Proc.devRef .tc r) = V (Proc.devRef .tc r) := by
  unfold U11 U10 U9 U8 U7 U6 U5 U4 U3 U2 U1
  rw [keep_fin _ _ h10, keep_g6 _ _ h9, keep_g5 _ _ h8, keep_x2 _ _ h7, keep_g4 _ _ h6, keep_g3 _ _ h5, keep_x1 _ _ h4,
    keep_g2 _ _ h3, keep_g1 _ _ h2, keep_w1 _ _ h1, keep_w0 _ _ h0]

end Kept

/-! ## A row's state through the windows -/

section Row
variable (V : Vl) (b : Fin 2097152)

/-- Row b's two angles. -/
abbrev xr : Fin 2 → EReal := Cert.Spec.row (V (Proc.devRef .tc main_arg0) : S2097152x2.Idx → EReal) b
/-- Row b's four learned angles. -/
abbrev wr : Fin 4 → EReal :=
  Cert.Spec.ang (xr V b) (Cert.Spec.mat (V (Proc.devRef .tc main_arg1) : S2x8.Idx → EReal)) (Cert.Spec.vec (V (Proc.devRef .tc main_arg2) : S8.Idx → EReal))
    (Cert.Spec.mat (V (Proc.devRef .tc main_arg3) : S8x4.Idx → EReal)) (Cert.Spec.vec (V (Proc.devRef .tc main_arg4) : S4.Idx → EReal))

theorem st2 : stOf (U2 V (Proc.devRef .tc main_v13)) b = Cert.Spec.init :=
  stOf_eq _ _ _ fun p q => w1_apply (U1 V) b p q

theorem st3 : stOf (U3 V (Proc.devRef .tc main_v40)) b = Cert.Spec.rot0 (xr V b 0) Cert.Spec.init :=
  stOf_eq _ _ _ fun p q => (g1_apply (U2 V) b p q).trans (by rw [st2, arg0_U2]; rfl)

theorem st4 : stOf (U4 V (Proc.devRef .tc main_v67)) b = Cert.Spec.rot1 (xr V b 1) (Cert.Spec.rot0 (xr V b 0) Cert.Spec.init) :=
  stOf_eq _ _ _ fun p q => (g2_apply (U3 V) b p q).trans (by rw [st3, arg0_U3]; rfl)

theorem st5 : stOf (U5 V (Proc.devRef .tc main_v74)) b
    = Cert.Spec.cx (Cert.Spec.rot1 (xr V b 1) (Cert.Spec.rot0 (xr V b 0) Cert.Spec.init)) :=
  stOf_eq _ _ _ fun p q =>
    (x1_apply (U4 V) ((c_U4 V).trans (w0_c V)) ((c0_U4 V).trans (w0_c0 V)) b p q).trans (by rw [st4])

theorem st6 : stOf (U6 V (Proc.devRef .tc main_v101)) b
    = Cert.Spec.rot0 (wr V b 0) (Cert.Spec.cx (Cert.Spec.rot1 (xr V b 1) (Cert.Spec.rot0 (xr V b 0) Cert.Spec.init))) :=
  stOf_eq _ _ _ fun p q => (g3_apply (U5 V) b p q).trans (by rw [st5, v8_U5, show U1 V = after (w0 (F := Ideal)) V from rfl, w0_ang])

theorem st7 : stOf (U7 V (Proc.devRef .tc main_v128)) b
    = Cert.Spec.rot1 (wr V b 1) (Cert.Spec.rot0 (wr V b 0) (Cert.Spec.cx (Cert.Spec.rot1 (xr V b 1) (Cert.Spec.rot0 (xr V b 0) Cert.Spec.init)))) :=
  stOf_eq _ _ _ fun p q => (g4_apply (U6 V) b p q).trans (by rw [st6, v8_U6, show U1 V = after (w0 (F := Ideal)) V from rfl, w0_ang])

theorem st8 : stOf (U8 V (Proc.devRef .tc main_v135)) b
    = Cert.Spec.cx (Cert.Spec.rot1 (wr V b 1) (Cert.Spec.rot0 (wr V b 0) (Cert.Spec.cx (Cert.Spec.rot1 (xr V b 1) (Cert.Spec.rot0 (xr V b 0) Cert.Spec.init))))) :=
  stOf_eq _ _ _ fun p q =>
    (x2_apply (U7 V) ((c_U7 V).trans (w0_c V)) ((c1_U7 V).trans (w0_c1 V)) b p q).trans (by rw [st7])

theorem st9 : stOf (U9 V (Proc.devRef .tc main_v162)) b
    = Cert.Spec.rot0 (wr V b 2) (Cert.Spec.cx (Cert.Spec.rot1 (wr V b 1) (Cert.Spec.rot0 (wr V b 0) (Cert.Spec.cx (Cert.Spec.rot1 (xr V b 1) (Cert.Spec.rot0 (xr V b 0) Cert.Spec.init)))))) :=
  stOf_eq _ _ _ fun p q => (g5_apply (U8 V) b p q).trans (by rw [st8, v8_U8, show U1 V = after (w0 (F := Ideal)) V from rfl, w0_ang])

/-- After the six rotations and two controlled-nots the row's state is the specification's. -/
theorem st10 : stOf (U10 V (Proc.devRef .tc main_v189)) b = Cert.Spec.amp (xr V b) (wr V b) :=
  stOf_eq _ _ _ fun p q => (g6_apply (U9 V) b p q).trans (by rw [st9, v8_U9, show U1 V = after (w0 (F := Ideal)) V from rfl, w0_ang]; rfl)

end Row

/-! ## The result array -/

/-- From any contents of the arguments the reference's result buffer ends at the result array of the arguments. -/
theorem ref_value (V : Vl) :
    (after (all (F := Ideal)) V (Proc.devRef .tc main_v215) : S2097152x2.Idx → EReal)
      = Cert.Spec.G (V (Proc.devRef .tc main_arg0)) (V (Proc.devRef .tc main_arg1)) (V (Proc.devRef .tc main_arg2))
          (V (Proc.devRef .tc main_arg3)) (V (Proc.devRef .tc main_arg4)) := by
  rw [after_all]
  funext i
  obtain ⟨b, j, rfl⟩ : ∃ (b : Fin 2097152) (j : Fin 2), i = ix2 b j := ⟨i 0, i 1, eq_ix2 i⟩
  have hj : j = 0 ∨ j = 1 := by omega
  rcases hj with rfl | rfl
  · rw [Cert.Spec.G_col0]
    exact (fin_apply0 (U10 V) b).trans (by rw [st10]; rfl)
  · rw [Cert.Spec.G_col1]
    exact (fin_apply1 (U10 V) b).trans (by rw [st10]; rfl)

/-- The reference's arguments end unchanged. -/
theorem ref_arg (V : Vl) (r : Ref sig .tc) (h0 : r ∉ w0_W) (h1 : r ∉ w1_W) (h2 : r ∉ g1_W) (h3 : r ∉ g2_W) (h4 : r ∉ x1_W) (h5 : r ∉ g3_W)
    (h6 : r ∉ g4_W) (h7 : r ∉ x2_W) (h8 : r ∉ g5_W) (h9 : r ∉ g6_W) (h10 : r ∉ fin_W) :
    after (all (F := Ideal)) V (Proc.devRef .tc r) = V (Proc.devRef .tc r) := by
  rw [after_all]; exact arg_U11 V r h0 h1 h2 h3 h4 h5 h6 h7 h8 h9 h10

/-- Every weakly fair execution of the reference terminates with the result array of its arguments in its result
    buffer and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v215)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(h c main_v215).trans (ref_value (launchContents m c)),
       (h c main_arg0).trans (ref_arg _ _ (by decide) (by decide) (by decide) (by decide) (by decide) (by decide) (by decide) (by decide) (by decide) (by decide) (by decide)),
       (h c main_arg1).trans (ref_arg _ _ (by decide) (by decide) (by decide) (by decide) (by decide) (by decide) (by decide) (by decide) (by decide) (by decide) (by decide)),
       (h c main_arg2).trans (ref_arg _ _ (by decide) (by decide) (by decide) (by decide) (by decide) (by decide) (by decide) (by decide) (by decide) (by decide) (by decide)),
       (h c main_arg3).trans (ref_arg _ _ (by decide) (by decide) (by decide) (by decide) (by decide) (by decide) (by decide) (by decide) (by decide) (by decide) (by decide)),
       (h c main_arg4).trans (ref_arg _ _ (by decide) (by decide) (by decide) (by decide) (by decide) (by decide) (by decide) (by decide) (by decide) (by decide) (by decide))⟩)
    (Cert.ReferenceIdeal.HandRun.run_after (F := Ideal) m ρ)

end Cert.ReferenceIdeal.Win

end
-- ==== Proof.lean ====
/-
  The kernel streams 2097152 rows of two angles through a small network and a two-qubit circuit and returns, per
  row, the two-way softmax of two grouped measurement probabilities; the reference computes the same with whole-array
  operations. Over the extended reals both compute, row by row, the SAME expression tree (Spec.lean): the network's two
  products are plain sums of products on both sides, every rotation is written c·a − s·b and s·a + c·b on both sides, the
  controlled-not exchanges the same two amplitudes, and the softmax is shifted by the same maximum. So no algebraic law
  beyond 0 + x = x and max(−∞, x) = x is used, and the precondition is never opened.

  The kernel's side: one chunk of 512 rows read at a row (KernelChunk), the block a grid point leaves (KernelBlock), the
  whole array and the run (KernelValue). The reference's side: its operations as a list in eleven windows (RefOps, RefRun),
  what each window does to a row's state (RefWinRot0, RefWinRot1, RefWinPerm, RefWinNet), and their composition (RefValue).
  The three frames are the two generated frames and the reference's run with its result dropped; the idealization rewrote
  nothing.
-/
import proofs.«430581_j65481071406452_3_alg».proof.Defs
import proofs.«430581_j65481071406452_3_alg».proof.Proof.Gen.Kernel
import proofs.«430581_j65481071406452_3_alg».proof.Proof.Gen.Kernel.Frame
import proofs.«430581_j65481071406452_3_alg».proof.Proof.Gen.KernelIdeal
import proofs.«430581_j65481071406452_3_alg».proof.Proof.Gen.KernelIdeal.Frame
import proofs.«430581_j65481071406452_3_alg».proof.Proof.Gen.KernelIdeal.Value
import proofs.«430581_j65481071406452_3_alg».proof.Proof.Gen.ReferenceIdeal
import proofs.«430581_j65481071406452_3_alg».proof.Proof.Gen.Pre_finite_inputs
import proofs.«430581_j65481071406452_3_alg».proof.Proof.KernelValue
import proofs.«430581_j65481071406452_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Win.run m ρ)

/-- Both programs end with the result array G of their (agreeing) arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun r h c => ⟨(h c).1.trans ?_, (h c).2⟩)
    (Cert.ReferenceIdeal.Win.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
